-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x512 : Shape := ⟨3, ![256, 1024, 512]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S256x1024x512 : S_.BroadcastsInDim S256x1024x512 (![] : Fin 0 → Fin S256x1024x512.rank)
  reducesTo_S256x1024x512_S_d0_1_2 : S256x1024x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S256x1024x512 .f32) (main_arg1 : FVec F S256x512 .f32) (main_arg2 : FVec F S512x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S256x1024x512 .f32 := Host.absf main_arg0
  let main_cst : FVec F S_ .f32 := constant S_ .f32 0x7F800000#32
  let main_v1 : FVec F S256x1024x512 .f32 := broadcastInDim S256x1024x512 ![] bcast_S_S256x1024x512 main_cst
  let main_v2 : IVec S256x1024x512 1 := cmpf .olt main_v0 main_v1
  let main_c : IVec S_ 1 := constantI S_ 1 1#1
  let main_v3 : IVec S_ 1 := (fun x v => Host.reduce IntOp.andi x v reducesTo_S256x1024x512_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S256x1024x512 : Shape := ⟨3, ![256, 1024, 512]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S256x1024 : Shape := ⟨2, ![256, 1024]⟩
abbrev S16x256x512 : Shape := ⟨3, ![16, 256, 512]⟩
abbrev S16x512 : Shape := ⟨2, ![16, 512]⟩
abbrev S16x1024 : Shape := ⟨2, ![16, 1024]⟩
abbrev S16x1 : Shape := ⟨2, ![16, 1]⟩
abbrev S4096x512 : Shape := ⟨2, ![4096, 512]⟩
abbrev S1x1x512 : Shape := ⟨3, ![1, 1, 512]⟩
abbrev S16x1x512 : Shape := ⟨3, ![16, 1, 512]⟩
abbrev S16x256 : Shape := ⟨2, ![16, 256]⟩
abbrev S16 : Shape := ⟨1, ![16]⟩
abbrev S16x256x1 : Shape := ⟨3, ![16, 256, 1]⟩
abbrev S256x1024x1 : Shape := ⟨3, ![256, 1024, 1]⟩

abbrev nBuf : Space → Nat
  | .hbm => 18
  | .vmem => 19
  | .smem => 0
  | _ => 0

abbrev bufTy : (tb : Table) → Fin (tcTables nBuf tb) → BufTy
  | .hbm, ⟨0, _⟩ => ⟨S256x1024x512, .f32⟩
  | .hbm, ⟨1, _⟩ => ⟨S256x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S512x512, .bf16⟩
  | .hbm, ⟨9, _⟩ => ⟨S512x512, .bf16⟩
  | .hbm, ⟨10, _⟩ => ⟨S1x512, .f32⟩
  | .hbm, ⟨11, _⟩ => ⟨S1x512, .bf16⟩
  | .hbm, ⟨12, _⟩ => ⟨S1x512, .f32⟩
  | .hbm, ⟨13, _⟩ => ⟨S1x512, .f32⟩
  | .hbm, ⟨14, _⟩ => ⟨S1x1, .f32⟩
  | .hbm, ⟨15, _⟩ => ⟨S256x512, .f32⟩
  | .hbm, ⟨16, _⟩ => ⟨S256x1024, .f32⟩
  | .hbm, ⟨17, _⟩ => ⟨S256x1024x1, .f32⟩
  | .local _ .vmem, ⟨0, _⟩ => ⟨S16x256x512, .f32⟩
  | .local _ .vmem, ⟨1, _⟩ => ⟨S16x256x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S1x512, .bf16⟩
  | .local _ .vmem, ⟨9, _⟩ => ⟨S1x1, .f32⟩
  | .local _ .vmem, ⟨10, _⟩ => ⟨S16x512, .f32⟩
  | .local _ .vmem, ⟨11, _⟩ => ⟨S16x512, .f32⟩
  | .local _ .vmem, ⟨12, _⟩ => ⟨S16x1024, .f32⟩
  | .local _ .vmem, ⟨13, _⟩ => ⟨S16x1024, .f32⟩
  | .local _ .vmem, ⟨14, _⟩ => ⟨S16x1, .f32⟩
  | .local _ .vmem, ⟨15, _⟩ => ⟨S16x1, .f32⟩
  | .local _ .vmem, ⟨16, _⟩ => ⟨S16x512, .f32⟩
  | .local _ .vmem, ⟨17, _⟩ => ⟨S16x512, .f32⟩
  | .local _ .vmem, ⟨18, _⟩ => ⟨S16x1024, .f32⟩
  | _, _ => ⟨S256x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c256_i32 : BitVec 32 := 256#32
  let v31 : BitVec 32 := Scalar.muli arg1 c256_i32
  v31
def k0_off1 (i : grid0.Coords) : Fin 2 → Nat :=
  let c0_14 : Index := 0#32
  let arg1 : BitVec 32 := BitVec.ofNat 32 (i 1).val
  let c256_i32 : BitVec 32 := 256#32
  let v31 : BitVec 32 := Scalar.muli arg1 c256_i32
  let v32 : BitVec 32 := v31
  let v33 : Index := Scalar.indexCast v32
  ![0, v33.toNat]
def k0_cond2 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_32 : BitVec 32 := 0#32
  let v71 : BitVec 1 := Scalar.cmpi .ne v70 c0_i32_32
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bitsLt_bf16_f32 : FTy.bits .bf16 < FTy.bits .f32
  transposes_S512x1_S1x512_1_0 : S512x1.Transposes [1, 0] S1x512
  shapeCasts_S512_S1x512 : S512.ShapeCasts S1x512
  shapeCasts_S1_S1x1 : S1.ShapeCasts S1x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x256x512_S16x256x512_0_0_0 : ∀ a, (![0, 0, 0] : Fin 3 → Nat) a + S16x256x512.size a ≤ S16x256x512.size a
  h_S16x256x512 : 0 < S16x256x512.numel
  shapeCasts_S16x256x512_S4096x512 : S16x256x512.ShapeCasts S4096x512
  shapeCasts_S4096x512_S16x256x512 : S4096x512.ShapeCasts S16x256x512
  shapeCasts_S1x512_S1x1x512 : S1x512.ShapeCasts S1x1x512
  broadcasts_S1x1x512_S16x256x512 : S1x1x512.Broadcasts S16x256x512
  shapeCasts_S16x512_S16x1x512 : S16x512.ShapeCasts S16x1x512
  broadcasts_S16x1x512_S16x256x512 : S16x1x512.Broadcasts S16x256x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S16x256x512_S16x256 : S16x256x512.Reduces [2] S16x256
  h_S16x256 : 0 < S16x256.numel
  shapeCasts_S16x256_S16x256 : S16x256.ShapeCasts S16x256
  reduces_S16x256_S16 : S16x256.Reduces [1] S16
  shapeCasts_S16_S16x1 : S16.ShapeCasts S16x1
  broadcasts_S16x1_S16x256 : S16x1.Broadcasts S16x256
  shapeCasts_S16x256_S16x256x1 : S16x256.ShapeCasts S16x256x1
  broadcasts_S16x256x1_S16x256x512 : S16x256x1.Broadcasts S16x256x512
  reduces_S16x256x512_S16x512 : S16x256x512.Reduces [1] S16x512
  broadcasts_S16x1_S16x512 : S16x1.Broadcasts S16x512
  inb_S16x1024_S16x1024_0_0 : ∀ a, (![0, 0] : Fin 2 → Nat) a + S16x1024.size a ≤ S16x1024.size a
  h_S16x1024 : 0 < S16x1024.numel
  broadcasts_S16x1_S16x1024 : S16x1.Broadcasts S16x1024
  shapeCasts_S256x1024_S256x1024x1 : S256x1024.ShapeCasts S256x1024x1
  dot_S16x512_S512x512_S16x512_1_0_0_1_n_n_wf : DotDims.WF S16x512 S512x512 S16x512 [1] [0] [0] [1] [] []
  dot_S4096x512_S512x512_S4096x512_1_0_0_1_n_n_wf : DotDims.WF S4096x512 S512x512 S4096x512 [1] [0] [0] [1] [] []
  hrank0 : 0 < grid0.rank
  k0_mult1_dvd : ∀ i : grid0.Coords, 256 ∣ (k0_mult1 i).toNat
  k0_off1_inb : ∀ i : grid0.Coords, ∀ a, (k0_off1 i) a + S16x256.size a ≤ S16x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S256x1024x512.size a
  hwx0_0 : ∀ i : grid0.Coords, EltTy.bits .f32 = 32 ∨ (Rect.block (s := S256x1024x512) S16x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S256x512.size a
  hwx0_1 : ∀ i : grid0.Coords, EltTy.bits .f32 = 32 ∨ (Rect.block (s := S256x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .bf16 = 32 ∨ (Rect.block (s := S1x512) S1x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S256x512.size a
  hwx0_8 : ∀ i : grid0.Coords, EltTy.bits .f32 = 32 ∨ (Rect.block (s := S256x512) S16x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x1024.size a ≤ S256x1024.size a
  hwx0_9 : ∀ i : grid0.Coords, EltTy.bits .f32 = 32 ∨ (Rect.block (s := S256x1024) S16x1024.size (cc0_transform_9 i) (hinb0_9 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S16x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S16x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S256x1024x512 : Shape := ⟨3, ![256, 1024, 512]⟩
abbrev S256x512 : Shape := ⟨2, ![256, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1x512 : Shape := ⟨3, ![1, 1, 512]⟩
abbrev S1x512 : Shape := ⟨2, ![1, 512]⟩
abbrev S256x1x512 : Shape := ⟨3, ![256, 1, 512]⟩
abbrev S256x1024x1 : Shape := ⟨3, ![256, 1024, 1]⟩
abbrev S1x1x1 : Shape := ⟨3, ![1, 1, 1]⟩
abbrev S_ : Shape := ⟨0, ![]⟩
abbrev S256x1 : Shape := ⟨2, ![256, 1]⟩
abbrev S256x1x1 : Shape := ⟨3, ![256, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S256x1024x512, .f32⟩
  | .hbm, ⟨1, _⟩ => ⟨S256x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S256x1024x512, .f32⟩
  | .hbm, ⟨9, _⟩ => ⟨S1x1x512, .f32⟩
  | .hbm, ⟨10, _⟩ => ⟨S256x1024x512, .f32⟩
  | .hbm, ⟨11, _⟩ => ⟨S256x1024x512, .f32⟩
  | .hbm, ⟨12, _⟩ => ⟨S256x512, .f32⟩
  | .hbm, ⟨13, _⟩ => ⟨S1x512, .f32⟩
  | .hbm, ⟨14, _⟩ => ⟨S256x512, .f32⟩
  | .hbm, ⟨15, _⟩ => ⟨S256x512, .f32⟩
  | .hbm, ⟨16, _⟩ => ⟨S256x1x512, .f32⟩
  | .hbm, ⟨17, _⟩ => ⟨S256x1024x512, .f32⟩
  | .hbm, ⟨18, _⟩ => ⟨S256x1024x512, .f32⟩
  | .hbm, ⟨19, _⟩ => ⟨S256x1024x512, .f32⟩
  | .hbm, ⟨20, _⟩ => ⟨S256x1024x1, .f32⟩
  | .hbm, ⟨21, _⟩ => ⟨S1x1x1, .f32⟩
  | .hbm, ⟨22, _⟩ => ⟨S256x1024x1, .f32⟩
  | .hbm, ⟨23, _⟩ => ⟨S256x1024x1, .f32⟩
  | .hbm, ⟨24, _⟩ => ⟨S_, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1x1, .f32⟩
  | .hbm, ⟨30, _⟩ => ⟨S256x1024x1, .f32⟩
  | .hbm, ⟨31, _⟩ => ⟨S256x1024x1, .f32⟩
  | .hbm, ⟨32, _⟩ => ⟨S256x1024x1, .f32⟩
  | .hbm, ⟨33, _⟩ => ⟨S_, .f32⟩
  | .hbm, ⟨34, _⟩ => ⟨S256x1, .f32⟩
  | .hbm, ⟨35, _⟩ => ⟨S256x1x1, .f32⟩
  | .hbm, ⟨36, _⟩ => ⟨S256x1024x1, .f32⟩
  | .hbm, ⟨37, _⟩ => ⟨S256x1024x1, .f32⟩
  | .hbm, ⟨38, _⟩ => ⟨S256x1024x512, .f32⟩
  | .hbm, ⟨39, _⟩ => ⟨S256x1024x512, .f32⟩
  | .hbm, ⟨40, _⟩ => ⟨S_, .f32⟩
  | .hbm, ⟨41, _⟩ => ⟨S256x512, .f32⟩
  | _, _ => ⟨S256x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S256x1024x512_0_1_2 : S1x1x512.BroadcastsInDim S256x1024x512 (![0, 1, 2] : Fin 3 → Fin S256x1024x512.rank)
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S256x512_S256x1x512_0_2 : S256x512.BroadcastsInDim S256x1x512 (![0, 2] : Fin 2 → Fin S256x1x512.rank)
  bcast_S256x1x512_S256x1024x512_0_1_2 : S256x1x512.BroadcastsInDim S256x1024x512 (![0, 1, 2] : Fin 3 → Fin S256x1024x512.rank)
  bcast_S1_S1x1x1_2 : S1.BroadcastsInDim S1x1x1 (![2] : Fin 1 → Fin S1x1x1.rank)
  bcast_S1x1x1_S256x1024x1_0_1_2 : S1x1x1.BroadcastsInDim S256x1024x1 (![0, 1, 2] : Fin 3 → Fin S256x1024x1.rank)
  reducesTo_S256x1024x1_S256x1_d1 : S256x1024x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x1024x1_0_1_2 : S256x1x1.BroadcastsInDim S256x1024x1 (![0, 1, 2] : Fin 3 → Fin S256x1024x1.rank)
  bcast_S256x1024x1_S256x1024x512_0_1_2 : S256x1024x1.BroadcastsInDim S256x1024x512 (![0, 1, 2] : Fin 3 → Fin S256x1024x512.rank)
  reducesTo_S256x1024x512_S256x512_d1 : S256x1024x512.ReducesTo [1] S256x512
  dot_S256x1024x512_S512x512_S256x1024x512_2_0_01_1_n_n_wf : DotDims.WF S256x1024x512 S512x512 S256x1024x512 [2] [0] [0, 1] [1] [] []
  dot_S256x512_S512x512_S256x512_1_0_0_1_n_n_wf : DotDims.WF S256x512 S512x512 S256x512 [1] [0] [0] [1] [] []
  dot_S256x1024x512_S512x1_S256x1024x1_2_0_01_1_n_n_wf : DotDims.WF S256x1024x512 S512x1 S256x1024x1 [2] [0] [0, 1] [1] [] []

variable [Facts₀]

def dot_S256x1024x512_S512x512_S256x1024x512_2_0_01_1_n_n : DotDims S256x1024x512 S512x512 S256x1024x512 where
  lhsContracting := [2]
  rhsContracting := [0]
  lhsNonContracting := [0, 1]
  rhsNonContracting := [1]
  lhsBatch := []
  rhsBatch := []
  wf := dot_S256x1024x512_S512x512_S256x1024x512_2_0_01_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x1024x512_S512x1_S256x1024x1_2_0_01_1_n_n : DotDims S256x1024x512 S512x1 S256x1024x1 where
  lhsContracting := [2]
  rhsContracting := [0]
  lhsNonContracting := [0, 1]
  rhsNonContracting := [1]
  lhsBatch := []
  rhsBatch := []
  wf := dot_S256x1024x512_S512x1_S256x1024x1_2_0_01_1_n_n_wf

class Facts : Prop extends Facts₀ where

variable [Facts]
-- ==== Proof.KB.Carry.lean ====
/-
  The quantities the attention kernel carries from one grid point to the next, as explicit functions of the
  point's input blocks: the running row maximum of the scores, the running sum of exponentials (rescaled to the
  current maximum), the running exponential-weighted sum of the feature rows (likewise rescaled), the projected
  hidden state (computed once per batch tile), and the scores seen so far (one column strip per point). The
  four points of a batch tile are a first point (everything reset, the hidden state projected), two middle
  points, and a last point, which also divides by the final sum and emits the context block and the
  attention-weight block.
-/
import proofs.«407076_j10874857193754_3_alg».proof.Proof.Gen.Kernel.Frame
import proofs.«407076_j10874857193754_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point of its batch tile a grid point is -/

/-- The body's first conditional (reset and project the hidden state): taken at the first point of a batch tile. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The body's second conditional (normalise and emit): taken at the last point of a batch tile. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-- The column strip of the score scratch that point `i` fills: columns `256 · (i 1)` to `256 · (i 1) + 255`, all rows. -/
abbrev strip (i : grid0.Coords) : Rect S16x1024 := Rect.unit (s := S16x1024) (k0_off1 i) S16x256.size (k0_off1_inb i)

/-! ## The carried values -/

/-- What the five scratch buffers hold between two points. -/
structure Carried (F : FTy → Type) where
  /-- running row maximum of the scores -/
  mx : Vec F S16x1 .f32
  /-- running sum of `exp (score - mx)` -/
  sm : Vec F S16x1 .f32
  /-- running sum of `exp (score - mx) · feature row` -/
  acc : Vec F S16x512 .f32
  /-- the hidden state's projection, plus its bias -/
  ph : Vec F S16x512 .f32
  /-- the scores stored so far (a strip per point; the strips not yet stored hold whatever was there) -/
  sc : Vec F S16x1024 .f32

/-- Contents nothing has written. -/
def unwritten : Vec F S16x1024 .f32 := fun _ => @Classical.arbitrary _ (Elt.nonempty F _)

/-- The first point of a batch tile: project the hidden state, score the first strip of positions against it,
    and start the three running quantities from `-∞`, `0`, `0`. -/
def firstStep (i : grid0.Coords) (x0 : Vec F S16x256x512 .f32) (x1 : Vec F S16x512 .f32) (x2 : Vec F S512x512 .bf16)
    (x3 : Vec F S1x512 .f32) (x4 : Vec F S512x512 .bf16) (x5 : Vec F S1x512 .f32) (x6 : Vec F S1x512 .bf16)
    (x7 : Vec F S1x1 .f32) (old : Vec F S16x1024 .f32) : Carried F :=
  { mx := k0_pay6 (k0_pay14 x0 x2 x3 (k0_pay13 x1 x4 x5) x6 x7) k0_pay10
    sm := k0_pay4 (k0_pay14 x0 x2 x3 (k0_pay13 x1 x4 x5) x6 x7) k0_pay10 k0_pay10 k0_pay11
    acc := k0_pay5 x0 (k0_pay14 x0 x2 x3 (k0_pay13 x1 x4 x5) x6 x7) k0_pay10 k0_pay10 k0_pay12
    ph := k0_pay13 x1 x4 x5
    sc := (strip i).overlay old (k0_pay15 x0 x2 x3 (k0_pay13 x1 x4 x5) x6 x7) }

/-- A later point: score its strip against the projection kept from the first point and fold it into the
    running quantities kept from the point before. -/
def nextStep (i : grid0.Coords) (x0 : Vec F S16x256x512 .f32) (x2 : Vec F S512x512 .bf16)
    (x3 : Vec F S1x512 .f32) (x6 : Vec F S1x512 .bf16) (x7 : Vec F S1x1 .f32) (p : Carried F) : Carried F :=
  { mx := k0_pay6 (k0_pay14 x0 x2 x3 p.ph x6 x7) p.mx
    sm := k0_pay4 (k0_pay14 x0 x2 x3 p.ph x6 x7) p.mx p.mx p.sm
    acc := k0_pay5 x0 (k0_pay14 x0 x2 x3 p.ph x6 x7) p.mx p.mx p.acc
    ph := p.ph
    sc := (strip i).overlay p.sc (k0_pay15 x0 x2 x3 p.ph x6 x7) }

/-- The context block the last point emits: the weighted sum over the final sum. -/
def ctxOf (p : Carried F) : Vec F S16x512 .f32 := k0_pay8 p.sm p.acc
/-- The attention-weight block the last point emits: `exp (score - max)` over the final sum, every position. -/
def attnOf (p : Carried F) : Vec F S16x1024 .f32 := k0_pay9 p.sm p.sc p.mx

/-- What the scratch buffers hold after the body at position `n`: by recursion on the position, a batch
    tile's first point starting afresh. (The strips of the score scratch a tile has not yet stored are named at
    `unwritten`; nothing reads them.) -/
def carriedAt (c : Dev nD) : (n : ℕ) → n < cfg0.N → Carried F
  | 0, hn => firstStep (grid0.coords ⟨0, hn⟩) (iblk m c 0 ⟨0, hn⟩) (iblk m c 1 ⟨0, hn⟩) (iblk m c 2 ⟨0, hn⟩) (iblk m c 3 ⟨0, hn⟩)
      (iblk m c 4 ⟨0, hn⟩) (iblk m c 5 ⟨0, hn⟩) (iblk m c 6 ⟨0, hn⟩) (iblk m c 7 ⟨0, hn⟩) unwritten
  | n + 1, hn =>
    if (n + 1) % 4 = 0 then
      firstStep (grid0.coords ⟨n + 1, hn⟩) (iblk m c 0 ⟨n + 1, hn⟩) (iblk m c 1 ⟨n + 1, hn⟩) (iblk m c 2 ⟨n + 1, hn⟩) (iblk m c 3 ⟨n + 1, hn⟩)
        (iblk m c 4 ⟨n + 1, hn⟩) (iblk m c 5 ⟨n + 1, hn⟩) (iblk m c 6 ⟨n + 1, hn⟩) (iblk m c 7 ⟨n + 1, hn⟩) unwritten
    else
      nextStep (grid0.coords ⟨n + 1, hn⟩) (iblk m c 0 ⟨n + 1, hn⟩) (iblk m c 2 ⟨n + 1, hn⟩) (iblk m c 3 ⟨n + 1, hn⟩)
        (iblk m c 6 ⟨n + 1, hn⟩) (iblk m c 7 ⟨n + 1, hn⟩) (carriedAt c n (Nat.lt_of_succ_lt hn))

/-- At a batch tile's first point. -/
theorem carriedAt_first (c : Dev nD) (t : Fin cfg0.N) (h : t.val % 4 = 0) :
    carriedAt m c t.val t.isLt = firstStep (grid0.coords t) (iblk m c 0 t) (iblk m c 1 t) (iblk m c 2 t) (iblk m c 3 t)
      (iblk m c 4 t) (iblk m c 5 t) (iblk m c 6 t) (iblk m c 7 t) unwritten := by
  obtain ⟨n, hn⟩ := t
  cases n with
  | zero => rfl
  | succ n => exact if_pos h

/-- At any other point. -/
theorem carriedAt_next (c : Dev nD) (t : Fin cfg0.N) (h : ¬ t.val % 4 = 0) :
    carriedAt m c t.val t.isLt = nextStep (grid0.coords t) (iblk m c 0 t) (iblk m c 2 t) (iblk m c 3 t)
      (iblk m c 6 t) (iblk m c 7 t) (carriedAt m c (t.val - 1) (Nat.lt_of_le_of_lt (Nat.sub_le _ _) t.isLt)) := by
  obtain ⟨n, hn⟩ := t
  cases n with
  | zero => exact absurd (Nat.zero_mod _) h
  | succ n => exact if_neg h

end Cert.Kernel.Hand

end
-- ==== Proof.KB.RunFirst.lean ====
/-
  The kernel body run at the first point of a batch tile: every running quantity is reset, the hidden state is
  projected, and the first strip of scores is folded in.
-/
import proofs.«407076_j10874857193754_3_alg».proof.Proof.KB.Carry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The rectangle of a whole shape at zero offsets

The body reads and writes its running quantities through the rectangle of the buffer's whole shape, its offsets
spelt as a literal vector of zeros: a load through it reads the contents as they are, a store through it replaces
them all. -/

section Whole

variable {Val : EltTy → Type} {S : Shape} {e : EltTy}

/-- A load through the whole-shape rectangle reads the contents unchanged. -/
private theorem ld_whole0 {off : Fin S.rank → ℕ} (h : off = fun _ => 0) (inb : ∀ a, off a + S.size a ≤ S.size a)
    (X : S.Idx → Val e) : View.ld X (Rect.unit off S.size inb) = X := by
  subst h
  funext x
  exact congrArg X (Rect.emb_whole_apply S x)

/-- After a store through the whole-shape rectangle, made last, the buffer reads as that store's payload, whatever
    was stored before and whatever it held at the start. -/
private theorem read_writes_whole0 {sg : RefSig} {κ : Kind} {sp : Space} (v : View sg κ sp S e) (f : v.ty.Contents Val)
    {off : Fin S.rank → ℕ} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h
  funext y
  have key := View.read_writes_cons_emb v f (Rect.whole S) w L y
  rw [Rect.emb_whole_apply] at key
  exact key

/-- A load through the whole-shape rectangle of what one store through it left reads that store's payload. -/
private theorem readCov_whole0 [∀ e, Nonempty (Val e)] {sg : RefSig} {κ : Kind} {sp : Space} (v : View sg κ sp S e)
    {off : Fin S.rank → ℕ} (h : off = fun _ => 0) (inb : ∀ a, off a + S.size a ≤ S.size a) (w : S.Idx → Val e) :
    v.readCov [(⟨Rect.unit off S.size inb, w⟩ : View.Piece Val S e)] (Rect.unit off S.size inb).toLoadRect = w := by
  subst h
  funext y
  have key : v.read Val (v.writes Val v.junk [(⟨Rect.whole S, w⟩ : View.Piece Val S e)]) ((Rect.whole S).emb y) = w y :=
    View.read_writes_cons_emb v v.junk (Rect.whole S) w [] y
  exact key

end Whole

/-- One strip store over contents that read `old` reads back as `old` with the strip replaced by the payload:
    inside the strip the last (only) write is read, outside it nothing was written. -/
private theorem read_strip_store_first (i : grid0.Coords) (arg16 : Memref sig .tc .vmem S16x1024 .f32) (harg16 : arg16.IsWhole)
    (old : Vec F S16x1024 .f32) (w : (strip i).shape.Idx → Elt F .f32) :
    arg16.view.read (Elt F) (arg16.view.writes (Elt F) (harg16.unread old) [⟨strip i, w⟩]) = (strip i).overlay old w := by
  funext y
  by_cases hy : y ∈ (strip i).set
  · obtain ⟨x, rfl⟩ : ∃ x, (strip i).emb x = y := (strip i).exists_idx_of_mem hy
    rw [View.read_writes_cons_emb, Rect.overlay_emb]
  · rw [View.read_writes_apply_of_forall_not_mem _ _ y _ (fun p hp => by
        rw [List.mem_singleton] at hp; subst hp; exact hy),
      harg16.read_unread, Rect.overlay_of_not_mem _ _ _ hy]

set_option maxHeartbeats 1600000 in
/-- The body at a batch tile's FIRST point, on any whole staging memrefs: the inputs at their blocks, the two output
    buffers and the first four scratch buffers at anything, the score scratch at `old`; it hands back the inputs as
    they were, the outputs at something, and the scratch buffers at `firstStep`'s values. -/
theorem run_first (c : Dev nD) (i : grid0.Coords) (arg2 : Memref sig .tc .vmem S16x256x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x1 .f32) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x1024 .f32) (harg16 : arg16.IsWhole)
    (hc0 : isFirst i) (hc1 : ¬isLast i) (x0 : Vec F S16x256x512 .f32) (x1 : Vec F S16x512 .f32) (x2 : Vec F S512x512 .bf16) (x3 : Vec F S1x512 .f32) (x4 : Vec F S512x512 .bf16) (x5 : Vec F S1x512 .f32) (x6 : Vec F S1x512 .bf16) (x7 : Vec F S1x1 .f32) (old : Vec F S16x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare old
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (firstStep i x0 x1 x2 x3 x4 x5 x6 x7 old).mx ∗ owns (c : Thread nD τ) arg13 fullShare (firstStep i x0 x1 x2 x3 x4 x5 x6 x7 old).sm ∗ owns (c : Thread nD τ) arg14 fullShare (firstStep i x0 x1 x2 x3 x4 x5 x6 x7 old).acc ∗ owns (c : Thread nD τ) arg15 fullShare (firstStep i x0 x1 x2 x3 x4 x5 x6 x7 old).ph ∗ owns (c : Thread nD τ) arg16 fullShare (firstStep i x0 x1 x2 x3 x4 x5 x6 x7 old).sc) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]
  unfold cc0__kernel_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg16.eq_unread hf14
  -- every load and store in program order; the first conditional is taken, the second is not
  sl_exec (disch := first | exact hc0 | exact hc1)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  -- the eight inputs read as before: nothing was stored into them
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [H6]
  · iexists _; isplitr
    · ipureintro; exact harg8.read_unread _
    · iexact H6
  isplitl [H7]
  · iexists _; isplitr
    · ipureintro; exact harg9.read_unread _
    · iexact H7
  -- the two output buffers were not touched at this point
  isplitl [H8]
  · iexists _, _; isplitr; swap
    · iexact H8
    ipureintro; rfl
  isplitl [H9]
  · iexists _, _; isplitr; swap
    · iexact H9
    ipureintro; rfl
  -- running maximum: the update was stored last, over the reset value -∞, which is what the update had loaded
  isplitl [H10]
  · iexists _; isplitr; swap
    · iexact H10
    ipureintro
    unfold firstStep; dsimp only
    sl_unfold_run_names
    refine (read_writes_whole0 (S := S16x1) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- running sum: likewise, over the reset value 0
  isplitl [H11]
  · iexists _; isplitr; swap
    · iexact H11
    ipureintro
    unfold firstStep; dsimp only
    sl_unfold_run_names
    refine (read_writes_whole0 (S := S16x1) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- running weighted sum: likewise, over the reset value 0
  isplitl [H12]
  · iexists _; isplitr; swap
    · iexact H12
    ipureintro
    unfold firstStep; dsimp only
    sl_unfold_run_names
    refine (read_writes_whole0 (S := S16x512) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- the projected hidden state: stored once, from the loaded hidden state, weights and bias
  isplitl [H13]
  · iexists _; isplitr; swap
    · iexact H13
    ipureintro
    unfold firstStep; dsimp only
    sl_unfold_run_names
    refine (read_writes_whole0 (S := S16x512) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- the score scratch: one strip stored over `old`
  iexists _; isplitr; swap
  · iexact H14
  ipureintro
  unfold firstStep; dsimp only
  sl_unfold_run_names
  refine (read_strip_store_first i arg16 harg16 old _).trans ?_
  simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]

end Cert.Kernel.Hand

end
-- ==== Proof.KB.RunMid.lean ====
/-
  The kernel body run at a middle point of a batch tile: one more strip of scores folded into the running maximum,
  the running sum and the running weighted sum.
-/
import proofs.«407076_j10874857193754_3_alg».proof.Proof.KB.Carry
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- One store through a rectangle of a whole buffer holding `X`: the buffer then reads `X` with the rectangle's part
    replaced by the payload. -/
theorem read_strip_store {Val : EltTy → Type} {sg : RefSig} {κ : Kind} {sp : Space} {s : Shape} {e : EltTy}
    (m : Memref sg κ sp s e) (h : m.IsWhole) (r : Rect s) (X : s.Idx → Val e) (w : r.shape.Idx → Val e) :
    m.view.read Val (m.view.writes Val (h.unread X) [⟨r, w⟩]) = r.overlay X w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem _ _ y _ (fun p hp => by
        rw [List.mem_singleton.mp hp]; exact hy),
      h.read_unread, Rect.overlay_of_not_mem _ _ _ hy]

/-- One store through the whole-shape rectangle (offsets zero, the shape's own sizes): the buffer then reads the payload,
    whatever it held before. -/
theorem read_whole_store {Val : EltTy → Type} [∀ e, Nonempty (Val e)] {sg : RefSig} {κ : Kind} {sp : Space} {S : Shape} {e : EltTy}
    (v : View sg κ sp S e) (f : v.ty.Contents Val) {off : Fin S.rank → ℕ} (hz : off = fun _ => 0)
    (inb : ∀ a, off a + S.size a ≤ S.size a) (w : S.Idx → Val e) :
    v.read Val (v.writes Val f [⟨Rect.unit off S.size inb, w⟩]) = w := by
  rw [View.read_writes_eq_canon _ _ _ (fun y => ⟨_, List.mem_cons_self, View.mem_set_unit_zero hz inb y⟩),
    View.canon_unit_zero hz]

set_option maxHeartbeats 1600000 in
/-- The body at a MIDDLE point of a batch tile: the scratch buffers at the values `p` the point before left; it hands
    them back at `nextStep`'s values and leaves the outputs' buffers at something. -/
theorem run_mid (c : Dev nD) (i : grid0.Coords) (arg2 : Memref sig .tc .vmem S16x256x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x1 .f32) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x1024 .f32) (harg16 : arg16.IsWhole)
    (hc0 : ¬isFirst i) (hc1 : ¬isLast i) (x0 : Vec F S16x256x512 .f32) (x1 : Vec F S16x512 .f32) (x2 : Vec F S512x512 .bf16) (x3 : Vec F S1x512 .f32) (x4 : Vec F S512x512 .bf16) (x5 : Vec F S1x512 .f32) (x6 : Vec F S1x512 .bf16) (x7 : Vec F S1x1 .f32) (p : Carried F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (p).mx ∗ owns (c : Thread nD τ) arg13 fullShare (p).sm ∗ owns (c : Thread nD τ) arg14 fullShare (p).acc ∗ owns (c : Thread nD τ) arg15 fullShare (p).ph ∗ owns (c : Thread nD τ) arg16 fullShare (p).sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (nextStep i x0 x2 x3 x6 x7 p).mx ∗ owns (c : Thread nD τ) arg13 fullShare (nextStep i x0 x2 x3 x6 x7 p).sm ∗ owns (c : Thread nD τ) arg14 fullShare (nextStep i x0 x2 x3 x6 x7 p).acc ∗ owns (c : Thread nD τ) arg15 fullShare (nextStep i x0 x2 x3 x6 x7 p).ph ∗ owns (c : Thread nD τ) arg16 fullShare (nextStep i x0 x2 x3 x6 x7 p).sc) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hz : (![0, 0] : Fin 2 → ℕ) = fun _ => 0 := by funext a; fin_cases a <;> rfl
  have hz3 : (![0, 0, 0] : Fin 3 → ℕ) = fun _ => 0 := by funext a; fin_cases a <;> rfl
  -- each buffer's raw contents, named by what the buffer reads
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg12.eq_unread hf12
  obtain rfl := harg13.eq_unread hf13
  obtain rfl := harg14.eq_unread hf14
  obtain rfl := harg15.eq_unread hf15
  obtain rfl := harg16.eq_unread hf16
  -- the body as its sequence of loads and stores over the named payloads; neither conditional is taken
  simp only [cc0__kernel_eq_skeleton]; unfold cc0__kernel_skel
  simp only [k0_part1_eq_skeleton]
  sl_exec (disch := first | exact hc0 | exact hc1)
  sl_step
  iapply Hk
  -- the eight input blocks are handed back unchanged
  isplitl [H0]
  · iexists _; isplitr; swap
    · iexact H0
    · ipureintro; exact harg2.read_unread _
  isplitl [H1]
  · iexists _; isplitr; swap
    · iexact H1
    · ipureintro; exact harg3.read_unread _
  isplitl [H2]
  · iexists _; isplitr; swap
    · iexact H2
    · ipureintro; exact harg4.read_unread _
  isplitl [H3]
  · iexists _; isplitr; swap
    · iexact H3
    · ipureintro; exact harg5.read_unread _
  isplitl [H4]
  · iexists _; isplitr; swap
    · iexact H4
    · ipureintro; exact harg6.read_unread _
  isplitl [H5]
  · iexists _; isplitr; swap
    · iexact H5
    · ipureintro; exact harg7.read_unread _
  isplitl [H6]
  · iexists _; isplitr; swap
    · iexact H6
    · ipureintro; exact harg8.read_unread _
  isplitl [H7]
  · iexists _; isplitr; swap
    · iexact H7
    · ipureintro; exact harg9.read_unread _
  -- the two output buffers are untouched: they hold what they held
  isplitl [H10]
  · iexists _, _; isplitr; swap
    · iexact H10
    · ipureintro; rfl
  isplitl [H11]
  · iexists _, _; isplitr; swap
    · iexact H11
    · ipureintro; rfl
  -- the running maximum: one whole store of the maximum of the old maximum and the new strip's row maxima
  isplitl [H12]
  · iexists _; isplitr; swap
    · iexact H12
    · ipureintro
      unfold nextStep; dsimp only
      rw [read_whole_store arg12.view _ hz inb_S16x1_S16x1_0_0]
      sl_unfold_words
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
  -- the running sum: one whole store, the old sum rescaled to the new maximum plus the new strip's exponentials
  isplitl [H13]
  · iexists _; isplitr; swap
    · iexact H13
    · ipureintro
      unfold nextStep; dsimp only
      rw [read_whole_store arg13.view _ hz inb_S16x1_S16x1_0_0]
      sl_unfold_words
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
  -- the running weighted sum: one whole store, likewise rescaled and extended
  isplitl [H14]
  · iexists _; isplitr; swap
    · iexact H14
    · ipureintro
      unfold nextStep; dsimp only
      rw [read_whole_store arg14.view _ hz inb_S16x512_S16x512_0_0]
      sl_unfold_words
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
  -- the projected hidden state is only read
  isplitl [H15]
  · iexists _; isplitr; swap
    · iexact H15
    · ipureintro; exact harg15.read_unread _
  -- the scores: one store through the point's column strip, over what the earlier points left
  · iexists _; isplitr; swap
    · iexact H16
    · ipureintro
      unfold nextStep; dsimp only
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
      exact read_strip_store arg16 harg16 (strip i) p.sc _

end Cert.Kernel.Hand

end
-- ==== Proof.KB.RunLast.lean ====
/-
  The kernel body run at the last point of a batch tile: the last strip folded in, then the division by the final
  sum, emitting the context block and the attention weights of all positions.
-/
import proofs.«407076_j10874857193754_3_alg».proof.Proof.KB.Carry
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## Reading back what the run stored

Every buffer the body stores into receives ONE store per run (a strip of the score buffer, the whole of each other
buffer), so its final reading is the old reading overlaid with the payload; on the whole-shape rectangle the
overlay is the payload itself; a whole-shape load is the identity (the library's whole-rectangle lemmas). -/

section ReadBack

variable {Val : EltTy → Type} {S : Shape} {e : EltTy}

/-- What ONE store through a rectangle leaves, read through the whole view: the old reading overlaid with the stored
    payload on the rectangle (on the rectangle the last write is read back; off it nothing was written). -/
private theorem read_writes_one_overlay {sig' : RefSig} {κ : Kind} {sp : Space}
    (v : View sig' κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem _ _ y _ (fun q hq => by
        rw [List.mem_singleton] at hq; subst hq; exact hy), Rect.overlay_of_not_mem _ _ _ hy]

/-- Overlaying on the whole-shape rectangle (offset zero, however the zeros are spelt) replaces everything. -/
private theorem overlay_whole {off : Fin S.rank → ℕ} (h : off = fun _ => 0) (inb : ∀ a, off a + S.size a ≤ S.size a)
    (X w : S.Idx → Val e) : (Rect.unit off S.size inb).overlay X w = w := by
  subst h; funext y
  have hw := Rect.overlay_emb (Rect.whole S) X w y
  rwa [Rect.emb_whole_apply] at hw

end ReadBack

/-- The two spellings of a zero offset, rank two and rank three. -/
private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 4000000 in
/-- The body at the LAST point of a batch tile: as at a middle point, and the two outputs' buffers end at the context
    block and the attention-weight block of the values it hands back. -/
theorem run_last (c : Dev nD) (i : grid0.Coords) (arg2 : Memref sig .tc .vmem S16x256x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x1 .f32) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x1024 .f32) (harg16 : arg16.IsWhole)
    (hc0 : ¬isFirst i) (hc1 : isLast i) (x0 : Vec F S16x256x512 .f32) (x1 : Vec F S16x512 .f32) (x2 : Vec F S512x512 .bf16) (x3 : Vec F S1x512 .f32) (x4 : Vec F S512x512 .bf16) (x5 : Vec F S1x512 .f32) (x6 : Vec F S1x512 .bf16) (x7 : Vec F S1x1 .f32) (p : Carried F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (p).mx ∗ owns (c : Thread nD τ) arg13 fullShare (p).sm ∗ owns (c : Thread nD τ) arg14 fullShare (p).acc ∗ owns (c : Thread nD τ) arg15 fullShare (p).ph ∗ owns (c : Thread nD τ) arg16 fullShare (p).sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (ctxOf (nextStep i x0 x2 x3 x6 x7 p)) ∗ owns (c : Thread nD τ) arg11 fullShare (attnOf (nextStep i x0 x2 x3 x6 x7 p)) ∗ owns (c : Thread nD τ) arg12 fullShare (nextStep i x0 x2 x3 x6 x7 p).mx ∗ owns (c : Thread nD τ) arg13 fullShare (nextStep i x0 x2 x3 x6 x7 p).sm ∗ owns (c : Thread nD τ) arg14 fullShare (nextStep i x0 x2 x3 x6 x7 p).acc ∗ owns (c : Thread nD τ) arg15 fullShare (nextStep i x0 x2 x3 x6 x7 p).ph ∗ owns (c : Thread nD τ) arg16 fullShare (nextStep i x0 x2 x3 x6 x7 p).sc) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  -- the body as its loads, stores and two conditionals over the named payloads
  simp only [cc0__kernel_eq_skeleton]; unfold cc0__kernel_skel
  simp only [k0_part1_eq_skeleton]
  -- open each ownership to contents with a reading; a NAMED reading of a whole buffer fixes its contents
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg12.eq_unread hf12
  obtain rfl := harg13.eq_unread hf13
  obtain rfl := harg14.eq_unread hf14
  obtain rfl := harg15.eq_unread hf15
  obtain rfl := harg16.eq_unread hf16
  -- run it: the reset branch is skipped (not a first point), the emitting branch is taken (a last point)
  sl_exec (disch := first | exact hc0 | exact hc1)
  sl_step
  -- hand everything back; the eight inputs were only read
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  -- context block: the sum and the weighted sum are loaded AFTER their own stores, so the quotient is of the new values
  isplitl [H10]
  · iexists _; isplitr; swap; · iexact H10
    ipureintro
    unfold ctxOf nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  -- attention weights: likewise of the new sum and maximum, and of the scores with this point's strip overlaid
  isplitl [H11]
  · iexists _; isplitr; swap; · iexact H11
    ipureintro
    unfold attnOf nextStep; dsimp only
    sl_unfold_run_names
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  -- running maximum, sum and weighted sum: one whole store each, of values loaded before any store
  isplitl [H12]
  · iexists _; isplitr; swap; · iexact H12
    ipureintro
    unfold nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  isplitl [H13]
  · iexists _; isplitr; swap; · iexact H13
    ipureintro
    unfold nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  isplitl [H14]
  · iexists _; isplitr; swap; · iexact H14
    ipureintro
    unfold nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  -- the projection is only read
  isplitl [H15]
  · iexists _; isplitr; · ipureintro; exact harg15.read_unread _
    iexact H15
  -- scores: this point's strip overlaid on what was there
  iexists _; isplitr; swap; · iexact H16
  ipureintro
  unfold nextStep; dsimp only
  sl_unfold_run_names
  simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]

end Cert.Kernel.Hand

end
-- ==== Proof.KB.Launch.lean ====
/-
  The attention kernel launched over its grid of 16 batch tiles by 4 sequence strips: the proof data (what every
  staging buffer holds after the body at each point), the invariant carried between points (the scratch buffers at
  the carried values; of the score scratch only the strips the current batch tile has stored so far are pinned),
  the body's obligation at a generic point by the three runs, and the run of the whole program: every weakly fair
  execution terminates with each output array at what the points wrote back.
-/
import proofs.«407076_j10874857193754_3_alg».proof.Proof.KB.RunFirst
import proofs.«407076_j10874857193754_3_alg».proof.Proof.KB.RunMid
import proofs.«407076_j10874857193754_3_alg».proof.Proof.KB.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point `t`, as the pipeline passes it, and its wholeness. -/
abbrev ms0_0 (t : Fin cfg0.N) : Memref sig .tc .vmem S16x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1024 .f32 := win0_9.stage (cfg0.slots t 9)
abbrev hs0_9 (t : Fin cfg0.N) : (ms0_9 t).IsWhole := hstage0_9 ((cfg0.slots t 9).cast nbuf0_9)
/-- The five scratch operands: whole buffers of the kernel's own. -/
abbrev scM0_0 : Memref sig .tc .vmem S16x1 .f32 := Memref.whole cc0_scratch0
abbrev scM0_1 : Memref sig .tc .vmem S16x1 .f32 := Memref.whole cc0_scratch1
abbrev scM0_2 : Memref sig .tc .vmem S16x512 .f32 := Memref.whole cc0_scratch2
abbrev scM0_3 : Memref sig .tc .vmem S16x512 .f32 := Memref.whole cc0_scratch3
abbrev scM0_4 : Memref sig .tc .vmem S16x1024 .f32 := Memref.whole cc0_scratch4

/-- What the launch hands the region and takes back: every scratch buffer at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from a batch tile's last point the two outputs are idle and not written back. -/
theorem idleAt0_8 : ∀ t : Fin cfg0.N, ¬ t.val % 4 = 3 → cfg0.idle 8 (grid0.coords t) = true := by decide +kernel
theorem idleAt0_9 : ∀ t : Fin cfg0.N, ¬ t.val % 4 = 3 → cfg0.idle 9 (grid0.coords t) = true := by decide +kernel
theorem noFlush0_8 : ∀ t : Fin cfg0.N, ¬ t.val % 4 = 3 → (cfg0.win 8).flush t = false := by decide +kernel
theorem noFlush0_9 : ∀ t : Fin cfg0.N, ¬ t.val % 4 = 3 → (cfg0.win 9).flush t = false := by decide +kernel
/-- At the last point they are live. -/
theorem liveAt0_8 : ∀ t : Fin cfg0.N, t.val % 4 = 3 → cfg0.idle 8 (grid0.coords t) = false := by decide +kernel
theorem liveAt0_9 : ∀ t : Fin cfg0.N, t.val % 4 = 3 → cfg0.idle 9 (grid0.coords t) = false := by decide +kernel

/-! ## The invariant between points -/

/-- Two contents of the score scratch agree on the columns below `k`. -/
def AgreeBelow (k : ℕ) (d d' : Vec F S16x1024 .f32) : Prop := ∀ y : S16x1024.Idx, (y 1).val < k → d y = d' y

/-- Before position `n`: at the grid's start every scratch buffer at anything; afterwards the first four at the carried
    values of the point before, the score scratch at contents that agree with the carried ones on the strips the
    current batch tile has stored. -/
def PhiS (c : Dev nD) : (n : ℕ) → n ≤ cfg0.N → sProp 𝕄
  | 0, _ => Pipeline.ΦA spec0 c
  | n + 1, hn => iprop(iprop(owns (c : Thread nD τ) scM0_0 fullShare (carriedAt m c n hn).mx ∗ owns (c : Thread nD τ) scM0_1 fullShare (carriedAt m c n hn).sm ∗ owns (c : Thread nD τ) scM0_2 fullShare (carriedAt m c n hn).acc ∗ owns (c : Thread nD τ) scM0_3 fullShare (carriedAt m c n hn).ph ∗ (∃ d, owns (c : Thread nD τ) scM0_4 fullShare d ∗ ⌜AgreeBelow (256 * (n % 4 + 1)) d (carriedAt m c n hn).sc⌝)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (carriedAt m c n hn).mx ∗ owns (c : Thread nD τ) scM0_1 fullShare (carriedAt m c n hn).sm ∗ owns (c : Thread nD τ) scM0_2 fullShare (carriedAt m c n hn).acc ∗ owns (c : Thread nD τ) scM0_3 fullShare (carriedAt m c n hn).ph ∗ (∃ d, owns (c : Thread nD τ) scM0_4 fullShare d ∗ ⌜AgreeBelow (256 * (n % 4 + 1)) d (carriedAt m c n hn).sc⌝)) ∗ (∃ r, prngReg c r)) := rfl

theorem PhiS_pos (c : Dev nD) (n : ℕ) (h : n ≤ cfg0.N) (hz : n ≠ 0) :
    PhiS m c n h = iprop(iprop(owns (c : Thread nD τ) scM0_0 fullShare (carriedAt m c (n - 1) (by omega)).mx ∗ owns (c : Thread nD τ) scM0_1 fullShare (carriedAt m c (n - 1) (by omega)).sm ∗ owns (c : Thread nD τ) scM0_2 fullShare (carriedAt m c (n - 1) (by omega)).acc ∗ owns (c : Thread nD τ) scM0_3 fullShare (carriedAt m c (n - 1) (by omega)).ph ∗ (∃ d, owns (c : Thread nD τ) scM0_4 fullShare d ∗ ⌜AgreeBelow (256 * ((n - 1) % 4 + 1)) d (carriedAt m c (n - 1) (by omega)).sc⌝)) ∗ (∃ r, prngReg c r)) := by
  cases n with
  | zero => exact absurd rfl hz
  | succ n => rfl

/-! ## The proof data -/

/-- The arrays as the region finds them; after the body each input's buffer at its block, the two outputs' at the
    context block and the attention-weight block of the carried values (named at every point; written back only at a
    batch tile's last point, idle at the others); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ctxOf (carriedAt m c t.val t.isLt)
    | ⟨9, _⟩ => attnOf (carriedAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
/-- The context block a point leaves in output 8's buffer. -/
theorem after0_8 (c : Dev nD) (t : Fin cfg0.N) : (dats m 0 c).after 8 t = ctxOf (carriedAt m c t.val t.isLt) := by dsimp only [dats]
/-- The attention-weight block a point leaves in output 9's buffer. -/
theorem after0_9 (c : Dev nD) (t : Fin cfg0.N) : (dats m 0 c).after 9 t = attnOf (carriedAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-! ## Pure facts about the strips of the score scratch -/

/-- The strip a point fills starts at column `256 · (t mod 4)`. -/
theorem strip_off : ∀ t : Fin cfg0.N, k0_off1 (grid0.coords t) = ![0, 256 * (t.val % 4)] :=
  (by decide +kernel : ∀ t : Fin grid0.N, k0_off1 (grid0.coords t) = ![0, 256 * (t.val % 4)])

/-- Overlaying one tile on the strip starting at column `256 · j` of two contents that agree below that column
    gives contents that agree below the strip's end: on the strip both are the tile, off it both are as before. -/
theorem AgreeBelow.overlay {i : grid0.Coords} {j : ℕ} (hoff : k0_off1 i = ![0, 256 * j]) {d d' : Vec F S16x1024 .f32}
    (h : AgreeBelow (256 * j) d d') (tile : (strip i).shape.Idx → Elt F .f32) :
    AgreeBelow (256 * (j + 1)) ((strip i).overlay d tile) ((strip i).overlay d' tile) := by
  intro y hy
  by_cases hmem : y ∈ (strip i).set
  · rw [← Rect.map_emb_univ, Finset.mem_map] at hmem
    obtain ⟨x, -, rfl⟩ := hmem
    rw [Rect.overlay_emb, Rect.overlay_emb]
  · rw [Rect.overlay_of_not_mem _ _ _ hmem, Rect.overlay_of_not_mem _ _ _ hmem]
    apply h
    by_contra hge
    apply hmem
    rw [Rect.mem_set_unit, hoff]
    have h0 : (y 0).val < 16 := (y 0).isLt
    refine Fin.forall_fin_two.mpr ⟨?_, ?_⟩
    · show (0 : ℕ) ≤ (y 0).val ∧ (y 0).val < 0 + 16
      omega
    · show 256 * j ≤ (y 1).val ∧ (y 1).val < 256 * j + 256
      omega

/-- Nothing lies below column 0. -/
theorem AgreeBelow.zero (d d' : Vec F S16x1024 .f32) : AgreeBelow (256 * 0) d d' := fun y hy => absurd hy (by omega)

/-- Agreement below column 1024 is equality: the score scratch has 1024 columns. -/
theorem AgreeBelow.eq_of_all {d d' : Vec F S16x1024 .f32} (h : AgreeBelow 1024 d d') : d = d' :=
  funext fun y => h y (y 1).isLt

/-! ## What the two outputs' buffers hold away from a batch tile's last point -/

theorem noFetch0_8 : ∀ t : Fin cfg0.N, (cfg0.win 8).fetch t = false := by decide +kernel
theorem noFetch0_9 : ∀ t : Fin cfg0.N, (cfg0.win 9).fetch t = false := by decide +kernel
theorem flushAt0_8 : ∀ t : Fin cfg0.N, t.val % 4 = 3 → (cfg0.win 8).flush t = true := by decide +kernel
theorem flushAt0_9 : ∀ t : Fin cfg0.N, t.val % 4 = 3 → (cfg0.win 9).flush t = true := by decide +kernel

/-- Away from a last point output 8's buffer is found as handed over: nothing fetches it, and since the last
    write-back (or the start) every point has been idle for it. -/
theorem before0_8_id (c : Dev nD) (n : ℕ) : ∀ t : Fin cfg0.N, t.val = n → ¬ t.val % 4 = 3 → ∀ d, (dats m 0 c).before 8 t d = d := by
  induction n with
  | zero =>
    intro t ht h3 d
    unfold Dat.before
    rw [noFetch0_8 t, if_neg Bool.false_ne_true, if_pos ht]
  | succ n ih =>
    intro t ht h3 d
    rw [Dat.before_of_pos _ 8 t (by omega) (noFetch0_8 t)]
    by_cases h0 : t.val % 4 = 0
    · rw [if_pos (flushAt0_8 ⟨t.val - 1, Nat.lt_of_le_of_lt (Nat.sub_le _ _) t.isLt⟩ (by show (t.val - 1) % 4 = 3; omega))]
    · have h3' : ¬ (t.val - 1) % 4 = 3 := by omega
      rw [if_neg (by rw [noFlush0_8 ⟨t.val - 1, Nat.lt_of_le_of_lt (Nat.sub_le _ _) t.isLt⟩ h3']; exact Bool.false_ne_true)]
      unfold Dat.left
      rw [idleAt0_8 ⟨t.val - 1, Nat.lt_of_le_of_lt (Nat.sub_le _ _) t.isLt⟩ h3']
      exact ih ⟨t.val - 1, Nat.lt_of_le_of_lt (Nat.sub_le _ _) t.isLt⟩ (by show t.val - 1 = n; omega) h3' d

/-- The same for output 9's buffer. -/
theorem before0_9_id (c : Dev nD) (n : ℕ) : ∀ t : Fin cfg0.N, t.val = n → ¬ t.val % 4 = 3 → ∀ d, (dats m 0 c).before 9 t d = d := by
  induction n with
  | zero =>
    intro t ht h3 d
    unfold Dat.before
    rw [noFetch0_9 t, if_neg Bool.false_ne_true, if_pos ht]
  | succ n ih =>
    intro t ht h3 d
    rw [Dat.before_of_pos _ 9 t (by omega) (noFetch0_9 t)]
    by_cases h0 : t.val % 4 = 0
    · rw [if_pos (flushAt0_9 ⟨t.val - 1, Nat.lt_of_le_of_lt (Nat.sub_le _ _) t.isLt⟩ (by show (t.val - 1) % 4 = 3; omega))]
    · have h3' : ¬ (t.val - 1) % 4 = 3 := by omega
      rw [if_neg (by rw [noFlush0_9 ⟨t.val - 1, Nat.lt_of_le_of_lt (Nat.sub_le _ _) t.isLt⟩ h3']; exact Bool.false_ne_true)]
      unfold Dat.left
      rw [idleAt0_9 ⟨t.val - 1, Nat.lt_of_le_of_lt (Nat.sub_le _ _) t.isLt⟩ h3']
      exact ih ⟨t.val - 1, Nat.lt_of_le_of_lt (Nat.sub_le _ _) t.isLt⟩ (by show t.val - 1 = n; omega) h3' d

/-- At a batch tile's last point the attention-weight block does not depend on what the score scratch held beyond the
    three strips stored before: the last strip is stored by the point itself, so the two score contents are equal. -/
theorem attnOf_last (i : grid0.Coords) (hoff : k0_off1 i = ![0, 256 * 3]) (x0 : Vec F S16x256x512 .f32) (x2 : Vec F S512x512 .bf16)
    (x3 : Vec F S1x512 .f32) (x6 : Vec F S1x512 .bf16) (x7 : Vec F S1x1 .f32) (prev : Carried F) (d4 : Vec F S16x1024 .f32)
    (h : AgreeBelow (256 * 3) d4 prev.sc) :
    attnOf (nextStep i x0 x2 x3 x6 x7 { mx := prev.mx, sm := prev.sm, acc := prev.acc, ph := prev.ph, sc := d4 })
      = attnOf (nextStep i x0 x2 x3 x6 x7 prev) := by
  have hsc : (strip i).overlay d4 (k0_pay15 x0 x2 x3 prev.ph x6 x7) = (strip i).overlay prev.sc (k0_pay15 x0 x2 x3 prev.ph x6 x7) :=
    AgreeBelow.eq_of_all (AgreeBelow.overlay hoff h (k0_pay15 x0 x2 x3 prev.ph x6 x7))
  unfold attnOf nextStep
  dsimp only
  rw [hsc]

set_option maxHeartbeats 4800000 in
/-- The body at any point: by the position of the point in its batch tile, one of the three runs. The inputs' buffers
    hold their blocks; the invariant hands over the scratch buffers (at anything at the grid's start and at a later batch
    tile's first point, where the carried values of the tile before are forgotten; else at the carried values of the
    point before, the score scratch agreeing with them on the strips stored so far); the run returns them at this point's
    carried values, the score scratch with one more strip stored on both sides of the agreement. At a last point the
    stored strips are all of the score scratch, so the attention-weight block is the named one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · -- a batch tile's first point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t h1) (noFlush0_8 t h1)]
      rw [Dat.leavesExact_idle (dats m 0 c) 9 t (idleAt0_9 t h1) (noFlush0_9 t h1)]
      simp only [before0_8_id m c t.val t rfl h1, before0_9_id m c t.val t rfl h1]
      rw [carriedAt_first m c t h0]
      by_cases hz : t.val = 0
      · rw [PhiS_castSucc m c t, PhiS_zero m c _ _ hz, PhiA0_eq]
        iintro ⟨⟨⟨⟨%e0, HS0⟩, ⟨%e1, HS1⟩, ⟨%e2, HS2⟩, ⟨%e3, HS3⟩, ⟨%d4, HS4⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
        iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) d4 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexists _; iexact HS0
        isplitl [HS1]; · iexists _; iexact HS1
        isplitl [HS2]; · iexists _; iexact HS2
        isplitl [HS3]; · iexists _; iexact HS3
        isplitl [HS4]; · iexact HS4
        iintro ⟨H0, H1, H2, H3, H4, H5, H6, H7, ⟨%e8, H8⟩, ⟨%e9, H9⟩, HS0, HS1, HS2, HS3, HS4⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexists _; isplitl [HS4]; · iexact HS4
            ipureintro
            exact AgreeBelow.overlay (strip_off t) (show AgreeBelow (256 * (t.val % 4)) d4 unwritten from by rw [h0]; exact AgreeBelow.zero _ _) _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · rw [PhiS_castSucc m c t, PhiS_pos m c _ _ hz]
        iintro ⟨⟨⟨HS0, HS1, HS2, HS3, ⟨%d4, HS4, -⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
        iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) d4 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexists _; iexact HS0
        isplitl [HS1]; · iexists _; iexact HS1
        isplitl [HS2]; · iexists _; iexact HS2
        isplitl [HS3]; · iexists _; iexact HS3
        isplitl [HS4]; · iexact HS4
        iintro ⟨H0, H1, H2, H3, H4, H5, H6, H7, ⟨%e8, H8⟩, ⟨%e9, H9⟩, HS0, HS1, HS2, HS3, HS4⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexists _; isplitl [HS4]; · iexact HS4
            ipureintro
            exact AgreeBelow.overlay (strip_off t) (show AgreeBelow (256 * (t.val % 4)) d4 unwritten from by rw [h0]; exact AgreeBelow.zero _ _) _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · have hz : t.val ≠ 0 := fun h => h0 (by rw [h])
    have hstep : (t.val - 1) % 4 + 1 = t.val % 4 := by omega
    by_cases h1 : t.val % 4 = 3
    · -- a batch tile's last point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t h1], after0_8]
      rw [show (dats m 0 c).leavesExact 9 t = owns (c : Thread nD τ) (ms0_9 t) fullShare ((dats m 0 c).after 9 t) from by
        unfold Dat.leavesExact; rw [liveAt0_9 t h1], after0_9]
      rw [carriedAt_next m c t h0]
      rw [PhiS_castSucc m c t, PhiS_pos m c _ _ hz]
      iintro ⟨⟨⟨HS0, HS1, HS2, HS3, ⟨%d4, HS4, %hd4⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
      rw [hstep] at hd4
      rw [← attnOf_last (grid0.coords t) (by rw [strip_off t, h1]) (iblk m c 0 t) (iblk m c 2 t) (iblk m c 3 t) (iblk m c 6 t) (iblk m c 7 t) (carriedAt m c (t.val - 1) (Nat.lt_of_le_of_lt (Nat.sub_le _ _) t.isLt)) d4 (by rw [← h1]; exact hd4)]
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) { mx := (carriedAt m c (t.val - 1) (Nat.lt_of_le_of_lt (Nat.sub_le _ _) t.isLt)).mx, sm := (carriedAt m c (t.val - 1) (Nat.lt_of_le_of_lt (Nat.sub_le _ _) t.isLt)).sm, acc := (carriedAt m c (t.val - 1) (Nat.lt_of_le_of_lt (Nat.sub_le _ _) t.isLt)).acc, ph := (carriedAt m c (t.val - 1) (Nat.lt_of_le_of_lt (Nat.sub_le _ _) t.isLt)).ph, sc := d4 } Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexists _; isplitl [HS4]; · iexact HS4
          ipureintro
          exact AgreeBelow.overlay (strip_off t) hd4 _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t h1) (noFlush0_8 t h1)]
      rw [Dat.leavesExact_idle (dats m 0 c) 9 t (idleAt0_9 t h1) (noFlush0_9 t h1)]
      simp only [before0_8_id m c t.val t rfl h1, before0_9_id m c t.val t rfl h1]
      rw [carriedAt_next m c t h0]
      rw [PhiS_castSucc m c t, PhiS_pos m c _ _ hz]
      iintro ⟨⟨⟨HS0, HS1, HS2, HS3, ⟨%d4, HS4, %hd4⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
      rw [hstep] at hd4
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((isFirst_iff t).mp h)) (fun h => h1 ((isLast_iff t).mp h)) (iblk m c 0 t) (iblk m c 1 t) (iblk m c 2 t) (iblk m c 3 t) (iblk m c 4 t) (iblk m c 5 t) (iblk m c 6 t) (iblk m c 7 t) { mx := (carriedAt m c (t.val - 1) (Nat.lt_of_le_of_lt (Nat.sub_le _ _) t.isLt)).mx, sm := (carriedAt m c (t.val - 1) (Nat.lt_of_le_of_lt (Nat.sub_le _ _) t.isLt)).sm, acc := (carriedAt m c (t.val - 1) (Nat.lt_of_le_of_lt (Nat.sub_le _ _) t.isLt)).acc, ph := (carriedAt m c (t.val - 1) (Nat.lt_of_le_of_lt (Nat.sub_le _ _) t.isLt)).ph, sc := d4 } Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, ⟨%e9, H9⟩, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexists _; isplitl [HS4]; · iexact HS4
          ipureintro
          exact AgreeBelow.overlay (strip_off t) hd4 _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, ⟨%d4, HS4, -⟩⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, each array of the pipeline ending at what the write-backs
    of the proof data make of it, every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KI.Carry.lean ====
/-
  The quantities the attention kernel carries from one grid point to the next, as explicit functions of the
  point's input blocks: the running row maximum of the scores, the running sum of exponentials (rescaled to the
  current maximum), the running exponential-weighted sum of the feature rows (likewise rescaled), the projected
  hidden state (computed once per batch tile), and the scores seen so far (one column strip per point). The
  four points of a batch tile are a first point (everything reset, the hidden state projected), two middle
  points, and a last point, which also divides by the final sum and emits the context block and the
  attention-weight block.
-/
import proofs.«407076_j10874857193754_3_alg».proof.Proof.Gen.KernelIdeal.Frame
import proofs.«407076_j10874857193754_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point of its batch tile a grid point is -/

/-- The body's first conditional (reset and project the hidden state): taken at the first point of a batch tile. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The body's second conditional (normalise and emit): taken at the last point of a batch tile. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-- The column strip of the score scratch that point `i` fills: columns `256 · (i 1)` to `256 · (i 1) + 255`, all rows. -/
abbrev strip (i : grid0.Coords) : Rect S16x1024 := Rect.unit (s := S16x1024) (k0_off1 i) S16x256.size (k0_off1_inb i)

/-! ## The carried values -/

/-- What the five scratch buffers hold between two points. -/
structure Carried (F : FTy → Type) where
  /-- running row maximum of the scores -/
  mx : Vec F S16x1 .f32
  /-- running sum of `exp (score - mx)` -/
  sm : Vec F S16x1 .f32
  /-- running sum of `exp (score - mx) · feature row` -/
  acc : Vec F S16x512 .f32
  /-- the hidden state's projection, plus its bias -/
  ph : Vec F S16x512 .f32
  /-- the scores stored so far (a strip per point; the strips not yet stored hold whatever was there) -/
  sc : Vec F S16x1024 .f32

/-- Contents nothing has written. -/
def unwritten : Vec F S16x1024 .f32 := fun _ => @Classical.arbitrary _ (Elt.nonempty F _)

/-- The first point of a batch tile: project the hidden state, score the first strip of positions against it,
    and start the three running quantities from `-∞`, `0`, `0`. -/
def firstStep (i : grid0.Coords) (x0 : Vec F S16x256x512 .f32) (x1 : Vec F S16x512 .f32) (x2 : Vec F S512x512 .bf16)
    (x3 : Vec F S1x512 .f32) (x4 : Vec F S512x512 .bf16) (x5 : Vec F S1x512 .f32) (x6 : Vec F S1x512 .bf16)
    (x7 : Vec F S1x1 .f32) (old : Vec F S16x1024 .f32) : Carried F :=
  { mx := k0_pay6 (k0_pay14 x0 x2 x3 (k0_pay13 x1 x4 x5) x6 x7) k0_pay10
    sm := k0_pay4 (k0_pay14 x0 x2 x3 (k0_pay13 x1 x4 x5) x6 x7) k0_pay10 k0_pay10 k0_pay11
    acc := k0_pay5 x0 (k0_pay14 x0 x2 x3 (k0_pay13 x1 x4 x5) x6 x7) k0_pay10 k0_pay10 k0_pay12
    ph := k0_pay13 x1 x4 x5
    sc := (strip i).overlay old (k0_pay15 x0 x2 x3 (k0_pay13 x1 x4 x5) x6 x7) }

/-- A later point: score its strip against the projection kept from the first point and fold it into the
    running quantities kept from the point before. -/
def nextStep (i : grid0.Coords) (x0 : Vec F S16x256x512 .f32) (x2 : Vec F S512x512 .bf16)
    (x3 : Vec F S1x512 .f32) (x6 : Vec F S1x512 .bf16) (x7 : Vec F S1x1 .f32) (p : Carried F) : Carried F :=
  { mx := k0_pay6 (k0_pay14 x0 x2 x3 p.ph x6 x7) p.mx
    sm := k0_pay4 (k0_pay14 x0 x2 x3 p.ph x6 x7) p.mx p.mx p.sm
    acc := k0_pay5 x0 (k0_pay14 x0 x2 x3 p.ph x6 x7) p.mx p.mx p.acc
    ph := p.ph
    sc := (strip i).overlay p.sc (k0_pay15 x0 x2 x3 p.ph x6 x7) }

/-- The context block the last point emits: the weighted sum over the final sum. -/
def ctxOf (p : Carried F) : Vec F S16x512 .f32 := k0_pay8 p.sm p.acc
/-- The attention-weight block the last point emits: `exp (score - max)` over the final sum, every position. -/
def attnOf (p : Carried F) : Vec F S16x1024 .f32 := k0_pay9 p.sm p.sc p.mx

/-- What the scratch buffers hold after the body at position `n`: by recursion on the position, a batch
    tile's first point starting afresh. (The strips of the score scratch a tile has not yet stored are named at
    `unwritten`; nothing reads them.) -/
def carriedAt (c : Dev nD) : (n : ℕ) → n < cfg0.N → Carried F
  | 0, hn => firstStep (grid0.coords ⟨0, hn⟩) (iblk m c 0 ⟨0, hn⟩) (iblk m c 1 ⟨0, hn⟩) (iblk m c 2 ⟨0, hn⟩) (iblk m c 3 ⟨0, hn⟩)
      (iblk m c 4 ⟨0, hn⟩) (iblk m c 5 ⟨0, hn⟩) (iblk m c 6 ⟨0, hn⟩) (iblk m c 7 ⟨0, hn⟩) unwritten
  | n + 1, hn =>
    if (n + 1) % 4 = 0 then
      firstStep (grid0.coords ⟨n + 1, hn⟩) (iblk m c 0 ⟨n + 1, hn⟩) (iblk m c 1 ⟨n + 1, hn⟩) (iblk m c 2 ⟨n + 1, hn⟩) (iblk m c 3 ⟨n + 1, hn⟩)
        (iblk m c 4 ⟨n + 1, hn⟩) (iblk m c 5 ⟨n + 1, hn⟩) (iblk m c 6 ⟨n + 1, hn⟩) (iblk m c 7 ⟨n + 1, hn⟩) unwritten
    else
      nextStep (grid0.coords ⟨n + 1, hn⟩) (iblk m c 0 ⟨n + 1, hn⟩) (iblk m c 2 ⟨n + 1, hn⟩) (iblk m c 3 ⟨n + 1, hn⟩)
        (iblk m c 6 ⟨n + 1, hn⟩) (iblk m c 7 ⟨n + 1, hn⟩) (carriedAt c n (Nat.lt_of_succ_lt hn))

/-- At a batch tile's first point. -/
theorem carriedAt_first (c : Dev nD) (t : Fin cfg0.N) (h : t.val % 4 = 0) :
    carriedAt m c t.val t.isLt = firstStep (grid0.coords t) (iblk m c 0 t) (iblk m c 1 t) (iblk m c 2 t) (iblk m c 3 t)
      (iblk m c 4 t) (iblk m c 5 t) (iblk m c 6 t) (iblk m c 7 t) unwritten := by
  obtain ⟨n, hn⟩ := t
  cases n with
  | zero => rfl
  | succ n => exact if_pos h

/-- At any other point. -/
theorem carriedAt_next (c : Dev nD) (t : Fin cfg0.N) (h : ¬ t.val % 4 = 0) :
    carriedAt m c t.val t.isLt = nextStep (grid0.coords t) (iblk m c 0 t) (iblk m c 2 t) (iblk m c 3 t)
      (iblk m c 6 t) (iblk m c 7 t) (carriedAt m c (t.val - 1) (Nat.lt_of_le_of_lt (Nat.sub_le _ _) t.isLt)) := by
  obtain ⟨n, hn⟩ := t
  cases n with
  | zero => exact absurd (Nat.zero_mod _) h
  | succ n => exact if_neg h

end Cert.KernelIdeal.Hand

end
-- ==== Proof.KI.RunFirst.lean ====
/-
  The kernel body run at the first point of a batch tile: every running quantity is reset, the hidden state is
  projected, and the first strip of scores is folded in.
-/
import proofs.«407076_j10874857193754_3_alg».proof.Proof.KI.Carry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The rectangle of a whole shape at zero offsets

The body reads and writes its running quantities through the rectangle of the buffer's whole shape, its offsets
spelt as a literal vector of zeros: a load through it reads the contents as they are, a store through it replaces
them all. -/

section Whole

variable {Val : EltTy → Type} {S : Shape} {e : EltTy}

/-- A load through the whole-shape rectangle reads the contents unchanged. -/
private theorem ld_whole0 {off : Fin S.rank → ℕ} (h : off = fun _ => 0) (inb : ∀ a, off a + S.size a ≤ S.size a)
    (X : S.Idx → Val e) : View.ld X (Rect.unit off S.size inb) = X := by
  subst h
  funext x
  exact congrArg X (Rect.emb_whole_apply S x)

/-- After a store through the whole-shape rectangle, made last, the buffer reads as that store's payload, whatever
    was stored before and whatever it held at the start. -/
private theorem read_writes_whole0 {sg : RefSig} {κ : Kind} {sp : Space} (v : View sg κ sp S e) (f : v.ty.Contents Val)
    {off : Fin S.rank → ℕ} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h
  funext y
  have key := View.read_writes_cons_emb v f (Rect.whole S) w L y
  rw [Rect.emb_whole_apply] at key
  exact key

/-- A load through the whole-shape rectangle of what one store through it left reads that store's payload. -/
private theorem readCov_whole0 [∀ e, Nonempty (Val e)] {sg : RefSig} {κ : Kind} {sp : Space} (v : View sg κ sp S e)
    {off : Fin S.rank → ℕ} (h : off = fun _ => 0) (inb : ∀ a, off a + S.size a ≤ S.size a) (w : S.Idx → Val e) :
    v.readCov [(⟨Rect.unit off S.size inb, w⟩ : View.Piece Val S e)] (Rect.unit off S.size inb).toLoadRect = w := by
  subst h
  funext y
  have key : v.read Val (v.writes Val v.junk [(⟨Rect.whole S, w⟩ : View.Piece Val S e)]) ((Rect.whole S).emb y) = w y :=
    View.read_writes_cons_emb v v.junk (Rect.whole S) w [] y
  exact key

end Whole

/-- One strip store over contents that read `old` reads back as `old` with the strip replaced by the payload:
    inside the strip the last (only) write is read, outside it nothing was written. -/
private theorem read_strip_store_first (i : grid0.Coords) (arg16 : Memref sig .tc .vmem S16x1024 .f32) (harg16 : arg16.IsWhole)
    (old : Vec F S16x1024 .f32) (w : (strip i).shape.Idx → Elt F .f32) :
    arg16.view.read (Elt F) (arg16.view.writes (Elt F) (harg16.unread old) [⟨strip i, w⟩]) = (strip i).overlay old w := by
  funext y
  by_cases hy : y ∈ (strip i).set
  · obtain ⟨x, rfl⟩ : ∃ x, (strip i).emb x = y := (strip i).exists_idx_of_mem hy
    rw [View.read_writes_cons_emb, Rect.overlay_emb]
  · rw [View.read_writes_apply_of_forall_not_mem _ _ y _ (fun p hp => by
        rw [List.mem_singleton] at hp; subst hp; exact hy),
      harg16.read_unread, Rect.overlay_of_not_mem _ _ _ hy]

set_option maxHeartbeats 1600000 in
/-- The body at a batch tile's FIRST point, on any whole staging memrefs: the inputs at their blocks, the two output
    buffers and the first four scratch buffers at anything, the score scratch at `old`; it hands back the inputs as
    they were, the outputs at something, and the scratch buffers at `firstStep`'s values. -/
theorem run_first (c : Dev nD) (i : grid0.Coords) (arg2 : Memref sig .tc .vmem S16x256x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x1 .f32) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x1024 .f32) (harg16 : arg16.IsWhole)
    (hc0 : isFirst i) (hc1 : ¬isLast i) (x0 : Vec F S16x256x512 .f32) (x1 : Vec F S16x512 .f32) (x2 : Vec F S512x512 .bf16) (x3 : Vec F S1x512 .f32) (x4 : Vec F S512x512 .bf16) (x5 : Vec F S1x512 .f32) (x6 : Vec F S1x512 .bf16) (x7 : Vec F S1x1 .f32) (old : Vec F S16x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare old
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (firstStep i x0 x1 x2 x3 x4 x5 x6 x7 old).mx ∗ owns (c : Thread nD τ) arg13 fullShare (firstStep i x0 x1 x2 x3 x4 x5 x6 x7 old).sm ∗ owns (c : Thread nD τ) arg14 fullShare (firstStep i x0 x1 x2 x3 x4 x5 x6 x7 old).acc ∗ owns (c : Thread nD τ) arg15 fullShare (firstStep i x0 x1 x2 x3 x4 x5 x6 x7 old).ph ∗ owns (c : Thread nD τ) arg16 fullShare (firstStep i x0 x1 x2 x3 x4 x5 x6 x7 old).sc) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]
  unfold cc0__kernel_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg16.eq_unread hf14
  -- every load and store in program order; the first conditional is taken, the second is not
  sl_exec (disch := first | exact hc0 | exact hc1)
  sl_step
  have hz : (![0, 0] : Fin 2 → ℕ) = fun _ => 0 := by funext a; fin_cases a <;> rfl
  have hz3 : (![0, 0, 0] : Fin 3 → ℕ) = fun _ => 0 := by funext a; fin_cases a <;> rfl
  iapply Hk
  -- the eight inputs read as before: nothing was stored into them
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H4]
  · iexists _; isplitr
    · ipureintro; exact harg6.read_unread _
    · iexact H4
  isplitl [H5]
  · iexists _; isplitr
    · ipureintro; exact harg7.read_unread _
    · iexact H5
  isplitl [H6]
  · iexists _; isplitr
    · ipureintro; exact harg8.read_unread _
    · iexact H6
  isplitl [H7]
  · iexists _; isplitr
    · ipureintro; exact harg9.read_unread _
    · iexact H7
  -- the two output buffers were not touched at this point
  isplitl [H8]
  · iexists _, _; isplitr; swap
    · iexact H8
    ipureintro; rfl
  isplitl [H9]
  · iexists _, _; isplitr; swap
    · iexact H9
    ipureintro; rfl
  -- running maximum: the update was stored last, over the reset value -∞, which is what the update had loaded
  isplitl [H10]
  · iexists _; isplitr; swap
    · iexact H10
    ipureintro
    unfold firstStep; dsimp only
    sl_unfold_run_names
    refine (read_writes_whole0 (S := S16x1) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- running sum: likewise, over the reset value 0
  isplitl [H11]
  · iexists _; isplitr; swap
    · iexact H11
    ipureintro
    unfold firstStep; dsimp only
    sl_unfold_run_names
    refine (read_writes_whole0 (S := S16x1) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- running weighted sum: likewise, over the reset value 0
  isplitl [H12]
  · iexists _; isplitr; swap
    · iexact H12
    ipureintro
    unfold firstStep; dsimp only
    sl_unfold_run_names
    refine (read_writes_whole0 (S := S16x512) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- the projected hidden state: stored once, from the loaded hidden state, weights and bias
  isplitl [H13]
  · iexists _; isplitr; swap
    · iexact H13
    ipureintro
    unfold firstStep; dsimp only
    sl_unfold_run_names
    refine (read_writes_whole0 (S := S16x512) _ _ hz _ _ _).trans ?_
    simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]
  -- the score scratch: one strip stored over `old`
  iexists _; isplitr; swap
  · iexact H14
  ipureintro
  unfold firstStep; dsimp only
  sl_unfold_run_names
  refine (read_strip_store_first i arg16 harg16 old _).trans ?_
  simp only [View.readAt_eq_ld, Memref.IsWhole.read_unread, ld_whole0 (S := S16x256x512) hz3,
      ld_whole0 (S := S512x512) hz, ld_whole0 (S := S1x512) hz, ld_whole0 (S := S1x1) hz, ld_whole0 (S := S16x512) hz,
      readCov_whole0 (S := S16x1) _ hz, readCov_whole0 (S := S16x512) _ hz]

end Cert.KernelIdeal.Hand

end
-- ==== Proof.KI.RunMid.lean ====
/-
  The kernel body run at a middle point of a batch tile: one more strip of scores folded into the running maximum,
  the running sum and the running weighted sum.
-/
import proofs.«407076_j10874857193754_3_alg».proof.Proof.KI.Carry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- One store through a rectangle of a whole buffer holding `X`: the buffer then reads `X` with the rectangle's part
    replaced by the payload. -/
theorem read_strip_store {Val : EltTy → Type} {sg : RefSig} {κ : Kind} {sp : Space} {s : Shape} {e : EltTy}
    (m : Memref sg κ sp s e) (h : m.IsWhole) (r : Rect s) (X : s.Idx → Val e) (w : r.shape.Idx → Val e) :
    m.view.read Val (m.view.writes Val (h.unread X) [⟨r, w⟩]) = r.overlay X w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem _ _ y _ (fun p hp => by
        rw [List.mem_singleton.mp hp]; exact hy),
      h.read_unread, Rect.overlay_of_not_mem _ _ _ hy]

/-- One store through the whole-shape rectangle (offsets zero, the shape's own sizes): the buffer then reads the payload,
    whatever it held before. -/
theorem read_whole_store {Val : EltTy → Type} [∀ e, Nonempty (Val e)] {sg : RefSig} {κ : Kind} {sp : Space} {S : Shape} {e : EltTy}
    (v : View sg κ sp S e) (f : v.ty.Contents Val) {off : Fin S.rank → ℕ} (hz : off = fun _ => 0)
    (inb : ∀ a, off a + S.size a ≤ S.size a) (w : S.Idx → Val e) :
    v.read Val (v.writes Val f [⟨Rect.unit off S.size inb, w⟩]) = w := by
  rw [View.read_writes_eq_canon _ _ _ (fun y => ⟨_, List.mem_cons_self, View.mem_set_unit_zero hz inb y⟩),
    View.canon_unit_zero hz]

set_option maxHeartbeats 1600000 in
/-- The body at a MIDDLE point of a batch tile: the scratch buffers at the values `p` the point before left; it hands
    them back at `nextStep`'s values and leaves the outputs' buffers at something. -/
theorem run_mid (c : Dev nD) (i : grid0.Coords) (arg2 : Memref sig .tc .vmem S16x256x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x1 .f32) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x1024 .f32) (harg16 : arg16.IsWhole)
    (hc0 : ¬isFirst i) (hc1 : ¬isLast i) (x0 : Vec F S16x256x512 .f32) (x1 : Vec F S16x512 .f32) (x2 : Vec F S512x512 .bf16) (x3 : Vec F S1x512 .f32) (x4 : Vec F S512x512 .bf16) (x5 : Vec F S1x512 .f32) (x6 : Vec F S1x512 .bf16) (x7 : Vec F S1x1 .f32) (p : Carried F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (p).mx ∗ owns (c : Thread nD τ) arg13 fullShare (p).sm ∗ owns (c : Thread nD τ) arg14 fullShare (p).acc ∗ owns (c : Thread nD τ) arg15 fullShare (p).ph ∗ owns (c : Thread nD τ) arg16 fullShare (p).sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (nextStep i x0 x2 x3 x6 x7 p).mx ∗ owns (c : Thread nD τ) arg13 fullShare (nextStep i x0 x2 x3 x6 x7 p).sm ∗ owns (c : Thread nD τ) arg14 fullShare (nextStep i x0 x2 x3 x6 x7 p).acc ∗ owns (c : Thread nD τ) arg15 fullShare (nextStep i x0 x2 x3 x6 x7 p).ph ∗ owns (c : Thread nD τ) arg16 fullShare (nextStep i x0 x2 x3 x6 x7 p).sc) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hz : (![0, 0] : Fin 2 → ℕ) = fun _ => 0 := by funext a; fin_cases a <;> rfl
  have hz3 : (![0, 0, 0] : Fin 3 → ℕ) = fun _ => 0 := by funext a; fin_cases a <;> rfl
  -- each buffer's raw contents, named by what the buffer reads
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg12.eq_unread hf12
  obtain rfl := harg13.eq_unread hf13
  obtain rfl := harg14.eq_unread hf14
  obtain rfl := harg15.eq_unread hf15
  obtain rfl := harg16.eq_unread hf16
  -- the body as its sequence of loads and stores over the named payloads; neither conditional is taken
  simp only [cc0__kernel_eq_skeleton]; unfold cc0__kernel_skel
  simp only [k0_part1_eq_skeleton]
  sl_exec (disch := first | exact hc0 | exact hc1)
  sl_step
  iapply Hk
  -- the eight input blocks are handed back unchanged
  isplitl [H0]
  · iexists _; isplitr; swap
    · iexact H0
    · ipureintro; exact harg2.read_unread _
  isplitl [H1]
  · iexists _; isplitr; swap
    · iexact H1
    · ipureintro; exact harg3.read_unread _
  isplitl [H2]
  · iexists _; isplitr; swap
    · iexact H2
    · ipureintro; exact harg4.read_unread _
  isplitl [H3]
  · iexists _; isplitr; swap
    · iexact H3
    · ipureintro; exact harg5.read_unread _
  isplitl [H4]
  · iexists _; isplitr; swap
    · iexact H4
    · ipureintro; exact harg6.read_unread _
  isplitl [H5]
  · iexists _; isplitr; swap
    · iexact H5
    · ipureintro; exact harg7.read_unread _
  isplitl [H6]
  · iexists _; isplitr; swap
    · iexact H6
    · ipureintro; exact harg8.read_unread _
  isplitl [H7]
  · iexists _; isplitr; swap
    · iexact H7
    · ipureintro; exact harg9.read_unread _
  -- the two output buffers are untouched: they hold what they held
  isplitl [H10]
  · iexists _, _; isplitr; swap
    · iexact H10
    · ipureintro; rfl
  isplitl [H11]
  · iexists _, _; isplitr; swap
    · iexact H11
    · ipureintro; rfl
  -- the running maximum: one whole store of the maximum of the old maximum and the new strip's row maxima
  isplitl [H12]
  · iexists _; isplitr; swap
    · iexact H12
    · ipureintro
      unfold nextStep; dsimp only
      rw [read_whole_store arg12.view _ hz inb_S16x1_S16x1_0_0]
      sl_unfold_words
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
  -- the running sum: one whole store, the old sum rescaled to the new maximum plus the new strip's exponentials
  isplitl [H13]
  · iexists _; isplitr; swap
    · iexact H13
    · ipureintro
      unfold nextStep; dsimp only
      rw [read_whole_store arg13.view _ hz inb_S16x1_S16x1_0_0]
      sl_unfold_words
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
  -- the running weighted sum: one whole store, likewise rescaled and extended
  isplitl [H14]
  · iexists _; isplitr; swap
    · iexact H14
    · ipureintro
      unfold nextStep; dsimp only
      rw [read_whole_store arg14.view _ hz inb_S16x512_S16x512_0_0]
      sl_unfold_words
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
  -- the projected hidden state is only read
  isplitl [H15]
  · iexists _; isplitr; swap
    · iexact H15
    · ipureintro; exact harg15.read_unread _
  -- the scores: one store through the point's column strip, over what the earlier points left
  · iexists _; isplitr; swap
    · iexact H16
    · ipureintro
      unfold nextStep; dsimp only
      simp only [View.readAt_eq_ld, Memref.IsWhole.read_unread, View.ld_unit_zero (S := S16x1) hz, View.ld_unit_zero (S := S16x512) hz, View.ld_unit_zero (S := S512x512) hz, View.ld_unit_zero (S := S1x512) hz, View.ld_unit_zero (S := S1x1) hz, View.ld_unit_zero (S := S16x256x512) hz3]
      exact read_strip_store arg16 harg16 (strip i) p.sc _

end Cert.KernelIdeal.Hand

end
-- ==== Proof.KI.RunLast.lean ====
/-
  The kernel body run at the last point of a batch tile: the last strip folded in, then the division by the final
  sum, emitting the context block and the attention weights of all positions.
-/
import proofs.«407076_j10874857193754_3_alg».proof.Proof.KI.Carry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## Reading back what the run stored

Every buffer the body stores into receives ONE store per run (a strip of the score buffer, the whole of each other
buffer), so its final reading is the old reading overlaid with the payload; on the whole-shape rectangle the
overlay is the payload itself; a whole-shape load is the identity (the library's whole-rectangle lemmas). -/

section ReadBack

variable {Val : EltTy → Type} {S : Shape} {e : EltTy}

/-- What ONE store through a rectangle leaves, read through the whole view: the old reading overlaid with the stored
    payload on the rectangle (on the rectangle the last write is read back; off it nothing was written). -/
private theorem read_writes_one_overlay {sig' : RefSig} {κ : Kind} {sp : Space}
    (v : View sig' κ sp S e) (f : v.ty.Contents Val) (r : Rect S) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem _ _ y _ (fun q hq => by
        rw [List.mem_singleton] at hq; subst hq; exact hy), Rect.overlay_of_not_mem _ _ _ hy]

/-- Overlaying on the whole-shape rectangle (offset zero, however the zeros are spelt) replaces everything. -/
private theorem overlay_whole {off : Fin S.rank → ℕ} (h : off = fun _ => 0) (inb : ∀ a, off a + S.size a ≤ S.size a)
    (X w : S.Idx → Val e) : (Rect.unit off S.size inb).overlay X w = w := by
  subst h; funext y
  have hw := Rect.overlay_emb (Rect.whole S) X w y
  rwa [Rect.emb_whole_apply] at hw

end ReadBack

/-- The two spellings of a zero offset, rank two and rank three. -/
private theorem hz2 : (![0, 0] : Fin 2 → ℕ) = fun _ => 0 := by funext a; fin_cases a <;> rfl
private theorem hz3 : (![0, 0, 0] : Fin 3 → ℕ) = fun _ => 0 := by funext a; fin_cases a <;> rfl

set_option maxHeartbeats 4000000 in
/-- The body at the LAST point of a batch tile: as at a middle point, and the two outputs' buffers end at the context
    block and the attention-weight block of the values it hands back. -/
theorem run_last (c : Dev nD) (i : grid0.Coords) (arg2 : Memref sig .tc .vmem S16x256x512 .f32) (harg2 : arg2.IsWhole) (arg3 : Memref sig .tc .vmem S16x512 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x1 .f32) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x1024 .f32) (harg16 : arg16.IsWhole)
    (hc0 : ¬isFirst i) (hc1 : isLast i) (x0 : Vec F S16x256x512 .f32) (x1 : Vec F S16x512 .f32) (x2 : Vec F S512x512 .bf16) (x3 : Vec F S1x512 .f32) (x4 : Vec F S512x512 .bf16) (x5 : Vec F S1x512 .f32) (x6 : Vec F S1x512 .bf16) (x7 : Vec F S1x1 .f32) (p : Carried F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare (p).mx ∗ owns (c : Thread nD τ) arg13 fullShare (p).sm ∗ owns (c : Thread nD τ) arg14 fullShare (p).acc ∗ owns (c : Thread nD τ) arg15 fullShare (p).ph ∗ owns (c : Thread nD τ) arg16 fullShare (p).sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (ctxOf (nextStep i x0 x2 x3 x6 x7 p)) ∗ owns (c : Thread nD τ) arg11 fullShare (attnOf (nextStep i x0 x2 x3 x6 x7 p)) ∗ owns (c : Thread nD τ) arg12 fullShare (nextStep i x0 x2 x3 x6 x7 p).mx ∗ owns (c : Thread nD τ) arg13 fullShare (nextStep i x0 x2 x3 x6 x7 p).sm ∗ owns (c : Thread nD τ) arg14 fullShare (nextStep i x0 x2 x3 x6 x7 p).acc ∗ owns (c : Thread nD τ) arg15 fullShare (nextStep i x0 x2 x3 x6 x7 p).ph ∗ owns (c : Thread nD τ) arg16 fullShare (nextStep i x0 x2 x3 x6 x7 p).sc) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  -- the body as its loads, stores and two conditionals over the named payloads
  simp only [cc0__kernel_eq_skeleton]; unfold cc0__kernel_skel
  simp only [k0_part1_eq_skeleton]
  -- open each ownership to contents with a reading; a NAMED reading of a whole buffer fixes its contents
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg12.eq_unread hf12
  obtain rfl := harg13.eq_unread hf13
  obtain rfl := harg14.eq_unread hf14
  obtain rfl := harg15.eq_unread hf15
  obtain rfl := harg16.eq_unread hf16
  -- run it: the reset branch is skipped (not a first point), the emitting branch is taken (a last point)
  sl_exec (disch := first | exact hc0 | exact hc1)
  sl_step
  -- hand everything back; the eight inputs were only read
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  -- context block: the sum and the weighted sum are loaded AFTER their own stores, so the quotient is of the new values
  isplitl [H10]
  · iexists _; isplitr; swap; · iexact H10
    ipureintro
    unfold ctxOf nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  -- attention weights: likewise of the new sum and maximum, and of the scores with this point's strip overlaid
  isplitl [H11]
  · iexists _; isplitr; swap; · iexact H11
    ipureintro
    unfold attnOf nextStep; dsimp only
    sl_unfold_run_names
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  -- running maximum, sum and weighted sum: one whole store each, of values loaded before any store
  isplitl [H12]
  · iexists _; isplitr; swap; · iexact H12
    ipureintro
    unfold nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  isplitl [H13]
  · iexists _; isplitr; swap; · iexact H13
    ipureintro
    unfold nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  isplitl [H14]
  · iexists _; isplitr; swap; · iexact H14
    ipureintro
    unfold nextStep; dsimp only
    sl_unfold_words
    simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]
  -- the projection is only read
  isplitl [H15]
  · iexists _; isplitr; · ipureintro; exact harg15.read_unread _
    iexact H15
  -- scores: this point's strip overlaid on what was there
  iexists _; isplitr; swap; · iexact H16
  ipureintro
  unfold nextStep; dsimp only
  sl_unfold_run_names
  simp only [read_writes_one_overlay, View.readAt_eq_ld, Memref.IsWhole.read_unread,
      overlay_whole (S := S16x512) hz2, overlay_whole (S := S16x1024) hz2, overlay_whole (S := S16x1) hz2,
      View.ld_unit_zero (S := S16x256x512) hz3, View.ld_unit_zero (S := S512x512) hz2, View.ld_unit_zero (S := S1x512) hz2,
      View.ld_unit_zero (S := S16x512) hz2, View.ld_unit_zero (S := S1x1) hz2, View.ld_unit_zero (S := S16x1) hz2, View.ld_unit_zero (S := S16x1024) hz2,
      View.readCov_unit_zero (S := S16x1) _ hz2, View.readCov_unit_zero (S := S16x512) _ hz2]

end Cert.KernelIdeal.Hand

end
-- ==== Proof.KI.Launch.lean ====
/-
  The attention kernel launched over its grid of 16 batch tiles by 4 sequence strips: the proof data (what every
  staging buffer holds after the body at each point), the invariant carried between points (the scratch buffers at
  the carried values; of the score scratch only the strips the current batch tile has stored so far are pinned),
  the body's obligation at a generic point by the three runs, and the run of the whole program: every weakly fair
  execution terminates with each output array at what the points wrote back.
-/
import proofs.«407076_j10874857193754_3_alg».proof.Proof.KI.RunFirst
import proofs.«407076_j10874857193754_3_alg».proof.Proof.KI.RunMid
import proofs.«407076_j10874857193754_3_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

/-- Each window's current staging memref at point `t`, as the pipeline passes it, and its wholeness. -/
abbrev ms0_0 (t : Fin cfg0.N) : Memref sig .tc .vmem S16x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1024 .f32 := win0_9.stage (cfg0.slots t 9)
abbrev hs0_9 (t : Fin cfg0.N) : (ms0_9 t).IsWhole := hstage0_9 ((cfg0.slots t 9).cast nbuf0_9)
/-- The five scratch operands: whole buffers of the kernel's own. -/
abbrev scM0_0 : Memref sig .tc .vmem S16x1 .f32 := Memref.whole cc0_scratch0
abbrev scM0_1 : Memref sig .tc .vmem S16x1 .f32 := Memref.whole cc0_scratch1
abbrev scM0_2 : Memref sig .tc .vmem S16x512 .f32 := Memref.whole cc0_scratch2
abbrev scM0_3 : Memref sig .tc .vmem S16x512 .f32 := Memref.whole cc0_scratch3
abbrev scM0_4 : Memref sig .tc .vmem S16x1024 .f32 := Memref.whole cc0_scratch4

/-- What the launch hands the region and takes back: every scratch buffer at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from a batch tile's last point the two outputs are idle and not written back. -/
theorem idleAt0_8 : ∀ t : Fin cfg0.N, ¬ t.val % 4 = 3 → cfg0.idle 8 (grid0.coords t) = true := by decide +kernel
theorem idleAt0_9 : ∀ t : Fin cfg0.N, ¬ t.val % 4 = 3 → cfg0.idle 9 (grid0.coords t) = true := by decide +kernel
theorem noFlush0_8 : ∀ t : Fin cfg0.N, ¬ t.val % 4 = 3 → (cfg0.win 8).flush t = false := by decide +kernel
theorem noFlush0_9 : ∀ t : Fin cfg0.N, ¬ t.val % 4 = 3 → (cfg0.win 9).flush t = false := by decide +kernel
/-- At the last point they are live. -/
theorem liveAt0_8 : ∀ t : Fin cfg0.N, t.val % 4 = 3 → cfg0.idle 8 (grid0.coords t) = false := by decide +kernel
theorem liveAt0_9 : ∀ t : Fin cfg0.N, t.val % 4 = 3 → cfg0.idle 9 (grid0.coords t) = false := by decide +kernel

/-! ## The invariant between points -/

/-- Two contents of the score scratch agree on the columns below `k`. -/
def AgreeBelow (k : ℕ) (d d' : Vec F S16x1024 .f32) : Prop := ∀ y : S16x1024.Idx, (y 1).val < k → d y = d' y

/-- Before position `n`: at the grid's start every scratch buffer at anything; afterwards the first four at the carried
    values of the point before, the score scratch at contents that agree with the carried ones on the strips the
    current batch tile has stored. -/
def PhiS (c : Dev nD) : (n : ℕ) → n ≤ cfg0.N → sProp 𝕄
  | 0, _ => Pipeline.ΦA spec0 c
  | n + 1, hn => iprop(iprop(owns (c : Thread nD τ) scM0_0 fullShare (carriedAt m c n hn).mx ∗ owns (c : Thread nD τ) scM0_1 fullShare (carriedAt m c n hn).sm ∗ owns (c : Thread nD τ) scM0_2 fullShare (carriedAt m c n hn).acc ∗ owns (c : Thread nD τ) scM0_3 fullShare (carriedAt m c n hn).ph ∗ (∃ d, owns (c : Thread nD τ) scM0_4 fullShare d ∗ ⌜AgreeBelow (256 * (n % 4 + 1)) d (carriedAt m c n hn).sc⌝)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (carriedAt m c n hn).mx ∗ owns (c : Thread nD τ) scM0_1 fullShare (carriedAt m c n hn).sm ∗ owns (c : Thread nD τ) scM0_2 fullShare (carriedAt m c n hn).acc ∗ owns (c : Thread nD τ) scM0_3 fullShare (carriedAt m c n hn).ph ∗ (∃ d, owns (c : Thread nD τ) scM0_4 fullShare d ∗ ⌜AgreeBelow (256 * (n % 4 + 1)) d (carriedAt m c n hn).sc⌝)) ∗ (∃ r, prngReg c r)) := rfl

theorem PhiS_pos (c : Dev nD) (n : ℕ) (h : n ≤ cfg0.N) (hz : n ≠ 0) :
    PhiS m c n h = iprop(iprop(owns (c : Thread nD τ) scM0_0 fullShare (carriedAt m c (n - 1) (by omega)).mx ∗ owns (c : Thread nD τ) scM0_1 fullShare (carriedAt m c (n - 1) (by omega)).sm ∗ owns (c : Thread nD τ) scM0_2 fullShare (carriedAt m c (n - 1) (by omega)).acc ∗ owns (c : Thread nD τ) scM0_3 fullShare (carriedAt m c (n - 1) (by omega)).ph ∗ (∃ d, owns (c : Thread nD τ) scM0_4 fullShare d ∗ ⌜AgreeBelow (256 * ((n - 1) % 4 + 1)) d (carriedAt m c (n - 1) (by omega)).sc⌝)) ∗ (∃ r, prngReg c r)) := by
  cases n with
  | zero => exact absurd rfl hz
  | succ n => rfl

/-! ## The proof data -/

/-- The arrays as the region finds them; after the body each input's buffer at its block, the two outputs' at the
    context block and the attention-weight block of the carried values (named at every point; written back only at a
    batch tile's last point, idle at the others); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ctxOf (carriedAt m c t.val t.isLt)
    | ⟨9, _⟩ => attnOf (carriedAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
/-- The context block a point leaves in output 8's buffer. -/
theorem after0_8 (c : Dev nD) (t : Fin cfg0.N) : (dats m 0 c).after 8 t = ctxOf (carriedAt m c t.val t.isLt) := by dsimp only [dats]
/-- The attention-weight block a point leaves in output 9's buffer. -/
theorem after0_9 (c : Dev nD) (t : Fin cfg0.N) : (dats m 0 c).after 9 t = attnOf (carriedAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-! ## Pure facts about the strips of the score scratch -/

/-- The strip a point fills starts at column `256 · (t mod 4)`. -/
theorem strip_off : ∀ t : Fin cfg0.N, k0_off1 (grid0.coords t) = ![0, 256 * (t.val % 4)] :=
  (by decide +kernel : ∀ t : Fin grid0.N, k0_off1 (grid0.coords t) = ![0, 256 * (t.val % 4)])

/-- Overlaying one tile on the strip starting at column `256 · j` of two contents that agree below that column
    gives contents that agree below the strip's end: on the strip both are the tile, off it both are as before. -/
theorem AgreeBelow.overlay {i : grid0.Coords} {j : ℕ} (hoff : k0_off1 i = ![0, 256 * j]) {d d' : Vec F S16x1024 .f32}
    (h : AgreeBelow (256 * j) d d') (tile : (strip i).shape.Idx → Elt F .f32) :
    AgreeBelow (256 * (j + 1)) ((strip i).overlay d tile) ((strip i).overlay d' tile) := by
  intro y hy
  by_cases hmem : y ∈ (strip i).set
  · rw [← Rect.map_emb_univ, Finset.mem_map] at hmem
    obtain ⟨x, -, rfl⟩ := hmem
    rw [Rect.overlay_emb, Rect.overlay_emb]
  · rw [Rect.overlay_of_not_mem _ _ _ hmem, Rect.overlay_of_not_mem _ _ _ hmem]
    apply h
    by_contra hge
    apply hmem
    rw [Rect.mem_set_unit, hoff]
    have h0 : (y 0).val < 16 := (y 0).isLt
    refine Fin.forall_fin_two.mpr ⟨?_, ?_⟩
    · show (0 : ℕ) ≤ (y 0).val ∧ (y 0).val < 0 + 16
      omega
    · show 256 * j ≤ (y 1).val ∧ (y 1).val < 256 * j + 256
      omega

/-- Nothing lies below column 0. -/
theorem AgreeBelow.zero (d d' : Vec F S16x1024 .f32) : AgreeBelow (256 * 0) d d' := fun y hy => absurd hy (by omega)

/-- Agreement below column 1024 is equality: the score scratch has 1024 columns. -/
theorem AgreeBelow.eq_of_all {d d' : Vec F S16x1024 .f32} (h : AgreeBelow 1024 d d') : d = d' :=
  funext fun y => h y (y 1).isLt

/-! ## What the two outputs' buffers hold away from a batch tile's last point -/

theorem noFetch0_8 : ∀ t : Fin cfg0.N, (cfg0.win 8).fetch t = false := by decide +kernel
theorem noFetch0_9 : ∀ t : Fin cfg0.N, (cfg0.win 9).fetch t = false := by decide +kernel
theorem flushAt0_8 : ∀ t : Fin cfg0.N, t.val % 4 = 3 → (cfg0.win 8).flush t = true := by decide +kernel
theorem flushAt0_9 : ∀ t : Fin cfg0.N, t.val % 4 = 3 → (cfg0.win 9).flush t = true := by decide +kernel

/-- Away from a last point output 8's buffer is found as handed over: nothing fetches it, and since the last
    write-back (or the start) every point has been idle for it. -/
theorem before0_8_id (c : Dev nD) (n : ℕ) : ∀ t : Fin cfg0.N, t.val = n → ¬ t.val % 4 = 3 → ∀ d, (dats m 0 c).before 8 t d = d := by
  induction n with
  | zero =>
    intro t ht h3 d
    unfold Dat.before
    rw [noFetch0_8 t, if_neg Bool.false_ne_true, if_pos ht]
  | succ n ih =>
    intro t ht h3 d
    rw [Dat.before_of_pos _ 8 t (by omega) (noFetch0_8 t)]
    by_cases h0 : t.val % 4 = 0
    · rw [if_pos (flushAt0_8 ⟨t.val - 1, Nat.lt_of_le_of_lt (Nat.sub_le _ _) t.isLt⟩ (by show (t.val - 1) % 4 = 3; omega))]
    · have h3' : ¬ (t.val - 1) % 4 = 3 := by omega
      rw [if_neg (by rw [noFlush0_8 ⟨t.val - 1, Nat.lt_of_le_of_lt (Nat.sub_le _ _) t.isLt⟩ h3']; exact Bool.false_ne_true)]
      unfold Dat.left
      rw [idleAt0_8 ⟨t.val - 1, Nat.lt_of_le_of_lt (Nat.sub_le _ _) t.isLt⟩ h3']
      exact ih ⟨t.val - 1, Nat.lt_of_le_of_lt (Nat.sub_le _ _) t.isLt⟩ (by show t.val - 1 = n; omega) h3' d

/-- The same for output 9's buffer. -/
theorem before0_9_id (c : Dev nD) (n : ℕ) : ∀ t : Fin cfg0.N, t.val = n → ¬ t.val % 4 = 3 → ∀ d, (dats m 0 c).before 9 t d = d := by
  induction n with
  | zero =>
    intro t ht h3 d
    unfold Dat.before
    rw [noFetch0_9 t, if_neg Bool.false_ne_true, if_pos ht]
  | succ n ih =>
    intro t ht h3 d
    rw [Dat.before_of_pos _ 9 t (by omega) (noFetch0_9 t)]
    by_cases h0 : t.val % 4 = 0
    · rw [if_pos (flushAt0_9 ⟨t.val - 1, Nat.lt_of_le_of_lt (Nat.sub_le _ _) t.isLt⟩ (by show (t.val - 1) % 4 = 3; omega))]
    · have h3' : ¬ (t.val - 1) % 4 = 3 := by omega
      rw [if_neg (by rw [noFlush0_9 ⟨t.val - 1, Nat.lt_of_le_of_lt (Nat.sub_le _ _) t.isLt⟩ h3']; exact Bool.false_ne_true)]
      unfold Dat.left
      rw [idleAt0_9 ⟨t.val - 1, Nat.lt_of_le_of_lt (Nat.sub_le _ _) t.isLt⟩ h3']
      exact ih ⟨t.val - 1, Nat.lt_of_le_of_lt (Nat.sub_le _ _) t.isLt⟩ (by show t.val - 1 = n; omega) h3' d

/-- At a batch tile's last point the attention-weight block does not depend on what the score scratch held beyond the
    three strips stored before: the last strip is stored by the point itself, so the two score contents are equal. -/
theorem attnOf_last (i : grid0.Coords) (hoff : k0_off1 i = ![0, 256 * 3]) (x0 : Vec F S16x256x512 .f32) (x2 : Vec F S512x512 .bf16)
    (x3 : Vec F S1x512 .f32) (x6 : Vec F S1x512 .bf16) (x7 : Vec F S1x1 .f32) (prev : Carried F) (d4 : Vec F S16x1024 .f32)
    (h : AgreeBelow (256 * 3) d4 prev.sc) :
    attnOf (nextStep i x0 x2 x3 x6 x7 { mx := prev.mx, sm := prev.sm, acc := prev.acc, ph := prev.ph, sc := d4 })
      = attnOf (nextStep i x0 x2 x3 x6 x7 prev) := by
  have hsc : (strip i).overlay d4 (k0_pay15 x0 x2 x3 prev.ph x6 x7) = (strip i).overlay prev.sc (k0_pay15 x0 x2 x3 prev.ph x6 x7) :=
    AgreeBelow.eq_of_all (AgreeBelow.overlay hoff h (k0_pay15 x0 x2 x3 prev.ph x6 x7))
  unfold attnOf nextStep
  dsimp only
  rw [hsc]

set_option maxHeartbeats 4800000 in
/-- The body at any point: by the position of the point in its batch tile, one of the three runs. The inputs' buffers
    hold their blocks; the invariant hands over the scratch buffers (at anything at the grid's start and at a later batch
    tile's first point, where the carried values of the tile before are forgotten; else at the carried values of the
    point before, the score scratch agreeing with them on the strips stored so far); the run returns them at this point's
    carried values, the score scratch with one more strip stored on both sides of the agreement. At a last point the
    stored strips are all of the score scratch, so the attention-weight block is the named one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : t.val % 4 = 3
    · exfalso; omega
    · -- a batch tile's first point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t h1) (noFlush0_8 t h1)]
      rw [Dat.leavesExact_idle (dats m 0 c) 9 t (idleAt0_9 t h1) (noFlush0_9 t h1)]
      simp only [before0_8_id m c t.val t rfl h1, before0_9_id m c t.val t rfl h1]
      rw [carriedAt_first m c t h0]
      by_cases hz : t.val = 0
      · rw [PhiS_castSucc m c t, PhiS_zero m c _ _ hz, PhiA0_eq]
        iintro ⟨⟨⟨⟨%e0, HS0⟩, ⟨%e1, HS1⟩, ⟨%e2, HS2⟩, ⟨%e3, HS3⟩, ⟨%d4, HS4⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
        iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) d4 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexists _; iexact HS0
        isplitl [HS1]; · iexists _; iexact HS1
        isplitl [HS2]; · iexists _; iexact HS2
        isplitl [HS3]; · iexists _; iexact HS3
        isplitl [HS4]; · iexact HS4
        iintro ⟨H0, H1, H2, H3, H4, H5, H6, H7, ⟨%e8, H8⟩, ⟨%e9, H9⟩, HS0, HS1, HS2, HS3, HS4⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexists _; isplitl [HS4]; · iexact HS4
            ipureintro
            exact AgreeBelow.overlay (strip_off t) (show AgreeBelow (256 * (t.val % 4)) d4 unwritten from by rw [h0]; exact AgreeBelow.zero _ _) _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · rw [PhiS_castSucc m c t, PhiS_pos m c _ _ hz]
        iintro ⟨⟨⟨HS0, HS1, HS2, HS3, ⟨%d4, HS4, -⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
        iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) d4 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexists _; iexact HS0
        isplitl [HS1]; · iexists _; iexact HS1
        isplitl [HS2]; · iexists _; iexact HS2
        isplitl [HS3]; · iexists _; iexact HS3
        isplitl [HS4]; · iexact HS4
        iintro ⟨H0, H1, H2, H3, H4, H5, H6, H7, ⟨%e8, H8⟩, ⟨%e9, H9⟩, HS0, HS1, HS2, HS3, HS4⟩
        isplitl [HS0 HS1 HS2 HS3 HS4 Hg]
        · isplitl [HS0 HS1 HS2 HS3 HS4]
          · isplitl [HS0]; · iexact HS0
            isplitl [HS1]; · iexact HS1
            isplitl [HS2]; · iexact HS2
            isplitl [HS3]; · iexact HS3
            iexists _; isplitl [HS4]; · iexact HS4
            ipureintro
            exact AgreeBelow.overlay (strip_off t) (show AgreeBelow (256 * (t.val % 4)) d4 unwritten from by rw [h0]; exact AgreeBelow.zero _ _) _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · have hz : t.val ≠ 0 := fun h => h0 (by rw [h])
    have hstep : (t.val - 1) % 4 + 1 = t.val % 4 := by omega
    by_cases h1 : t.val % 4 = 3
    · -- a batch tile's last point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t h1], after0_8]
      rw [show (dats m 0 c).leavesExact 9 t = owns (c : Thread nD τ) (ms0_9 t) fullShare ((dats m 0 c).after 9 t) from by
        unfold Dat.leavesExact; rw [liveAt0_9 t h1], after0_9]
      rw [carriedAt_next m c t h0]
      rw [PhiS_castSucc m c t, PhiS_pos m c _ _ hz]
      iintro ⟨⟨⟨HS0, HS1, HS2, HS3, ⟨%d4, HS4, %hd4⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
      rw [hstep] at hd4
      rw [← attnOf_last (grid0.coords t) (by rw [strip_off t, h1]) (iblk m c 0 t) (iblk m c 2 t) (iblk m c 3 t) (iblk m c 6 t) (iblk m c 7 t) (carriedAt m c (t.val - 1) (Nat.lt_of_le_of_lt (Nat.sub_le _ _) t.isLt)) d4 (by rw [← h1]; exact hd4)]
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) { mx := (carriedAt m c (t.val - 1) (Nat.lt_of_le_of_lt (Nat.sub_le _ _) t.isLt)).mx, sm := (carriedAt m c (t.val - 1) (Nat.lt_of_le_of_lt (Nat.sub_le _ _) t.isLt)).sm, acc := (carriedAt m c (t.val - 1) (Nat.lt_of_le_of_lt (Nat.sub_le _ _) t.isLt)).acc, ph := (carriedAt m c (t.val - 1) (Nat.lt_of_le_of_lt (Nat.sub_le _ _) t.isLt)).ph, sc := d4 } Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexists _; isplitl [HS4]; · iexact HS4
          ipureintro
          exact AgreeBelow.overlay (strip_off t) hd4 _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · -- a middle point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8 t h1) (noFlush0_8 t h1)]
      rw [Dat.leavesExact_idle (dats m 0 c) 9 t (idleAt0_9 t h1) (noFlush0_9 t h1)]
      simp only [before0_8_id m c t.val t rfl h1, before0_9_id m c t.val t rfl h1]
      rw [carriedAt_next m c t h0]
      rw [PhiS_castSucc m c t, PhiS_pos m c _ _ hz]
      iintro ⟨⟨⟨HS0, HS1, HS2, HS3, ⟨%d4, HS4, %hd4⟩⟩, Hg⟩, Ho, ⟨%d0, H0⟩, ⟨%d1, H1⟩, ⟨%d2, H2⟩, ⟨%d3, H3⟩, ⟨%d4', H4⟩, ⟨%d5, H5⟩, ⟨%d6, H6⟩, ⟨%d7, H7⟩, ⟨%d8, H8⟩, ⟨%d9, H9⟩⟩
      rw [hstep] at hd4
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((isFirst_iff t).mp h)) (fun h => h1 ((isLast_iff t).mp h)) (iblk m c 0 t) (iblk m c 1 t) (iblk m c 2 t) (iblk m c 3 t) (iblk m c 4 t) (iblk m c 5 t) (iblk m c 6 t) (iblk m c 7 t) { mx := (carriedAt m c (t.val - 1) (Nat.lt_of_le_of_lt (Nat.sub_le _ _) t.isLt)).mx, sm := (carriedAt m c (t.val - 1) (Nat.lt_of_le_of_lt (Nat.sub_le _ _) t.isLt)).sm, acc := (carriedAt m c (t.val - 1) (Nat.lt_of_le_of_lt (Nat.sub_le _ _) t.isLt)).acc, ph := (carriedAt m c (t.val - 1) (Nat.lt_of_le_of_lt (Nat.sub_le _ _) t.isLt)).ph, sc := d4 } Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, ⟨%e9, H9⟩, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexists _; isplitl [HS4]; · iexact HS4
          ipureintro
          exact AgreeBelow.overlay (strip_off t) hd4 _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, ⟨%d4, HS4, -⟩⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, each array of the pipeline ending at what the write-backs
    of the proof data make of it, every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Softmax.lean ====
/-
  Streaming softmax over the extended reals. A row of real scores is read in strips of 256. The running maximum starts
  at `-∞`, the running sum and the running weighted sum at `0`; a strip rescales the two sums by `exp (old maximum - new
  maximum)` and adds its own exponentials taken against the new maximum. Since `exp (s - M) · exp (M - M') = exp (s - M')`
  on the reals, after any number of strips the three running values are the maximum, the sum of exponentials and the
  weighted sum of exponentials of all the scores read so far; at the first strip the rescaling factor is `exp (-∞) = 0`
  against sums that are `0`. Dividing at the end by the final sum, as a product with its reciprocal, gives the softmax
  weights and their weighted sum.
-/
import Idealize.ShloMosaic.PureOps.Ideal

noncomputable section

open scoped BigOperators

namespace Cert.Softmax

open Idealize.ShloMosaic

/-! ## One strip, as the kernel computes it on extended reals -/

/-- The new running maximum: the old one against the strip's largest score. -/
def stepMax (mx : EReal) (t : Fin 256 → EReal) : EReal := max mx (Finset.univ.fold max ⊥ t)

/-- The new running sum. -/
def stepSum (mx sm : EReal) (t : Fin 256 → EReal) : EReal :=
  Ideal.exp (mx - stepMax mx t) * sm + ∑ k : Fin 256, Ideal.exp (t k - stepMax mx t)

/-- The new running weighted sum (one feature column `g`). -/
def stepAcc (mx acc : EReal) (t g : Fin 256 → EReal) : EReal :=
  Ideal.exp (mx - stepMax mx t) * acc + ∑ k : Fin 256, Ideal.exp (t k - stepMax mx t) * g k

/-! ## The strips in sequence -/

/-- The running maximum after strips `0 … n` of the real scores `s`. -/
def runMax (s : ℕ → Fin 256 → ℝ) : ℕ → EReal
  | 0 => stepMax ⊥ (fun k => (s 0 k : EReal))
  | n + 1 => stepMax (runMax s n) (fun k => (s (n + 1) k : EReal))

/-- The running sum after strips `0 … n`. -/
def runSum (s : ℕ → Fin 256 → ℝ) : ℕ → EReal
  | 0 => stepSum ⊥ 0 (fun k => (s 0 k : EReal))
  | n + 1 => stepSum (runMax s n) (runSum s n) (fun k => (s (n + 1) k : EReal))

/-- The running weighted sum after strips `0 … n`, for real weights' companions `f`. -/
def runAcc (s f : ℕ → Fin 256 → ℝ) : ℕ → EReal
  | 0 => stepAcc ⊥ 0 (fun k => (s 0 k : EReal)) (fun k => (f 0 k : EReal))
  | n + 1 => stepAcc (runMax s n) (runAcc s f n) (fun k => (s (n + 1) k : EReal)) (fun k => (f (n + 1) k : EReal))

/-! ## What they are -/

/-- The largest of the scores of strips `0 … n` (a real number: there is at least one score). -/
def realMax (s : ℕ → Fin 256 → ℝ) (n : ℕ) : ℝ :=
  (Finset.range (n + 1) ×ˢ (Finset.univ : Finset (Fin 256))).sup' (by simp) (fun p => s p.1 p.2)

/-! ### Auxiliary facts: coercion of finite sums, the strip's largest score, the largest score so far -/

/-- The coercion of a finite sum of reals is the sum of the coercions. -/
theorem coe_sum {ι : Type*} (a : Finset ι) (f : ι → ℝ) :
    ((∑ i ∈ a, f i : ℝ) : EReal) = ∑ i ∈ a, (f i : EReal) := by
  classical
  induction a using Finset.induction_on with
  | empty => simp
  | insert i a hi ih => rw [Finset.sum_insert hi, Finset.sum_insert hi, EReal.coe_add, ih]

/-- The largest of one strip of real scores. -/
def stripMax (t : Fin 256 → ℝ) : ℝ := (Finset.univ : Finset (Fin 256)).sup' Finset.univ_nonempty t

/-- Folding `max` from `-∞` over the coerced strip gives the coercion of the strip's largest score. -/
theorem fold_max_coe (t : Fin 256 → ℝ) :
    (Finset.univ : Finset (Fin 256)).fold max ⊥ (fun k => (t k : EReal)) = ((stripMax t : ℝ) : EReal) := by
  change (Finset.univ : Finset (Fin 256)).sup (fun k => (t k : EReal)) = _
  apply le_antisymm
  · exact Finset.sup_le fun k hk => EReal.coe_le_coe_iff.2 (Finset.le_sup' t hk)
  · obtain ⟨k, hk, h⟩ := Finset.exists_mem_eq_sup' (Finset.univ_nonempty : (Finset.univ : Finset (Fin 256)).Nonempty) t
    unfold stripMax
    rw [h]
    exact Finset.le_sup (f := fun k => (t k : EReal)) hk

/-- The largest score so far is below a bound exactly when every score read so far is. -/
theorem realMax_le_iff (s : ℕ → Fin 256 → ℝ) (n : ℕ) (c : ℝ) :
    realMax s n ≤ c ↔ ∀ j, j ≤ n → ∀ k, s j k ≤ c := by
  unfold realMax
  rw [Finset.sup'_le_iff]
  constructor
  · intro h j hj k
    exact h (j, k) (by simp; omega)
  · rintro h ⟨j, k⟩ hp
    simp only [Finset.mem_product, Finset.mem_range, Finset.mem_univ, and_true] at hp
    exact h j (by omega) k

theorem stripMax_le_iff (t : Fin 256 → ℝ) (c : ℝ) : stripMax t ≤ c ↔ ∀ k, t k ≤ c := by
  unfold stripMax
  rw [Finset.sup'_le_iff]
  exact ⟨fun h k => h k (Finset.mem_univ _), fun h k _ => h k⟩

/-- After the first strip the largest score is that strip's. -/
theorem realMax_zero (s : ℕ → Fin 256 → ℝ) : realMax s 0 = stripMax (s 0) := by
  apply eq_of_forall_ge_iff
  intro c
  rw [realMax_le_iff, stripMax_le_iff]
  constructor
  · intro h k
    exact h 0 le_rfl k
  · intro h j hj k
    obtain rfl : j = 0 := by omega
    exact h k

/-- A further strip raises the largest score to the larger of the old one and the strip's. -/
theorem realMax_succ (s : ℕ → Fin 256 → ℝ) (n : ℕ) :
    realMax s (n + 1) = max (realMax s n) (stripMax (s (n + 1))) := by
  apply eq_of_forall_ge_iff
  intro c
  rw [max_le_iff, realMax_le_iff, realMax_le_iff, stripMax_le_iff]
  constructor
  · intro h
    exact ⟨fun j hj k => h j (by omega) k, fun k => h (n + 1) le_rfl k⟩
  · rintro ⟨h1, h2⟩ j hj k
    rcases Nat.of_le_succ hj with hj' | rfl
    · exact h1 j hj' k
    · exact h2 k

theorem runMax_eq (s : ℕ → Fin 256 → ℝ) (n : ℕ) : runMax s n = ((realMax s n : ℝ) : EReal) := by
  induction n with
  | zero =>
    rw [runMax, stepMax, fold_max_coe, max_eq_right bot_le, realMax_zero]
  | succ n ih =>
    rw [runMax, stepMax, fold_max_coe, ih, realMax_succ]
    exact (EReal.coe_strictMono.monotone.map_max).symm

/-- The new running maximum after strip `n + 1`, as the step computes it from the old one. -/
theorem stepMax_run (s : ℕ → Fin 256 → ℝ) (n : ℕ) :
    stepMax (runMax s n) (fun k => (s (n + 1) k : EReal)) = ((realMax s (n + 1) : ℝ) : EReal) :=
  runMax_eq s (n + 1)

theorem stepMax_first (s : ℕ → Fin 256 → ℝ) :
    stepMax ⊥ (fun k => (s 0 k : EReal)) = ((realMax s 0 : ℝ) : EReal) :=
  runMax_eq s 0

/-- The extended-real exponential of a difference of reals is the real exponential. -/
theorem exp_sub_coe (x M : ℝ) : Ideal.exp ((x : EReal) - (M : EReal)) = ((Real.exp (x - M) : ℝ) : EReal) := by
  rw [← EReal.coe_sub, Ideal.exp_coe]

/-- Rescaling an exponential taken against `M` by `exp (M - M')` retakes it against `M'`. -/
theorem exp_rescale (x M M' : ℝ) : Real.exp (M - M') * Real.exp (x - M) = Real.exp (x - M') := by
  rw [← Real.exp_add]
  congr 1
  ring

theorem runSum_eq (s : ℕ → Fin 256 → ℝ) (n : ℕ) :
    runSum s n = ((∑ j ∈ Finset.range (n + 1), ∑ k : Fin 256, Real.exp (s j k - realMax s n) : ℝ) : EReal) := by
  induction n with
  | zero =>
    rw [runSum, stepSum, stepMax_first, mul_zero, zero_add, Finset.sum_range_one, coe_sum]
    exact Finset.sum_congr rfl fun k _ => exp_sub_coe _ _
  | succ n ih =>
    rw [runSum, stepSum, stepMax_run, ih, runMax_eq, exp_sub_coe, ← EReal.coe_mul]
    have h : ∀ k : Fin 256, Ideal.exp (((s (n + 1) k : ℝ) : EReal) - ((realMax s (n + 1) : ℝ) : EReal))
        = ((Real.exp (s (n + 1) k - realMax s (n + 1)) : ℝ) : EReal) := fun k => exp_sub_coe _ _
    rw [Finset.sum_congr rfl fun k _ => h k, ← coe_sum, ← EReal.coe_add, Finset.sum_range_succ _ (n + 1),
      Finset.mul_sum]
    congr 2
    refine Finset.sum_congr rfl fun j _ => ?_
    rw [Finset.mul_sum]
    exact Finset.sum_congr rfl fun k _ => exp_rescale _ _ _

theorem runAcc_eq (s f : ℕ → Fin 256 → ℝ) (n : ℕ) :
    runAcc s f n = ((∑ j ∈ Finset.range (n + 1), ∑ k : Fin 256, Real.exp (s j k - realMax s n) * f j k : ℝ) : EReal) := by
  induction n with
  | zero =>
    rw [runAcc, stepAcc, stepMax_first, mul_zero, zero_add, Finset.sum_range_one, coe_sum]
    refine Finset.sum_congr rfl fun k _ => ?_
    rw [exp_sub_coe, ← EReal.coe_mul]
  | succ n ih =>
    rw [runAcc, stepAcc, stepMax_run, ih, runMax_eq, exp_sub_coe, ← EReal.coe_mul]
    have h : ∀ k : Fin 256, Ideal.exp (((s (n + 1) k : ℝ) : EReal) - ((realMax s (n + 1) : ℝ) : EReal))
          * ((f (n + 1) k : ℝ) : EReal)
        = ((Real.exp (s (n + 1) k - realMax s (n + 1)) * f (n + 1) k : ℝ) : EReal) := fun k => by
      rw [exp_sub_coe, ← EReal.coe_mul]
    rw [Finset.sum_congr rfl fun k _ => h k, ← coe_sum, ← EReal.coe_add, Finset.sum_range_succ _ (n + 1),
      Finset.mul_sum]
    congr 2
    refine Finset.sum_congr rfl fun j _ => ?_
    rw [Finset.mul_sum]
    refine Finset.sum_congr rfl fun k _ => ?_
    rw [← mul_assoc, exp_rescale]

/-- The sum of exponentials is positive. -/
theorem sum_exp_pos (s : ℕ → Fin 256 → ℝ) (n : ℕ) :
    0 < ∑ j ∈ Finset.range (n + 1), ∑ k : Fin 256, Real.exp (s j k - realMax s n) :=
  Finset.sum_pos (fun _ _ => Finset.sum_pos (fun _ _ => Real.exp_pos _) Finset.univ_nonempty)
    ⟨0, Finset.mem_range.2 (Nat.succ_pos n)⟩

/-! ## The final division -/

/-- The reciprocal of a positive real, as the division computes it. -/
theorem one_div_coe (Z : ℝ) (hZ : 0 < Z) : Ideal.div 1 (Z : EReal) = ((1 / Z : ℝ) : EReal) := by
  rw [Ideal.div_coe hZ.ne', one_mul]

/-- A product with the reciprocal of a positive real is the quotient by it. -/
theorem mul_one_div (x : EReal) (Z : ℝ) (hZ : 0 < Z) : x * Ideal.div 1 (Z : EReal) = Ideal.div x (Z : EReal) := by
  rw [one_div_coe Z hZ, Ideal.div_coe hZ.ne']

/-- The weighted sum over the final sum is the sum of the quotients' products: for real exponentials `e`, real
    companions `f` and a positive real sum `Z`. -/
theorem sum_mul_one_div (n : ℕ) (e f : ℕ → Fin 256 → ℝ) (Z : ℝ) (hZ : 0 < Z) :
    ((∑ j ∈ Finset.range (n + 1), ∑ k : Fin 256, e j k * f j k : ℝ) : EReal) * Ideal.div 1 (Z : EReal)
      = ∑ j ∈ Finset.range (n + 1), ∑ k : Fin 256, Ideal.div ((e j k : ℝ) : EReal) (Z : EReal) * ((f j k : ℝ) : EReal) := by
  have h : ∀ j : ℕ, ∀ k : Fin 256, Ideal.div ((e j k : ℝ) : EReal) (Z : EReal) * ((f j k : ℝ) : EReal)
      = ((e j k * f j k * (1 / Z) : ℝ) : EReal) := fun j k => by
    rw [Ideal.div_coe hZ.ne', ← EReal.coe_mul, ← EReal.coe_mul]
    congr 1
    ring
  rw [one_div_coe Z hZ, ← EReal.coe_mul, Finset.sum_mul, coe_sum]
  refine Finset.sum_congr rfl fun j _ => ?_
  rw [Finset.sum_mul, coe_sum]
  exact Finset.sum_congr rfl fun k _ => (h j k).symm

end Cert.Softmax

end
-- ==== Proof.KI.PayloadIdeal.lean ====
/-
  The kernel body's pure values read at an index, on the extended reals: the hidden state's projection and the
  feature rows' projection are sums of products (a matrix product onto a zero accumulator), a score is the sum over the
  units of `tanh` of their sum times the value vector plus the value bias; the row maximum, the rescaled running sum and
  the rescaled running weighted sum are one streaming-softmax step; the two emitted blocks are products with the
  reciprocal of the final sum.
-/
import proofs.«407076_j10874857193754_3_alg».proof.Proof.KI.Carry
import proofs.«407076_j10874857193754_3_alg».proof.Proof.Softmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Cert.Softmax
open Idealize.ShloMosaic Idealize.ShloMosaic.TcCoe Idealize.ShloMosaic.ValueIdx

namespace Pay

/-! ## Pointwise operations and constants -/

section Pointwise
variable {s : Shape} {φ : FTy}
/-- An exponential at an index is the exponential of the element. -/
theorem exp_apply (a : FVec Ideal s φ) (i : s.Idx) : exp a i = Ideal.exp (a i) := rfl
/-- A hyperbolic tangent at an index is the hyperbolic tangent of the element. -/
theorem tanh_apply (a : FVec Ideal s φ) (i : s.Idx) : tanh a i = Ideal.tanh (a i) := rfl
end Pointwise

/-- The word of the negative infinity denotes `⊥`. -/
theorem ofBits_negInf : Ideal.ofBits .f32 0xFF800000#32 = (⊥ : EReal) := by simp [Ideal.ofBits, Ideal.ieee]
/-- The word of `1.0` denotes `1`. -/
theorem ofBits_one : Ideal.ofBits .f32 0x3F800000#32 = (1 : EReal) := IdealRules.sign_bit.ideal_onePat .f32

/-! ## Layout operations read at an index given by coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, w)`, the operand at `(p, q, 0)`. -/
theorem broadcastTo_ab1_abc_apply {a b c : ℕ} (v : (⟨3, ![a, b, 1]⟩ : Shape).Idx → α) (h : (⟨3, ![a, b, 1]⟩ : Shape).Broadcasts ⟨3, ![a, b, c]⟩)
    (p : Fin a) (q : Fin b) (w : Fin c) : broadcastTo ⟨3, ![a, b, c]⟩ v h (ix3 p q w) = v (ix3 p q (0 : Fin 1)) := by
  refine broadcastTo_apply v h (ix3 p q w) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, c]` array cast to `[a, 1, c]` reads, at `(i, u, j)`, the operand at `(i, j)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (j : Fin c) : shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- A `[1, 1, c]` array broadcast to `[a, b, c]` reads, at `(p, q, w)`, the operand at `(0, 0, w)`. -/
theorem broadcastTo_11c_abc_apply {a b c : ℕ} (v : (⟨3, ![1, 1, c]⟩ : Shape).Idx → α) (h : (⟨3, ![1, 1, c]⟩ : Shape).Broadcasts ⟨3, ![a, b, c]⟩)
    (p : Fin a) (q : Fin b) (w : Fin c) : broadcastTo ⟨3, ![a, b, c]⟩ v h (ix3 p q w) = v (ix3 (0 : Fin 1) (0 : Fin 1) w) := by
  refine broadcastTo_apply v h (ix3 p q w) (ix3 (0 : Fin 1) (0 : Fin 1) w) fun ax => ?_
  match ax with
  | ⟨0, _⟩ => rfl
  | ⟨1, _⟩ => rfl
  | ⟨2, _⟩ =>
    show w.val = if c = 1 then 0 else w.val
    split
    · have := w.isLt; omega
    · rfl

/-- An `[a, 1, c]` array broadcast to `[a, b, c]` reads, at `(p, q, w)`, the operand at `(p, 0, w)`. -/
theorem broadcastTo_a1c_abc_apply {a b c : ℕ} (v : (⟨3, ![a, 1, c]⟩ : Shape).Idx → α) (h : (⟨3, ![a, 1, c]⟩ : Shape).Broadcasts ⟨3, ![a, b, c]⟩)
    (p : Fin a) (q : Fin b) (w : Fin c) : broadcastTo ⟨3, ![a, b, c]⟩ v h (ix3 p q w) = v (ix3 p (0 : Fin 1) w) := by
  refine broadcastTo_apply v h (ix3 p q w) (ix3 p (0 : Fin 1) w) fun ax => ?_
  match ax with
  | ⟨0, _⟩ =>
    show p.val = if a = 1 then 0 else p.val
    split
    · have := p.isLt; omega
    · rfl
  | ⟨1, _⟩ => rfl
  | ⟨2, _⟩ =>
    show w.val = if c = 1 then 0 else w.val
    split
    · have := w.isLt; omega
    · rfl

/-- Row `256·r + k` of the flat `[4096, ·]` matrix is position `(r, k)` of the `[16, 256, ·]` block. -/
def flatRow (r : Fin 16) (k : Fin 256) : Fin 4096 := ⟨256 * r.val + k.val, by omega⟩

/-- The flat matrix cast to the block reads, at `(r, k, u)`, row `256·r + k`, column `u`: equal row-major positions. -/
theorem shapeCast_flat_to_block (v : S4096x512.Idx → α) (h : S4096x512.ShapeCasts S16x256x512) (r : Fin 16) (k : Fin 256) (u : Fin 512) :
    shapeCast S16x256x512 v h (ix3 r k u) = v (ix2 (flatRow r k) u) :=
  shapeCast_apply v h _ _ (by
    rw [Shape.rowMajor_val_three, Shape.rowMajor_val_two]
    show (256 * r.val + k.val) * 512 + u.val = (r.val * 256 + k.val) * 512 + u.val
    omega)

/-- The block cast to the flat matrix reads, at row `256·r + k`, column `d`, the block at `(r, k, d)`. -/
theorem shapeCast_block_to_flat (v : S16x256x512.Idx → α) (h : S16x256x512.ShapeCasts S4096x512) (r : Fin 16) (k : Fin 256) (d : Fin 512) :
    shapeCast S4096x512 v h (ix2 (flatRow r k) d) = v (ix3 r k d) :=
  shapeCast_apply v h _ _ (by
    rw [Shape.rowMajor_val_three, Shape.rowMajor_val_two]
    show (r.val * 256 + k.val) * 512 + d.val = (256 * r.val + k.val) * 512 + d.val
    omega)

/-- The one element of a `[1, 1]` array, extracted at position `(0, 0)`. -/
theorem extractAt_00 (v : S1x1.Idx → α) (h : ∀ a, (![0, 0] : Fin 2 → Nat) a < S1x1.size a) :
    extractAt ![0, 0] v h = v (ix2 (0 : Fin 1) (0 : Fin 1)) :=
  congrArg v (funext fun a => match a with | ⟨0, _⟩ => rfl | ⟨1, _⟩ => rfl)

end Layout

/-! ## Reductions over one axis: the reduced index with the coordinate inserted, by coordinates -/

theorem lift_S16x256_1 (h : S16x256.Reduces [1] S16) (r : Fin 16) (k : Fin 256) : h.lift (ix1 r) k = ix2 r k :=
  funext fun c => match c with | ⟨0, _⟩ => rfl | ⟨1, _⟩ => rfl
theorem lift_S16x256x512_1 (h : S16x256x512.Reduces [1] S16x512) (r : Fin 16) (d : Fin 512) (k : Fin 256) : h.lift (ix2 r d) k = ix3 r k d :=
  funext fun c => match c with | ⟨0, _⟩ => rfl | ⟨1, _⟩ => rfl | ⟨2, _⟩ => rfl
theorem lift_S16x256x512_2 (h : S16x256x512.Reduces [2] S16x256) (r : Fin 16) (k : Fin 256) (u : Fin 512) : h.lift (ix2 r k) u = ix3 r k u :=
  funext fun c => match c with | ⟨0, _⟩ => rfl | ⟨1, _⟩ => rfl | ⟨2, _⟩ => rfl

/-- The sum of a `[16, 256]` array over its second axis, at row `r`. -/
theorem reduceAdd_S16x256_apply (src : FVec Ideal S16x256 .f32) (r : Fin 16) :
    multiReduction .add [1] S16 src 0x00000000#32 reduces_S16x256_S16 (.inl rfl) rfl (ix1 r) = ∑ k : Fin 256, src (ix2 r k) :=
  (Ideal.multiReduction_add_single src 0x00000000#32 reduces_S16x256_S16 (.inl rfl) rfl (ix1 r)).trans
    (Finset.sum_congr rfl fun k _ => congrArg src (lift_S16x256_1 _ r k))

/-- The sum of a `[16, 256, 512]` array over its middle axis, at `(r, d)`. -/
theorem reduceAdd_S16x256x512_1_apply (src : FVec Ideal S16x256x512 .f32) (r : Fin 16) (d : Fin 512) :
    multiReduction .add [1] S16x512 src 0x00000000#32 reduces_S16x256x512_S16x512 (.inl rfl) rfl (ix2 r d) = ∑ k : Fin 256, src (ix3 r k d) :=
  (Ideal.multiReduction_add_single src 0x00000000#32 reduces_S16x256x512_S16x512 (.inl rfl) rfl (ix2 r d)).trans
    (Finset.sum_congr rfl fun k _ => congrArg src (lift_S16x256x512_1 _ r d k))

/-- The sum of a `[16, 256, 512]` array over its last axis, at `(r, k)`. -/
theorem reduceAdd_S16x256x512_2_apply (src : FVec Ideal S16x256x512 .f32) (r : Fin 16) (k : Fin 256) :
    multiReduction .add [2] S16x256 src 0x00000000#32 reduces_S16x256x512_S16x256 (.inl rfl) rfl (ix2 r k) = ∑ u : Fin 512, src (ix3 r k u) :=
  (Ideal.multiReduction_add_single src 0x00000000#32 reduces_S16x256x512_S16x256 (.inl rfl) rfl (ix2 r k)).trans
    (Finset.sum_congr rfl fun u _ => congrArg src (lift_S16x256x512_2 _ r k u))

/-- The maximum of a `[16, 256]` array over its second axis, at row `r`: the fold of `max` from `⊥`. -/
theorem reduceMax_S16x256_apply (src : FVec Ideal S16x256 .f32) (r : Fin 16) :
    multiReduction .maximumf [1] S16 src 0xFF800000#32 reduces_S16x256_S16 (.inl rfl) rfl (ix1 r)
      = (Finset.univ : Finset (Fin 256)).fold max ⊥ (fun k : Fin 256 => src (ix2 r k)) := by
  refine (Ideal.multiReduction_maximumf_single src 0xFF800000#32 reduces_S16x256_S16 (.inl rfl) rfl (ix1 r)).trans ?_
  have e : (src ∘ reduces_S16x256_S16.lift (ix1 r)) = fun k : Fin 256 => src (ix2 r k) :=
    funext fun k => congrArg src (lift_S16x256_1 _ r k)
  rw [e]
  exact congrArg (fun z => (Finset.univ : Finset (Fin 256)).fold max z fun k : Fin 256 => src (ix2 r k)) ofBits_negInf

/-! ## The two matrix products onto the zero accumulator -/

theorem lhs_pay13_0 (i : S16x512.Idx) (q : dot_S16x512_S512x512_S16x512_1_0_0_1_n_n.contr.Idx) :
    (dot_S16x512_S512x512_S16x512_1_0_0_1_n_n.lhsIdx i q 0).val = (i 0).val := by
  unfold DotDims.lhsIdx
  rw [dif_neg (show ¬(0 : Fin S16x512.rank) ∈ dot_S16x512_S512x512_S16x512_1_0_0_1_n_n.lhsBatch by decide), dif_pos (show (0 : Fin S16x512.rank) ∈ dot_S16x512_S512x512_S16x512_1_0_0_1_n_n.lhsNonContracting by decide)]
  rfl
theorem lhs_pay13_1 (i : S16x512.Idx) (q : dot_S16x512_S512x512_S16x512_1_0_0_1_n_n.contr.Idx) :
    (dot_S16x512_S512x512_S16x512_1_0_0_1_n_n.lhsIdx i q 1).val = (q ⟨0, by decide⟩).val :=
  dot_S16x512_S512x512_S16x512_1_0_0_1_n_n.lhsIdx_val_of_single rfl i q
theorem rhs_pay13_0 (i : S16x512.Idx) (q : dot_S16x512_S512x512_S16x512_1_0_0_1_n_n.contr.Idx) :
    (dot_S16x512_S512x512_S16x512_1_0_0_1_n_n.rhsIdx i q 0).val = (q ⟨0, by decide⟩).val :=
  dot_S16x512_S512x512_S16x512_1_0_0_1_n_n.rhsIdx_val_of_single rfl i q
theorem rhs_pay13_1 (i : S16x512.Idx) (q : dot_S16x512_S512x512_S16x512_1_0_0_1_n_n.contr.Idx) :
    (dot_S16x512_S512x512_S16x512_1_0_0_1_n_n.rhsIdx i q 1).val = (i 1).val := by
  unfold DotDims.rhsIdx
  rw [dif_neg (show ¬(1 : Fin S512x512.rank) ∈ dot_S16x512_S512x512_S16x512_1_0_0_1_n_n.rhsBatch by decide), dif_pos (show (1 : Fin S512x512.rank) ∈ dot_S16x512_S512x512_S16x512_1_0_0_1_n_n.rhsNonContracting by decide)]
  rfl

/-- The `[16, 512] × [512, 512]` product onto the zero accumulator, at row `r`, column `u`: the sum over the
    contracted axis of the products. -/
theorem matmul13_apply (a : FVec Ideal S16x512 .bf16) (b : FVec Ideal S512x512 .bf16) (r : Fin 16) (u : Fin 512) :
    matmul dot_S16x512_S512x512_S16x512_1_0_0_1_n_n none a b (constant (F := Ideal) S16x512 .f32 0x00000000#32) (ix2 r u)
      = ∑ h : Fin 512, a (ix2 r h) * b (ix2 h u) := by
  refine (Ideal.matmul_constant_zero_apply dot_S16x512_S512x512_S16x512_1_0_0_1_n_n none a b (ix2 r u)).trans ?_
  rw [← Equiv.sum_comp (ValueIdx.contrEquiv1 dot_S16x512_S512x512_S16x512_1_0_0_1_n_n 512 rfl rfl).symm]
  refine Finset.sum_congr rfl fun k _ => ?_
  have hk := ValueIdx.contrEquiv1_symm_val dot_S16x512_S512x512_S16x512_1_0_0_1_n_n 512 rfl rfl k
  have el : dot_S16x512_S512x512_S16x512_1_0_0_1_n_n.lhsIdx (ix2 r u) ((ValueIdx.contrEquiv1 dot_S16x512_S512x512_S16x512_1_0_0_1_n_n 512 rfl rfl).symm k) = ix2 r k := funext fun a => Fin.ext (by
    match a with
    | ⟨0, _⟩ => exact lhs_pay13_0 _ _
    | ⟨1, _⟩ => exact (lhs_pay13_1 _ _).trans hk)
  have er : dot_S16x512_S512x512_S16x512_1_0_0_1_n_n.rhsIdx (ix2 r u) ((ValueIdx.contrEquiv1 dot_S16x512_S512x512_S16x512_1_0_0_1_n_n 512 rfl rfl).symm k) = ix2 k u := funext fun a => Fin.ext (by
    match a with
    | ⟨0, _⟩ => exact (rhs_pay13_0 _ _).trans hk
    | ⟨1, _⟩ => exact rhs_pay13_1 _ _)
  rw [el, er]

theorem lhs_pay14_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhs_pay14_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhs_pay14_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhs_pay14_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The `[4096, 512] × [512, 512]` product onto the zero accumulator, at row `i`, column `u`: the sum over the
    contracted axis of the products. -/
theorem matmul14_apply (a : FVec Ideal S4096x512 .bf16) (b : FVec Ideal S512x512 .bf16) (i : Fin 4096) (u : Fin 512) :
    matmul dot_S4096x512_S512x512_S4096x512_1_0_0_1_n_n none a b (constant (F := Ideal) S4096x512 .f32 0x00000000#32) (ix2 i u)
      = ∑ d : Fin 512, a (ix2 i d) * b (ix2 d u) := by
  refine (Ideal.matmul_constant_zero_apply dot_S4096x512_S512x512_S4096x512_1_0_0_1_n_n none a b (ix2 i u)).trans ?_
  rw [← Equiv.sum_comp (ValueIdx.contrEquiv1 dot_S4096x512_S512x512_S4096x512_1_0_0_1_n_n 512 rfl rfl).symm]
  refine Finset.sum_congr rfl fun k _ => ?_
  have hk := ValueIdx.contrEquiv1_symm_val dot_S4096x512_S512x512_S4096x512_1_0_0_1_n_n 512 rfl rfl k
  have el : dot_S4096x512_S512x512_S4096x512_1_0_0_1_n_n.lhsIdx (ix2 i u) ((ValueIdx.contrEquiv1 dot_S4096x512_S512x512_S4096x512_1_0_0_1_n_n 512 rfl rfl).symm k) = ix2 i k := funext fun a => Fin.ext (by
    match a with
    | ⟨0, _⟩ => exact lhs_pay14_0 _ _
    | ⟨1, _⟩ => exact (lhs_pay14_1 _ _).trans hk)
  have er : dot_S4096x512_S512x512_S4096x512_1_0_0_1_n_n.rhsIdx (ix2 i u) ((ValueIdx.contrEquiv1 dot_S4096x512_S512x512_S4096x512_1_0_0_1_n_n 512 rfl rfl).symm k) = ix2 k u := funext fun a => Fin.ext (by
    match a with
    | ⟨0, _⟩ => exact (rhs_pay14_0 _ _).trans hk
    | ⟨1, _⟩ => exact rhs_pay14_1 _ _)
  rw [el, er]

/-- The feature rows' projection, at row `r`, position `k`, unit `u`: the block flattened to a matrix, multiplied, and
    the product cast back to the block. -/
theorem proj14_apply (x0 : FVec Ideal S16x256x512 .f32) (x2 : FVec Ideal S512x512 .bf16) (r : Fin 16) (k : Fin 256) (u : Fin 512) :
    shapeCast S16x256x512
        (matmul dot_S4096x512_S512x512_S4096x512_1_0_0_1_n_n none
          (shapeCast S4096x512 (truncf (F := Ideal) .bf16 x0 bitsLt_bf16_f32) shapeCasts_S16x256x512_S4096x512)
          (shapeCast S512x512 x2 shapeCasts_S512x512_S512x512)
          (constant (F := Ideal) S4096x512 .f32 0x00000000#32))
        shapeCasts_S4096x512_S16x256x512 (ix3 r k u)
      = ∑ d : Fin 512, x0 (ix3 r k d) * x2 (ix2 d u) := by
  rw [shapeCast_flat_to_block, matmul14_apply, shapeCast_self]
  refine Finset.sum_congr rfl fun d _ => ?_
  rw [shapeCast_block_to_flat, truncf_apply]

/-! ## The streaming-softmax step's intermediate values -/

/-- The row maximum joined with the running maximum, at row `r`. -/
theorem pay1_apply (s : FVec Ideal S16x256 .f32) (mx : Vec Ideal S16x1 .f32) (r : Fin 16) :
    k0_pay1 (F := Ideal) s mx (ix2 r 0) = stepMax (mx (ix2 r 0)) (fun k => s (ix2 r k)) := by
  unfold k0_pay1 stepMax
  rw [maximumf_apply, shapeCast_a_a1_apply, reduceMax_S16x256_apply]

/-- The rescaling factor of the running sums, at row `r`. -/
theorem pay2_apply (s : FVec Ideal S16x256 .f32) (mx mx' : Vec Ideal S16x1 .f32) (r : Fin 16) :
    k0_pay2 (F := Ideal) s mx mx' (ix2 r 0) = Ideal.exp (mx' (ix2 r 0) - stepMax (mx (ix2 r 0)) (fun k => s (ix2 r k))) := by
  unfold k0_pay2
  rw [exp_apply, subf_apply, pay1_apply]

/-- The exponential of a score less the new maximum, at row `r`, position `k`. -/
theorem pay3_apply (s : FVec Ideal S16x256 .f32) (mx : Vec Ideal S16x1 .f32) (r : Fin 16) (k : Fin 256) :
    k0_pay3 (F := Ideal) s mx (ix2 r k) = Ideal.exp (s (ix2 r k) - stepMax (mx (ix2 r 0)) (fun k => s (ix2 r k))) := by
  unfold k0_pay3
  rw [exp_apply, subf_apply, broadcastTo_a1_ab_apply, pay1_apply]

/-- The reciprocal of the final sum, at row `r`. -/
theorem pay7_apply (sm : Vec Ideal S16x1 .f32) (r : Fin 16) :
    k0_pay7 (F := Ideal) sm (ix2 r 0) = Ideal.div 1 (sm (ix2 r 0)) := by
  unfold k0_pay7
  rw [divf_apply, broadcast_apply]
  exact congrArg (fun z => Ideal.div z (sm (ix2 r 0))) ofBits_one

end Pay

open Pay

/-- The hidden state's projection plus its bias, at row `r`, unit `u`. -/
theorem pay13_apply (x1 : Vec Ideal S16x512 .f32) (x4 : Vec Ideal S512x512 .bf16) (x5 : Vec Ideal S1x512 .f32) (r : Fin 16) (u : Fin 512) :
    k0_pay13 (F := Ideal) x1 x4 x5 (ix2 r u) = (∑ h : Fin 512, x1 (ix2 r h) * x4 (ix2 h u)) + x5 (ix2 0 u) := by
  unfold k0_pay13
  rw [shapeCast_self, addf_apply, broadcastTo_1b_ab_apply, shapeCast_self, shapeCast_self, matmul13_apply]
  rfl

/-- A score, at row `r`, position `k` of the strip. -/
theorem pay14_apply (x0 : Vec Ideal S16x256x512 .f32) (x2 : Vec Ideal S512x512 .bf16) (x3 : Vec Ideal S1x512 .f32)
    (ph : Vec Ideal S16x512 .f32) (x6 : Vec Ideal S1x512 .bf16) (x7 : Vec Ideal S1x1 .f32) (r : Fin 16) (k : Fin 256) :
    k0_pay14 (F := Ideal) x0 x2 x3 ph x6 x7 (ix2 r k)
      = (∑ u : Fin 512, Ideal.tanh (((∑ d : Fin 512, x0 (ix3 r k d) * x2 (ix2 d u)) + x3 (ix2 0 u)) + ph (ix2 r u)) * x6 (ix2 0 u)) + x7 (ix2 0 0) := by
  unfold k0_pay14
  rw [addf_apply, broadcast_apply, extractAt_00, reduceAdd_S16x256x512_2_apply]
  congr 1
  refine Finset.sum_congr rfl fun u _ => ?_
  rw [mulf_apply, tanh_apply, addf_apply, addf_apply, proj14_apply,
    broadcastTo_11c_abc_apply, shapeCast_ab_1ab_apply, shapeCast_self,
    broadcastTo_a1c_abc_apply, shapeCast_ac_a1c_apply,
    broadcastTo_11c_abc_apply, extf_apply, shapeCast_ab_1ab_apply, shapeCast_self]

/-- The strip stored into the score scratch is the strip of scores itself. -/
theorem pay15_eq (x0 : Vec Ideal S16x256x512 .f32) (x2 : Vec Ideal S512x512 .bf16) (x3 : Vec Ideal S1x512 .f32)
    (ph : Vec Ideal S16x512 .f32) (x6 : Vec Ideal S1x512 .bf16) (x7 : Vec Ideal S1x1 .f32) :
    k0_pay15 (F := Ideal) x0 x2 x3 ph x6 x7 = k0_pay14 (F := Ideal) x0 x2 x3 ph x6 x7 := by
  unfold k0_pay15
  rw [shapeCast_self]

/-- The new running maximum of row `r`. -/
theorem pay6_apply (s : FVec Ideal S16x256 .f32) (mx : Vec Ideal S16x1 .f32) (r : Fin 16) :
    k0_pay6 (F := Ideal) s mx (ix2 r 0) = stepMax (mx (ix2 r 0)) (fun k => s (ix2 r k)) := by
  unfold k0_pay6
  rw [shapeCast_self, pay1_apply]

/-- The new running sum of row `r`. -/
theorem pay4_apply (s : FVec Ideal S16x256 .f32) (mx sm : Vec Ideal S16x1 .f32) (r : Fin 16) :
    k0_pay4 (F := Ideal) s mx mx sm (ix2 r 0) = stepSum (mx (ix2 r 0)) (sm (ix2 r 0)) (fun k => s (ix2 r k)) := by
  unfold k0_pay4 stepSum
  rw [shapeCast_self, addf_apply, mulf_apply, pay2_apply, shapeCast_a_a1_apply, reduceAdd_S16x256_apply]
  congr 1
  exact Finset.sum_congr rfl fun k _ => pay3_apply s mx r k

/-- The new running weighted sum of row `r`, feature column `d`. -/
theorem pay5_apply (x0 : Vec Ideal S16x256x512 .f32) (s : FVec Ideal S16x256 .f32) (mx : Vec Ideal S16x1 .f32)
    (acc : Vec Ideal S16x512 .f32) (r : Fin 16) (d : Fin 512) :
    k0_pay5 (F := Ideal) x0 s mx mx acc (ix2 r d)
      = stepAcc (mx (ix2 r 0)) (acc (ix2 r d)) (fun k => s (ix2 r k)) (fun k => x0 (ix3 r k d)) := by
  unfold k0_pay5 stepAcc
  rw [shapeCast_self, addf_apply, mulf_apply, broadcastTo_a1_ab_apply, pay2_apply, reduceAdd_S16x256x512_1_apply]
  congr 1
  refine Finset.sum_congr rfl fun k _ => ?_
  rw [mulf_apply, broadcastTo_ab1_abc_apply, shapeCast_ab_ab1_apply, pay3_apply]

/-- The emitted context entry: the weighted sum times the reciprocal of the sum. -/
theorem pay8_apply (sm : Vec Ideal S16x1 .f32) (acc : Vec Ideal S16x512 .f32) (r : Fin 16) (d : Fin 512) :
    k0_pay8 (F := Ideal) sm acc (ix2 r d) = acc (ix2 r d) * Ideal.div 1 (sm (ix2 r 0)) := by
  unfold k0_pay8
  rw [mulf_apply, broadcastTo_a1_ab_apply, pay7_apply]

/-- The emitted attention weight: the exponential of the score less the maximum, times the reciprocal of the sum. -/
theorem pay9_apply (sm : Vec Ideal S16x1 .f32) (sc : Vec Ideal S16x1024 .f32) (mx : Vec Ideal S16x1 .f32) (r : Fin 16) (k : Fin 1024) :
    k0_pay9 (F := Ideal) sm sc mx (ix2 r k) = Ideal.exp (sc (ix2 r k) - mx (ix2 r 0)) * Ideal.div 1 (sm (ix2 r 0)) := by
  unfold k0_pay9
  rw [mulf_apply, exp_apply, subf_apply, broadcastTo_a1_ab_apply, broadcastTo_a1_ab_apply, pay7_apply]

/-- The reset values: `-∞` for the maximum, `0` for the two sums. -/
theorem pay10_apply (r : Fin 16) : k0_pay10 (F := Ideal) (ix2 r 0) = (⊥ : EReal) := by
  unfold k0_pay10
  rw [shapeCast_self]
  exact ofBits_negInf
theorem pay11_apply (r : Fin 16) : k0_pay11 (F := Ideal) (ix2 r 0) = (0 : EReal) := by
  unfold k0_pay11
  rw [shapeCast_self]
  exact Ideal.ofBits_zero_f32
theorem pay12_apply (r : Fin 16) (d : Fin 512) : k0_pay12 (F := Ideal) (ix2 r d) = (0 : EReal) := by
  unfold k0_pay12
  rw [shapeCast_self]
  exact Ideal.ofBits_zero_f32

end Cert.KernelIdeal.Hand

end
-- ==== Proof.Spec.lean ====
/-
  Additive (Bahdanau) attention over the extended reals, index by index. For batch row `b` and sequence position `l`
  the score is `∑ᵤ tanh ((features·W₁ + b₁) + (hidden·W₂ + b₂)) · V + v`; the attention weights are the softmax of a
  row's scores over its 1024 positions, written as the reference writes it — the exponential of the score less the
  row's maximum, over the sum of those exponentials —, and the context vector is the weights' weighted sum of the
  feature rows.
-/
import Idealize.ShloMosaic.PureOps.Ideal
import Idealize.ShloMosaic.Lib.ValueIdx

noncomputable section

open scoped BigOperators

namespace Cert.Spec

open Idealize.ShloMosaic Idealize.ShloMosaic.ValueIdx

/-- Every entry of an array is a real number (neither infinity). -/
def IsReal {S : Shape} (x : S.Idx → EReal) : Prop := ∀ i, ∃ r : ℝ, x i = (r : EReal)

variable (feat : (⟨3, ![256, 1024, 512]⟩ : Shape).Idx → EReal) (hid : (⟨2, ![256, 512]⟩ : Shape).Idx → EReal)
  (W1 : (⟨2, ![512, 512]⟩ : Shape).Idx → EReal) (b1 : (⟨1, ![512]⟩ : Shape).Idx → EReal)
  (W2 : (⟨2, ![512, 512]⟩ : Shape).Idx → EReal) (b2 : (⟨1, ![512]⟩ : Shape).Idx → EReal)
  (Vw : (⟨2, ![512, 1]⟩ : Shape).Idx → EReal) (vb : (⟨1, ![1]⟩ : Shape).Idx → EReal)

/-- The hidden state's projection for batch row `b`, unit `u`: `(hidden · W₂ + b₂)[b, u]`. -/
def hidProj (b : Fin 256) (u : Fin 512) : EReal := (∑ h : Fin 512, hid (ix2 b h) * W2 (ix2 h u)) + b2 (ix1 u)

/-- The feature row's projection: `(features · W₁ + b₁)[b, l, u]`. -/
def featProj (b : Fin 256) (l : Fin 1024) (u : Fin 512) : EReal := (∑ d : Fin 512, feat (ix3 b l d) * W1 (ix2 d u)) + b1 (ix1 u)

/-- The additive-attention score of position `l` in batch row `b`. -/
def score (b : Fin 256) (l : Fin 1024) : EReal :=
  (∑ u : Fin 512, Ideal.tanh (featProj feat W1 b1 b l u + hidProj hid W2 b2 b u) * Vw (ix2 u 0)) + vb (ix1 0)

/-- A row's largest score. -/
def rowMax (b : Fin 256) : EReal := Finset.univ.sup (score feat hid W1 b1 W2 b2 Vw vb b)

/-- The exponential of a score less its row's maximum. -/
def expw (b : Fin 256) (l : Fin 1024) : EReal :=
  Ideal.exp (score feat hid W1 b1 W2 b2 Vw vb b l - rowMax feat hid W1 b1 W2 b2 Vw vb b)

/-- The softmax's denominator: the row's sum of those exponentials. -/
def denom (b : Fin 256) : EReal := ∑ l : Fin 1024, expw feat hid W1 b1 W2 b2 Vw vb b l

/-- The attention weight of position `l` in batch row `b`. -/
def weight (b : Fin 256) (l : Fin 1024) : EReal :=
  Ideal.div (expw feat hid W1 b1 W2 b2 Vw vb b l) (denom feat hid W1 b1 W2 b2 Vw vb b)

/-- The attention weights as the program returns them: shape 256 × 1024 × 1. -/
def attn : (⟨3, ![256, 1024, 1]⟩ : Shape).Idx → EReal := fun i => weight feat hid W1 b1 W2 b2 Vw vb (i 0) (i 1)

/-- The context vectors: shape 256 × 512. -/
def ctx : (⟨2, ![256, 512]⟩ : Shape).Idx → EReal :=
  fun i => ∑ l : Fin 1024, weight feat hid W1 b1 W2 b2 Vw vb (i 0) l * feat (ix3 (i 0) l (i 1))

end Cert.Spec

end
-- ==== Proof.KI.Blocks.lean ====
/-
  Each input window's block at a grid point, read at an index, as an entry of an argument array: point `t` belongs to
  batch tile `t / 4` and strip `t % 4`; the feature block is rows `16 · (t / 4) …` and positions `256 · (t % 4) …` of the
  feature array, the hidden block those rows of the hidden array, and the six grid-constant windows are the weight and
  bias arrays whole (re-laid by the host operations before the region; a change of float format is the identity on the
  extended reals).
-/
import proofs.«407076_j10874857193754_3_alg».proof.Proof.KI.Carry
import proofs.«407076_j10874857193754_3_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- Every entry of each of the eight argument arrays is a real number. -/
def ArgsReal : Prop :=
  Cert.Spec.IsReal (m ((c.tc : Thread nD τ).loc main_arg0)) ∧ Cert.Spec.IsReal (m ((c.tc : Thread nD τ).loc main_arg1))
  ∧ Cert.Spec.IsReal (m ((c.tc : Thread nD τ).loc main_arg2)) ∧ Cert.Spec.IsReal (m ((c.tc : Thread nD τ).loc main_arg3))
  ∧ Cert.Spec.IsReal (m ((c.tc : Thread nD τ).loc main_arg4)) ∧ Cert.Spec.IsReal (m ((c.tc : Thread nD τ).loc main_arg5))
  ∧ Cert.Spec.IsReal (m ((c.tc : Thread nD τ).loc main_arg6)) ∧ Cert.Spec.IsReal (m ((c.tc : Thread nD τ).loc main_arg7))

/-- The batch row of the array that row `r` of point `t`'s blocks is. -/
def rowOf (t : Fin cfg0.N) (r : Fin 16) : Fin 256 :=
  ⟨16 * (t.val / 4) + r.val, by have := t.isLt; have : cfg0.N = 64 := N_0; omega⟩
/-- The sequence position that position `k` of point `t`'s strip is. -/
def posOf (t : Fin cfg0.N) (k : Fin 256) : Fin 1024 :=
  ⟨256 * (t.val % 4) + k.val, by omega⟩

/-- Each block as a vector of its literal shape. -/
abbrev featBlk (t : Fin cfg0.N) : Vec Ideal S16x256x512 .f32 := iblk m c 0 t
abbrev hidBlk (t : Fin cfg0.N) : Vec Ideal S16x512 .f32 := iblk m c 1 t
abbrev w1Blk (t : Fin cfg0.N) : Vec Ideal S512x512 .bf16 := iblk m c 2 t
abbrev b1Blk (t : Fin cfg0.N) : Vec Ideal S1x512 .f32 := iblk m c 3 t
abbrev w2Blk (t : Fin cfg0.N) : Vec Ideal S512x512 .bf16 := iblk m c 4 t
abbrev b2Blk (t : Fin cfg0.N) : Vec Ideal S1x512 .f32 := iblk m c 5 t
abbrev vwBlk (t : Fin cfg0.N) : Vec Ideal S1x512 .bf16 := iblk m c 6 t
abbrev vbBlk (t : Fin cfg0.N) : Vec Ideal S1x1 .f32 := iblk m c 7 t

/-! ## The windows' block indices at a grid point -/

/-- The printed index maps of the two moving windows, decided over the grid: the feature window's block index is
    (tile, strip, 0) and the hidden window's is (tile, 0). -/
theorem idx_facts : ∀ t : Fin cfg0.N, win0_0.index t (0 : Fin 3) = t.val / 4 ∧ win0_0.index t (1 : Fin 3) = t.val % 4
    ∧ win0_0.index t (2 : Fin 3) = 0 ∧ win0_1.index t (0 : Fin 2) = t.val / 4 ∧ win0_1.index t (1 : Fin 2) = 0 :=
  (by decide +kernel : ∀ t : Fin grid0.N, _)

/-- The six grid-constant windows' printed index maps are constantly zero. -/
theorem idx_zero : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The six re-laid arrays as the region finds them -/

/-- The first weight array as the region finds it: the argument, its change of float format the identity. -/
theorem V_w1 : (V m c main_v0 : S512x512.Idx → EReal) = m ((c.tc : Thread nD τ).loc main_arg2) := by
  show StableHlo.after hostOps0 (fun b => m (c, b)) (Proc.devRef .tc main_v0) = _
  after_results
  rfl

/-- The second weight array as the region finds it: the argument, its change of float format the identity. -/
theorem V_w2 : (V m c main_v1 : S512x512.Idx → EReal) = m ((c.tc : Thread nD τ).loc main_arg4) := by
  show StableHlo.after hostOps0 (fun b => m (c, b)) (Proc.devRef .tc main_v1) = _
  after_results
  rfl

/-- The first bias array as the region finds it: the argument vector laid as one row. -/
theorem V_b1 : (V m c main_v4 : S1x512.Idx → EReal)
    = shapeCast S1x512 (m ((c.tc : Thread nD τ).loc main_arg3)) shapeCasts_S512_S1x512 := by
  show StableHlo.after hostOps0 (fun b => m (c, b)) (Proc.devRef .tc main_v4) = _
  after_results
  rfl

/-- The second bias array as the region finds it: the argument vector laid as one row. -/
theorem V_b2 : (V m c main_v5 : S1x512.Idx → EReal)
    = shapeCast S1x512 (m ((c.tc : Thread nD τ).loc main_arg5)) shapeCasts_S512_S1x512 := by
  show StableHlo.after hostOps0 (fun b => m (c, b)) (Proc.devRef .tc main_v5) = _
  after_results
  rfl

/-- The scoring vector as the region finds it: the argument column transposed to a row (the change of float format
    after it the identity). -/
theorem V_vw : (V m c main_v3 : S1x512.Idx → EReal)
    = transpose S1x512 [1, 0] (m ((c.tc : Thread nD τ).loc main_arg6)) transposes_S512x1_S1x512_1_0 := by
  show StableHlo.after hostOps0 (fun b => m (c, b)) (Proc.devRef .tc main_v3) = _
  after_results
  rfl

/-- The scoring bias as the region finds it: the one-entry argument vector laid as a 1 × 1 array. -/
theorem V_vb : (V m c main_v6 : S1x1.Idx → EReal)
    = shapeCast S1x1 (m ((c.tc : Thread nD τ).loc main_arg7)) shapeCasts_S1_S1x1 := by
  show StableHlo.after hostOps0 (fun b => m (c, b)) (Proc.devRef .tc main_v6) = _
  after_results
  rfl

/-! ## The re-layings read at an index -/

/-- A row vector laid from a vector, read at column `u`, is the vector's entry `u`. -/
theorem row_of_vec_apply (x : S512.Idx → EReal) (u : Fin 512) :
    shapeCast S1x512 x shapeCasts_S512_S1x512 (ix2 0 u) = x (ix1 u) := by
  refine shapeCast_apply x shapeCasts_S512_S1x512 (ix2 0 u) (ix1 u) ?_
  rw [Shape.rowMajor_val_one, Shape.rowMajor_val_two]
  show u.val = (0 : Fin 1).val * 512 + u.val
  simp

/-- A column transposed to a row, read at column `u`, is the column's entry `u`. -/
theorem row_of_col_apply (x : S512x1.Idx → EReal) (u : Fin 512) :
    transpose S1x512 [1, 0] x transposes_S512x1_S1x512_1_0 (ix2 0 u) = x (ix2 u 0) := by
  refine transpose_apply [1, 0] x transposes_S512x1_S1x512_1_0 (ix2 0 u) (ix2 u 0) fun b => ?_
  match b with
  | ⟨0, _⟩ => rfl
  | ⟨1, _⟩ => rfl

/-- A one-entry vector laid as a 1 × 1 array has that entry. -/
theorem one_of_vec_apply (x : S1.Idx → EReal) :
    shapeCast S1x1 x shapeCasts_S1_S1x1 (ix2 0 0) = x (ix1 0) := by
  refine shapeCast_apply x shapeCasts_S1_S1x1 (ix2 0 0) (ix1 0) ?_
  rw [Shape.rowMajor_val_one, Shape.rowMajor_val_two]
  rfl

/-! ## Each block read at an index: the block's coordinate is block index × block size + the coordinate inside -/

theorem featBlk_apply (t : Fin cfg0.N) (r : Fin 16) (k : Fin 256) (d : Fin 512) :
    featBlk m c t (ix3 r k d) = m ((c.tc : Thread nD τ).loc main_arg0) (ix3 (rowOf t r) (posOf t k) d) := by
  obtain ⟨e0, e1, e2, -, -⟩ := idx_facts t
  rw [← V_main_arg0 m c]
  show V m c main_arg0 (((cfg0.win 0).blk t).view.emb (ix3 r k d)) = V m c main_arg0 (ix3 (rowOf t r) (posOf t k) d)
  refine congrArg (V m c main_arg0) (funext fun a => Fin.ext ?_)
  match a with
  | ⟨0, _⟩ => show win0_0.index t (0 : Fin 3) * 16 + 1 * r.val = 16 * (t.val / 4) + r.val; omega
  | ⟨1, _⟩ => show win0_0.index t (1 : Fin 3) * 256 + 1 * k.val = 256 * (t.val % 4) + k.val; omega
  | ⟨2, _⟩ => show win0_0.index t (2 : Fin 3) * 512 + 1 * d.val = d.val; omega
theorem hidBlk_apply (t : Fin cfg0.N) (r : Fin 16) (h : Fin 512) :
    hidBlk m c t (ix2 r h) = m ((c.tc : Thread nD τ).loc main_arg1) (ix2 (rowOf t r) h) := by
  obtain ⟨-, -, -, e0, e1⟩ := idx_facts t
  rw [← V_main_arg1 m c]
  show V m c main_arg1 (((cfg0.win 1).blk t).view.emb (ix2 r h)) = V m c main_arg1 (ix2 (rowOf t r) h)
  refine congrArg (V m c main_arg1) (funext fun a => Fin.ext ?_)
  match a with
  | ⟨0, _⟩ => show win0_1.index t (0 : Fin 2) * 16 + 1 * r.val = 16 * (t.val / 4) + r.val; omega
  | ⟨1, _⟩ => show win0_1.index t (1 : Fin 2) * 512 + 1 * h.val = h.val; omega
theorem w1Blk_apply (t : Fin cfg0.N) (d u : Fin 512) :
    w1Blk m c t (ix2 d u) = m ((c.tc : Thread nD τ).loc main_arg2) (ix2 d u) := by
  obtain ⟨e0, e1, -⟩ := idx_zero t
  rw [← V_w1 m c]
  show V m c main_v0 (((cfg0.win 2).blk t).view.emb (ix2 d u)) = V m c main_v0 (ix2 d u)
  refine congrArg (V m c main_v0) (funext fun a => Fin.ext ?_)
  match a with
  | ⟨0, _⟩ => show win0_2.index t (0 : Fin 2) * 512 + 1 * d.val = d.val; omega
  | ⟨1, _⟩ => show win0_2.index t (1 : Fin 2) * 512 + 1 * u.val = u.val; omega
theorem b1Blk_apply (t : Fin cfg0.N) (u : Fin 512) :
    b1Blk m c t (ix2 0 u) = m ((c.tc : Thread nD τ).loc main_arg3) (ix1 u) := by
  obtain ⟨-, -, e0, e1, -⟩ := idx_zero t
  rw [← row_of_vec_apply (m ((c.tc : Thread nD τ).loc main_arg3)) u, ← V_b1 m c]
  show V m c main_v4 (((cfg0.win 3).blk t).view.emb (ix2 0 u)) = V m c main_v4 (ix2 0 u)
  refine congrArg (V m c main_v4) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 512 + 1 * u.val = u.val; omega
theorem w2Blk_apply (t : Fin cfg0.N) (h u : Fin 512) :
    w2Blk m c t (ix2 h u) = m ((c.tc : Thread nD τ).loc main_arg4) (ix2 h u) := by
  obtain ⟨-, -, -, -, e0, e1, -⟩ := idx_zero t
  rw [← V_w2 m c]
  show V m c main_v1 (((cfg0.win 4).blk t).view.emb (ix2 h u)) = V m c main_v1 (ix2 h u)
  refine congrArg (V m c main_v1) (funext fun a => Fin.ext ?_)
  match a with
  | ⟨0, _⟩ => show win0_4.index t (0 : Fin 2) * 512 + 1 * h.val = h.val; omega
  | ⟨1, _⟩ => show win0_4.index t (1 : Fin 2) * 512 + 1 * u.val = u.val; omega
theorem b2Blk_apply (t : Fin cfg0.N) (u : Fin 512) :
    b2Blk m c t (ix2 0 u) = m ((c.tc : Thread nD τ).loc main_arg5) (ix1 u) := by
  obtain ⟨-, -, -, -, -, -, e0, e1, -⟩ := idx_zero t
  rw [← row_of_vec_apply (m ((c.tc : Thread nD τ).loc main_arg5)) u, ← V_b2 m c]
  show V m c main_v5 (((cfg0.win 5).blk t).view.emb (ix2 0 u)) = V m c main_v5 (ix2 0 u)
  refine congrArg (V m c main_v5) (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 512 + 1 * u.val = u.val; omega
theorem vwBlk_apply (t : Fin cfg0.N) (u : Fin 512) :
    vwBlk m c t (ix2 0 u) = m ((c.tc : Thread nD τ).loc main_arg6) (ix2 u 0) := by
  obtain ⟨-, -, -, -, -, -, -, -, e0, e1, -⟩ := idx_zero t
  rw [← row_of_col_apply (m ((c.tc : Thread nD τ).loc main_arg6)) u, ← V_vw m c]
  show V m c main_v3 (((cfg0.win 6).blk t).view.emb (ix2 0 u)) = V m c main_v3 (ix2 0 u)
  refine congrArg (V m c main_v3) (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 512 + 1 * u.val = u.val; omega
theorem vbBlk_apply (t : Fin cfg0.N) :
    vbBlk m c t (ix2 0 0) = m ((c.tc : Thread nD τ).loc main_arg7) (ix1 0) := by
  obtain ⟨-, -, -, -, -, -, -, -, -, -, e0, e1⟩ := idx_zero t
  rw [← one_of_vec_apply (m ((c.tc : Thread nD τ).loc main_arg7)), ← V_vb m c]
  show V m c main_v6 (((cfg0.win 7).blk t).view.emb (ix2 0 0)) = V m c main_v6 (ix2 0 0)
  refine congrArg (V m c main_v6) (funext fun a => Fin.ext ?_)
  match a with
  | ⟨0, _⟩ => show win0_7.index t (0 : Fin 2) * 1 + 1 * (0 : Fin 1).val = (0 : Fin 1).val; omega
  | ⟨1, _⟩ => show win0_7.index t (1 : Fin 2) * 1 + 1 * (0 : Fin 1).val = (0 : Fin 1).val; omega

end Cert.KernelIdeal.Hand

end
-- ==== Proof.Strips.lean ====
/-
  A row of 1024 positions read as four strips of 256: position `256 · j + k` is position `k` of strip `j`. A sum over
  the row is the sum over the strips of the sums over a strip, and the row's largest score is the largest over all
  strips; so the softmax of a row of real scores, as the specification writes it, is given by the streaming
  quantities after the fourth strip.
-/
import proofs.«407076_j10874857193754_3_alg».proof.Proof.Softmax
import proofs.«407076_j10874857193754_3_alg».proof.Proof.Spec

noncomputable section

open scoped BigOperators

namespace Cert.Softmax

open Idealize.ShloMosaic

/-- Position `k` of strip `j`. -/
def pos (j : ℕ) (hj : j < 4) (k : Fin 256) : Fin 1024 := ⟨256 * j + k.val, by omega⟩

/-- The row's positions are the pairs (strip, position in the strip), strip-major: `(j, k) ↦ 256 · j + k`, with
    inverse `l ↦ (l / 256, l % 256)`. -/
def stripEquiv : Fin 4 × Fin 256 ≃ Fin 1024 where
  toFun p := pos p.1.val p.1.isLt p.2
  invFun l := (⟨l.val / 256, by omega⟩, ⟨l.val % 256, by omega⟩)
  left_inv p := by
    obtain ⟨⟨j, hj⟩, ⟨k, hk⟩⟩ := p
    refine Prod.ext (Fin.ext ?_) (Fin.ext ?_)
    · simp only [pos]
      omega
    · simp only [pos]
      omega
  right_inv l := Fin.ext (by simp only [pos]; omega)

/-- A sum over the row, strip by strip. -/
theorem sum_strips (G : Fin 1024 → EReal) (g : ℕ → Fin 256 → EReal) (h : ∀ j (hj : j < 4) k, G (pos j hj k) = g j k) :
    ∑ l : Fin 1024, G l = ∑ j ∈ Finset.range 4, ∑ k : Fin 256, g j k := by
  calc ∑ l : Fin 1024, G l
      = ∑ p : Fin 4 × Fin 256, g p.1.val p.2 :=
        (Fintype.sum_equiv stripEquiv (fun p => g p.1.val p.2) G fun p => (h p.1.val p.1.isLt p.2).symm).symm
    _ = ∑ j : Fin 4, ∑ k : Fin 256, g j.val k := Fintype.sum_prod_type _
    _ = ∑ j ∈ Finset.range 4, ∑ k : Fin 256, g j k := (Finset.sum_range fun j => ∑ k : Fin 256, g j k).symm

/-- The largest of a row of real scores is the largest over its four strips. -/
theorem sup_strips (S : Fin 1024 → EReal) (σ : ℕ → Fin 256 → ℝ) (h : ∀ j (hj : j < 4) k, S (pos j hj k) = ((σ j k : ℝ) : EReal)) :
    Finset.univ.sup S = ((realMax σ 3 : ℝ) : EReal) := by
  apply le_antisymm
  · -- every score of the row is a score of some strip, below the largest over the strips
    refine Finset.sup_le fun l _ => ?_
    obtain ⟨j, hj, k, rfl⟩ : ∃ j, ∃ hj : j < 4, ∃ k, l = pos j hj k :=
      ⟨l.val / 256, by omega, ⟨l.val % 256, by omega⟩, Fin.ext (by simp only [pos]; omega)⟩
    rw [h j hj k, EReal.coe_le_coe_iff]
    exact (realMax_le_iff σ 3 _).1 le_rfl j (by omega) k
  · -- the largest over the strips is attained, at a position of the row
    unfold realMax
    obtain ⟨p, hp, hpe⟩ := Finset.exists_mem_eq_sup'
      (s := Finset.range (3 + 1) ×ˢ (Finset.univ : Finset (Fin 256))) (by simp) (fun p => σ p.1 p.2)
    rw [hpe]
    have hj : p.1 < 4 := by
      simp only [Finset.mem_product, Finset.mem_range, Finset.mem_univ, and_true] at hp
      omega
    rw [← h p.1 hj p.2]
    exact Finset.le_sup (Finset.mem_univ _)

/-- Every position is a position of a strip. -/
theorem exists_pos (l : Fin 1024) : ∃ j, ∃ hj : j < 4, ∃ k, l = pos j hj k :=
  ⟨l.val / 256, by omega, ⟨l.val % 256, by omega⟩, Fin.ext (by simp only [pos]; omega)⟩

end Cert.Softmax

end
-- ==== Proof.ScoreReal.lean ====
/-
  With real arguments every additive-attention score is a real number: a score is a finite sum of products of
  `tanh` of reals (a real between -1 and 1) with reals, plus a real.
-/
import proofs.«407076_j10874857193754_3_alg».proof.Proof.Spec

noncomputable section

open scoped BigOperators

namespace Cert.Spec

open Idealize.ShloMosaic Idealize.ShloMosaic.ValueIdx

variable (feat : (⟨3, ![256, 1024, 512]⟩ : Shape).Idx → EReal) (hid : (⟨2, ![256, 512]⟩ : Shape).Idx → EReal)
  (W1 : (⟨2, ![512, 512]⟩ : Shape).Idx → EReal) (b1 : (⟨1, ![512]⟩ : Shape).Idx → EReal)
  (W2 : (⟨2, ![512, 512]⟩ : Shape).Idx → EReal) (b2 : (⟨1, ![512]⟩ : Shape).Idx → EReal)
  (Vw : (⟨2, ![512, 1]⟩ : Shape).Idx → EReal) (vb : (⟨1, ![1]⟩ : Shape).Idx → EReal)

/-- The coercion of a finite sum of reals is the sum of the coercions. -/
theorem coe_finsum {ι : Type*} (a : Finset ι) (f : ι → ℝ) :
    ((∑ i ∈ a, f i : ℝ) : EReal) = ∑ i ∈ a, (f i : EReal) := by
  classical
  induction a using Finset.induction_on with
  | empty => simp
  | insert i a hi ih => rw [Finset.sum_insert hi, Finset.sum_insert hi, EReal.coe_add, ih]

/-- A score of real arguments is real. -/
theorem score_real (h0 : IsReal feat) (h1 : IsReal hid) (h2 : IsReal W1) (h3 : IsReal b1) (h4 : IsReal W2) (h5 : IsReal b2)
    (h6 : IsReal Vw) (h7 : IsReal vb) (b : Fin 256) (l : Fin 1024) :
    ∃ r : ℝ, score feat hid W1 b1 W2 b2 Vw vb b l = (r : EReal) := by
  -- name the real entries
  choose f0 hf0 using h0
  choose f1 hf1 using h1
  choose f2 hf2 using h2
  choose f3 hf3 using h3
  choose f4 hf4 using h4
  choose f5 hf5 using h5
  choose f6 hf6 using h6
  choose f7 hf7 using h7
  -- the two projections are real: finite sums of products of reals, plus a real
  have hF : ∀ u : Fin 512, featProj feat W1 b1 b l u
      = (((∑ d : Fin 512, f0 (ix3 b l d) * f2 (ix2 d u)) + f3 (ix1 u) : ℝ) : EReal) := fun u => by
    unfold featProj
    rw [EReal.coe_add, coe_finsum, hf3]
    congr 1
    refine Finset.sum_congr rfl fun d _ => ?_
    rw [hf0, hf2, EReal.coe_mul]
  have hH : ∀ u : Fin 512, hidProj hid W2 b2 b u
      = (((∑ h : Fin 512, f1 (ix2 b h) * f4 (ix2 h u)) + f5 (ix1 u) : ℝ) : EReal) := fun u => by
    unfold hidProj
    rw [EReal.coe_add, coe_finsum, hf5]
    congr 1
    refine Finset.sum_congr rfl fun h _ => ?_
    rw [hf1, hf4, EReal.coe_mul]
  -- so is the score: a finite sum of products of the hyperbolic tangent of a real with a real, plus a real
  refine ⟨(∑ u : Fin 512, Real.tanh (((∑ d : Fin 512, f0 (ix3 b l d) * f2 (ix2 d u)) + f3 (ix1 u))
      + ((∑ h : Fin 512, f1 (ix2 b h) * f4 (ix2 h u)) + f5 (ix1 u))) * f6 (ix2 u 0)) + f7 (ix1 0), ?_⟩
  unfold score
  rw [EReal.coe_add, coe_finsum, hf7]
  congr 1
  refine Finset.sum_congr rfl fun u _ => ?_
  rw [hF, hH, hf6, ← EReal.coe_add, Ideal.tanh_coe, EReal.coe_mul]

end Cert.Spec

end
-- ==== Proof.KI.Tile.lean ====
/-
  One batch tile of the attention kernel on the extended reals. Its four grid points score the four strips of the
  tile's 16 batch rows against the hidden state projected at the first point; row by row the carried maximum, sum and
  weighted sum are the streaming softmax of the row's 1024 real scores, so after the fourth point they are the row's
  largest score, its sum of exponentials and its exponential-weighted sums of feature columns; the score scratch then
  holds the whole row of scores. Hence the context block and the attention-weight block the last point emits are the
  specification's context vectors and attention weights of those 16 rows.
-/
import proofs.«407076_j10874857193754_3_alg».proof.Proof.KI.PayloadIdeal
import proofs.«407076_j10874857193754_3_alg».proof.Proof.KI.Blocks
import proofs.«407076_j10874857193754_3_alg».proof.Proof.Strips
import proofs.«407076_j10874857193754_3_alg».proof.Proof.ScoreReal

set_option maxRecDepth 16384

noncomputable section

open scoped BigOperators

namespace Cert.KernelIdeal.Hand

open Cert.KernelIdeal Cert.KernelIdeal.Gen Cert.Softmax
open Idealize.ShloMosaic Idealize.ShloMosaic.TcCoe Idealize.ShloMosaic.ValueIdx Idealize.SL.Sem

variable (m : (ℓ : Loc nD τ sig) → Buf (Elt Ideal) ℓ) (c : Dev nD)

/-! ## The specification's quantities at the argument arrays -/

/-- The eight argument arrays, as arrays of extended reals. -/
abbrev A0 : (⟨3, ![256, 1024, 512]⟩ : Shape).Idx → EReal := m ((c.tc : Thread nD τ).loc main_arg0)
abbrev A1 : (⟨2, ![256, 512]⟩ : Shape).Idx → EReal := m ((c.tc : Thread nD τ).loc main_arg1)
abbrev A2 : (⟨2, ![512, 512]⟩ : Shape).Idx → EReal := m ((c.tc : Thread nD τ).loc main_arg2)
abbrev A3 : (⟨1, ![512]⟩ : Shape).Idx → EReal := m ((c.tc : Thread nD τ).loc main_arg3)
abbrev A4 : (⟨2, ![512, 512]⟩ : Shape).Idx → EReal := m ((c.tc : Thread nD τ).loc main_arg4)
abbrev A5 : (⟨1, ![512]⟩ : Shape).Idx → EReal := m ((c.tc : Thread nD τ).loc main_arg5)
abbrev A6 : (⟨2, ![512, 1]⟩ : Shape).Idx → EReal := m ((c.tc : Thread nD τ).loc main_arg6)
abbrev A7 : (⟨1, ![1]⟩ : Shape).Idx → EReal := m ((c.tc : Thread nD τ).loc main_arg7)

/-- The real number that the score of position k of strip j of batch row b is (0 past the fourth strip). -/
def scoreR (b : Fin 256) (j : ℕ) (k : Fin 256) : ℝ :=
  if hj : j < 4 then EReal.toReal (Cert.Spec.score (A0 m c) (A1 m c) (A2 m c) (A3 m c) (A4 m c) (A5 m c) (A6 m c) (A7 m c) b (pos j hj k)) else 0

/-- The real number that feature column d at position k of strip j of batch row b is. -/
def featR (b : Fin 256) (d : Fin 512) (j : ℕ) (k : Fin 256) : ℝ :=
  if hj : j < 4 then EReal.toReal (m ((c.tc : Thread nD τ).loc main_arg0) (ix3 b (pos j hj k) d)) else 0

theorem scoreR_spec (hreal : ArgsReal m c) (b : Fin 256) (j : ℕ) (hj : j < 4) (k : Fin 256) :
    ((scoreR m c b j k : ℝ) : EReal) = Cert.Spec.score (A0 m c) (A1 m c) (A2 m c) (A3 m c) (A4 m c) (A5 m c) (A6 m c) (A7 m c) b (pos j hj k) := by
  obtain ⟨h0, h1, h2, h3, h4, h5, h6, h7⟩ := hreal
  obtain ⟨x, hx⟩ := Cert.Spec.score_real _ _ _ _ _ _ _ _ h0 h1 h2 h3 h4 h5 h6 h7 b (pos j hj k)
  rw [scoreR, dif_pos hj, hx, EReal.toReal_coe]

theorem featR_spec (hreal : ArgsReal m c) (b : Fin 256) (d : Fin 512) (j : ℕ) (hj : j < 4) (k : Fin 256) :
    ((featR m c b d j k : ℝ) : EReal) = m ((c.tc : Thread nD τ).loc main_arg0) (ix3 b (pos j hj k) d) := by
  obtain ⟨x, hx⟩ := hreal.1 (ix3 b (pos j hj k) d)
  rw [featR, dif_pos hj, hx, EReal.toReal_coe]

/-! ## One point's projection and scores -/

/-- Points of one batch tile read the same batch rows. -/
theorem rowOf_congr (t t' : Fin cfg0.N) (h : t.val / 4 = t'.val / 4) (r : Fin 16) : rowOf t r = rowOf t' r :=
  Fin.ext (by simp only [rowOf]; rw [h])

/-- The positions of a point's strip, by the point's place in its tile. -/
theorem posOf_eq (t : Fin cfg0.N) (j : ℕ) (hj : j < 4) (ht : t.val % 4 = j) (k : Fin 256) : posOf t k = pos j hj k :=
  Fin.ext (by simp only [posOf, pos]; rw [ht])

/-- The projected hidden state of a point's rows is the specification's. -/
theorem hid_proj (t : Fin cfg0.N) (r : Fin 16) (u : Fin 512) :
    k0_pay13 (F := Ideal) (hidBlk m c t) (w2Blk m c t) (b2Blk m c t) (ix2 r u) = Cert.Spec.hidProj (A1 m c) (A4 m c) (A5 m c) (rowOf t r) u := by
  rw [pay13_apply, b2Blk_apply m c t]
  unfold Cert.Spec.hidProj
  refine congrArg₂ (· + ·) (Finset.sum_congr rfl fun h _ => ?_) rfl
  rw [hidBlk_apply m c t, w2Blk_apply m c t]

/-- A point's strip of scores, against a projection that is the specification's, is the specification's scores. -/
theorem strip_score (t : Fin cfg0.N) (ph : Vec Ideal S16x512 .f32) (B : Fin 16 → Fin 256) (hB : ∀ r, rowOf t r = B r)
    (hph : ∀ r u, ph (ix2 r u) = Cert.Spec.hidProj (A1 m c) (A4 m c) (A5 m c) (B r) u) (r : Fin 16) (k : Fin 256) :
    k0_pay14 (F := Ideal) (featBlk m c t) (w1Blk m c t) (b1Blk m c t) ph (vwBlk m c t) (vbBlk m c t) (ix2 r k)
      = Cert.Spec.score (A0 m c) (A1 m c) (A2 m c) (A3 m c) (A4 m c) (A5 m c) (A6 m c) (A7 m c) (B r) (posOf t k) := by
  rw [pay14_apply, vbBlk_apply m c t]
  unfold Cert.Spec.score Cert.Spec.featProj
  refine congrArg₂ (· + ·) (Finset.sum_congr rfl fun u _ => ?_) rfl
  have e : (∑ d : Fin 512, featBlk m c t (ix3 r k d) * w1Blk m c t (ix2 d u))
      = ∑ d : Fin 512, A0 m c (ix3 (B r) (posOf t k) d) * A2 m c (ix2 d u) :=
    Finset.sum_congr rfl fun d _ => by rw [featBlk_apply m c t, w1Blk_apply m c t, hB]
  rw [e, hph, b1Blk_apply m c t, vwBlk_apply m c t]

/-! ## The strip of the score scratch a point fills -/

/-- A point's strip starts at row 0 and at column 256 times the point's place in its tile. -/
theorem off_strip : ∀ t : Fin cfg0.N, k0_off1 (grid0.coords t) = ![0, 256 * (t.val % 4)] :=
  (by decide +kernel : ∀ t : Fin grid0.N, k0_off1 (grid0.coords t) = ![0, 256 * (t.val % 4)])

/-- Entry (r, k) of a point's strip is entry (r, position k of the strip) of the scratch. -/
theorem strip_emb (t : Fin cfg0.N) (j : ℕ) (hj : j < 4) (ht : t.val % 4 = j) (r : Fin 16) (k : Fin 256) :
    (strip (grid0.coords t)).emb (ix2 r k) = ix2 r (pos j hj k) := by
  have h := off_strip t
  funext a
  apply Fin.ext
  match a with
  | ⟨0, _⟩ =>
    show (k0_off1 (grid0.coords t)) 0 + 1 * r.val = r.val
    rw [h]; simp
  | ⟨1, _⟩ =>
    show (k0_off1 (grid0.coords t)) 1 + 1 * k.val = 256 * j + k.val
    rw [h, ht]; simp

/-- An entry of another strip is not in a point's strip. -/
theorem strip_not_mem (t : Fin cfg0.N) (i : ℕ) (hi : i < 4) (h : i ≠ t.val % 4) (r : Fin 16) (k : Fin 256) :
    ix2 r (pos i hi k) ∉ (strip (grid0.coords t)).set := by
  rw [Rect.mem_set_unit]
  intro hmem
  have h1 := hmem 1
  rw [off_strip t] at h1
  have h2 : 256 * (t.val % 4) ≤ 256 * i + k.val ∧ 256 * i + k.val < 256 * (t.val % 4) + 256 := h1
  have := k.isLt
  omega

/-! ## The carried values, point by point -/

/-- What is carried after strip j of a batch tile whose rows are the batch rows B: the specification's projected hidden
    state, the streaming maximum, sum and weighted sums of the rows' real scores, and the scores of strips 0 … j. -/
structure TileInv (B : Fin 16 → Fin 256) (j : ℕ) (p : Carried Ideal) : Prop where
  ph : ∀ r u, p.ph (ix2 r u) = Cert.Spec.hidProj (A1 m c) (A4 m c) (A5 m c) (B r) u
  mx : ∀ r, p.mx (ix2 r 0) = runMax (scoreR m c (B r)) j
  sm : ∀ r, p.sm (ix2 r 0) = runSum (scoreR m c (B r)) j
  acc : ∀ r d, p.acc (ix2 r d) = runAcc (scoreR m c (B r)) (featR m c (B r) d) j
  sc : ∀ r i (hi : i < 4) k, i ≤ j → p.sc (ix2 r (pos i hi k)) = Cert.Spec.score (A0 m c) (A1 m c) (A2 m c) (A3 m c) (A4 m c) (A5 m c) (A6 m c) (A7 m c) (B r) (pos i hi k)

/-- The first point of a tile. -/
theorem inv_first (hreal : ArgsReal m c) (t : Fin cfg0.N) (ht : t.val % 4 = 0) (B : Fin 16 → Fin 256)
    (hB : ∀ r, rowOf t r = B r) (old : Vec Ideal S16x1024 .f32) :
    TileInv m c B 0 (firstStep (grid0.coords t) (featBlk m c t) (hidBlk m c t) (w1Blk m c t) (b1Blk m c t) (w2Blk m c t)
      (b2Blk m c t) (vwBlk m c t) (vbBlk m c t) old) := by
  have hph : ∀ r u, k0_pay13 (F := Ideal) (hidBlk m c t) (w2Blk m c t) (b2Blk m c t) (ix2 r u)
      = Cert.Spec.hidProj (A1 m c) (A4 m c) (A5 m c) (B r) u := fun r u => by rw [hid_proj m c t, hB]
  have hs : ∀ r k, k0_pay14 (F := Ideal) (featBlk m c t) (w1Blk m c t) (b1Blk m c t)
      (k0_pay13 (hidBlk m c t) (w2Blk m c t) (b2Blk m c t)) (vwBlk m c t) (vbBlk m c t) (ix2 r k)
      = ((scoreR m c (B r) 0 k : ℝ) : EReal) := fun r k => by
    rw [strip_score m c t _ B hB hph, posOf_eq t 0 (by omega) ht, scoreR_spec m c hreal]
  have hf : ∀ r d k, featBlk m c t (ix3 r k d) = ((featR m c (B r) d 0 k : ℝ) : EReal) := fun r d k => by
    rw [featBlk_apply m c t, hB, posOf_eq t 0 (by omega) ht, featR_spec m c hreal]
  refine ⟨hph, fun r => ?_, fun r => ?_, fun r d => ?_, fun r i hi k hij => ?_⟩
  · show k0_pay6 (F := Ideal) _ _ (ix2 r 0) = _
    rw [pay6_apply, pay10_apply, runMax, funext (hs r)]
  · show k0_pay4 (F := Ideal) _ _ _ _ (ix2 r 0) = _
    rw [pay4_apply, pay10_apply, pay11_apply, runSum, funext (hs r)]
  · show k0_pay5 (F := Ideal) _ _ _ _ _ (ix2 r d) = _
    rw [pay5_apply, pay10_apply, pay12_apply, runAcc, funext (hs r), funext (hf r d)]
  · obtain rfl : i = 0 := by omega
    show (strip (grid0.coords t)).overlay old _ (ix2 r (pos 0 hi k)) = _
    rw [← strip_emb t 0 hi ht r k, Rect.overlay_emb, pay15_eq, strip_score m c t _ B hB hph, posOf_eq t 0 hi ht]

/-- A later point of a tile. -/
theorem inv_next (hreal : ArgsReal m c) (t : Fin cfg0.N) (j : ℕ) (hj : j + 1 < 4) (ht : t.val % 4 = j + 1)
    (B : Fin 16 → Fin 256) (hB : ∀ r, rowOf t r = B r) (p : Carried Ideal) (hp : TileInv m c B j p) :
    TileInv m c B (j + 1) (nextStep (grid0.coords t) (featBlk m c t) (w1Blk m c t) (b1Blk m c t) (vwBlk m c t)
      (vbBlk m c t) p) := by
  have hs : ∀ r k, k0_pay14 (F := Ideal) (featBlk m c t) (w1Blk m c t) (b1Blk m c t) p.ph (vwBlk m c t) (vbBlk m c t)
      (ix2 r k) = ((scoreR m c (B r) (j + 1) k : ℝ) : EReal) := fun r k => by
    rw [strip_score m c t _ B hB hp.ph, posOf_eq t (j + 1) hj ht, scoreR_spec m c hreal]
  have hf : ∀ r d k, featBlk m c t (ix3 r k d) = ((featR m c (B r) d (j + 1) k : ℝ) : EReal) := fun r d k => by
    rw [featBlk_apply m c t, hB, posOf_eq t (j + 1) hj ht, featR_spec m c hreal]
  refine ⟨hp.ph, fun r => ?_, fun r => ?_, fun r d => ?_, fun r i hi k hij => ?_⟩
  · show k0_pay6 (F := Ideal) _ _ (ix2 r 0) = _
    rw [pay6_apply, hp.mx, funext (hs r)]
    rfl
  · show k0_pay4 (F := Ideal) _ _ _ _ (ix2 r 0) = _
    rw [pay4_apply, hp.mx, hp.sm, funext (hs r)]
    rfl
  · show k0_pay5 (F := Ideal) _ _ _ _ _ (ix2 r d) = _
    rw [pay5_apply, hp.mx, hp.acc, funext (hs r), funext (hf r d)]
    rfl
  · show (strip (grid0.coords t)).overlay p.sc _ (ix2 r (pos i hi k)) = _
    by_cases hi' : i = j + 1
    · subst hi'
      rw [← strip_emb t (j + 1) hi ht r k, Rect.overlay_emb, pay15_eq, strip_score m c t _ B hB hp.ph,
        posOf_eq t (j + 1) hi ht]
    · rw [Rect.overlay_of_not_mem _ _ _ (strip_not_mem t i hi (by omega) r k)]
      exact hp.sc r i hi k (by omega)

/-- Every point of a tile, by its place in the tile. -/
theorem carried_inv (hreal : ArgsReal m c) (B : Fin 16 → Fin 256) : ∀ (j : ℕ) (hj : j < 4) (t : Fin cfg0.N)
    (ht : t.val % 4 = j) (hB : ∀ r, rowOf t r = B r), TileInv m c B j (carriedAt m c t.val t.isLt)
  | 0, hj, t, ht, hB => by
    rw [carriedAt_first m c t ht]
    exact inv_first m c hreal t ht B hB unwritten
  | j + 1, hj, t, ht, hB => by
    rw [carriedAt_next m c t (by omega)]
    have hlt : t.val - 1 < cfg0.N := Nat.lt_of_le_of_lt (Nat.sub_le _ _) t.isLt
    exact inv_next m c hreal t j hj ht B hB _ (carried_inv hreal B j (by omega) ⟨t.val - 1, hlt⟩
      (by show (t.val - 1) % 4 = j; omega)
      (fun r => by rw [← hB r]; exact rowOf_congr _ _ (by show (t.val - 1) / 4 = t.val / 4; omega) r))

/-! ## The specification's softmax of a row, by strips -/

/-- A row's largest score is the largest of its real scores over the four strips. -/
theorem spec_rowMax (hreal : ArgsReal m c) (b : Fin 256) :
    Cert.Spec.rowMax (A0 m c) (A1 m c) (A2 m c) (A3 m c) (A4 m c) (A5 m c) (A6 m c) (A7 m c) b = ((realMax (scoreR m c b) 3 : ℝ) : EReal) := by
  unfold Cert.Spec.rowMax
  exact sup_strips _ _ fun j hj k => (scoreR_spec m c hreal b j hj k).symm

/-- The exponential of a score less the row's maximum is a real exponential. -/
theorem spec_expw (hreal : ArgsReal m c) (b : Fin 256) (j : ℕ) (hj : j < 4) (k : Fin 256) :
    Cert.Spec.expw (A0 m c) (A1 m c) (A2 m c) (A3 m c) (A4 m c) (A5 m c) (A6 m c) (A7 m c) b (pos j hj k)
      = ((Real.exp (scoreR m c b j k - realMax (scoreR m c b) 3) : ℝ) : EReal) := by
  unfold Cert.Spec.expw
  rw [spec_rowMax m c hreal, ← scoreR_spec m c hreal b j hj k, exp_sub_coe]

/-- The softmax's denominator is the real sum of those exponentials over the four strips. -/
theorem spec_denom (hreal : ArgsReal m c) (b : Fin 256) :
    Cert.Spec.denom (A0 m c) (A1 m c) (A2 m c) (A3 m c) (A4 m c) (A5 m c) (A6 m c) (A7 m c) b
      = ((∑ j ∈ Finset.range (3 + 1), ∑ k : Fin 256, Real.exp (scoreR m c b j k - realMax (scoreR m c b) 3) : ℝ) : EReal) := by
  unfold Cert.Spec.denom
  rw [sum_strips _ (fun j k => ((Real.exp (scoreR m c b j k - realMax (scoreR m c b) 3) : ℝ) : EReal))
    (fun j hj k => spec_expw m c hreal b j hj k), coe_sum]
  exact Finset.sum_congr rfl fun j _ => (coe_sum _ _).symm

/-- An attention weight is the quotient of a real exponential by the real sum. -/
theorem spec_weight (hreal : ArgsReal m c) (b : Fin 256) (j : ℕ) (hj : j < 4) (k : Fin 256) :
    Cert.Spec.weight (A0 m c) (A1 m c) (A2 m c) (A3 m c) (A4 m c) (A5 m c) (A6 m c) (A7 m c) b (pos j hj k)
      = Ideal.div ((Real.exp (scoreR m c b j k - realMax (scoreR m c b) 3) : ℝ) : EReal)
          ((∑ j ∈ Finset.range (3 + 1), ∑ k : Fin 256, Real.exp (scoreR m c b j k - realMax (scoreR m c b) 3) : ℝ) : EReal) := by
  unfold Cert.Spec.weight
  rw [spec_expw m c hreal, spec_denom m c hreal]

/-- The context block a batch tile's last point emits is the specification's context vectors of the tile's rows. -/
theorem ctx_last (hreal : ArgsReal m c) (t : Fin cfg0.N) (ht : t.val % 4 = 3) (r : Fin 16) (d : Fin 512) :
    ctxOf (carriedAt m c t.val t.isLt) (ix2 r d)
      = Cert.Spec.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 (rowOf t r) d) := by
  have hI := carried_inv m c hreal (rowOf t) 3 (by omega) t ht (fun _ => rfl)
  have hZ := sum_exp_pos (scoreR m c (rowOf t r)) 3
  show k0_pay8 (F := Ideal) _ _ (ix2 r d)
    = ∑ l : Fin 1024, Cert.Spec.weight (A0 m c) (A1 m c) (A2 m c) (A3 m c) (A4 m c) (A5 m c) (A6 m c) (A7 m c) (rowOf t r) l * A0 m c (ix3 (rowOf t r) l d)
  rw [pay8_apply, hI.acc, hI.sm, runAcc_eq, runSum_eq,
    sum_mul_one_div 3 (fun j k => Real.exp (scoreR m c (rowOf t r) j k - realMax (scoreR m c (rowOf t r)) 3))
      (featR m c (rowOf t r) d) _ hZ]
  refine (sum_strips _ _ fun j hj k => ?_).symm
  beta_reduce
  rw [spec_weight m c hreal, featR_spec m c hreal _ _ _ hj]

/-- The attention-weight block it emits is the specification's weights of the tile's rows, every position. -/
theorem attn_last (hreal : ArgsReal m c) (t : Fin cfg0.N) (ht : t.val % 4 = 3) (r : Fin 16) (k : Fin 1024) :
    attnOf (carriedAt m c t.val t.isLt) (ix2 r k)
      = Cert.Spec.weight (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (rowOf t r) k := by
  have hI := carried_inv m c hreal (rowOf t) 3 (by omega) t ht (fun _ => rfl)
  have hZ := sum_exp_pos (scoreR m c (rowOf t r)) 3
  obtain ⟨j, hj, k', rfl⟩ := exists_pos k
  show k0_pay9 (F := Ideal) _ _ _ (ix2 r (pos j hj k'))
    = Cert.Spec.weight (A0 m c) (A1 m c) (A2 m c) (A3 m c) (A4 m c) (A5 m c) (A6 m c) (A7 m c) (rowOf t r) (pos j hj k')
  rw [pay9_apply, hI.sc r j hj k' (by omega), hI.mx, hI.sm, runMax_eq, runSum_eq, ← scoreR_spec m c hreal _ j hj k',
    exp_sub_coe, Cert.Softmax.mul_one_div _ _ hZ, spec_weight m c hreal]

end Cert.KernelIdeal.Hand

end
-- ==== Proof.KI.Arrays.lean ====
/-
  The whole program on the extended reals: each batch tile's last point writes its context block and its
  attention-weight block back, the sixteen tiles' blocks tile the two result arrays, and the host reshape after the
  region re-lays the weights as 256 × 1024 × 1; so the program ends with the specification's context vectors and
  attention weights, its arguments unchanged.
-/
import proofs.«407076_j10874857193754_3_alg».proof.Proof.KI.Launch
import proofs.«407076_j10874857193754_3_alg».proof.Proof.KI.Tile

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

section Arrays

variable (m : (ℓ : Loc nD τ sig) → Buf (Elt Ideal) ℓ) (c : Dev nD)

/-! ## The two result windows' blocks -/

/-- The two result windows' block indices at a grid point, decided over the grid: point `t` holds block (tile, 0). -/
theorem out_idx : ∀ t : Fin cfg0.N, win0_8.index t (0 : Fin 2) = t.val / 4 ∧ win0_8.index t (1 : Fin 2) = 0
    ∧ win0_9.index t (0 : Fin 2) = t.val / 4 ∧ win0_9.index t (1 : Fin 2) = 0 :=
  (by decide +kernel : ∀ t : Fin grid0.N, _)

/-- The specification's context vectors of the arguments, as one 256 × 512 array. -/
abbrev ctxArr : S256x512.Idx → EReal :=
  Cert.Spec.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The specification's attention weights of the arguments, as one 256 × 1024 array. -/
abbrev wArr : S256x1024.Idx → EReal := fun i =>
  Cert.Spec.weight (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1)

/-- A 16 × 512 block whose row `r` is row `rowOf t r` of a 256 × 512 array is the first result window's block of that
    array at point `t`: the block's coordinate is block index × block size + the coordinate inside. -/
theorem blk8_eq (t : Fin cfg0.N) (X : Vec Ideal S16x512 .f32) (G : S256x512.Idx → EReal)
    (h : ∀ (r : Fin 16) (d : Fin 512), X (ix2 r d) = G (ix2 (rowOf t r) d)) :
    (cfg0.win 8).cut (grid0.coords t) X = ((cfg0.win 8).blk t).view.read (Elt Ideal) G := by
  obtain ⟨e0, e1, -, -⟩ := out_idx t
  funext y
  obtain ⟨r, d, rfl⟩ : ∃ (r : Fin 16) (d : Fin 512), y = ix2 r d := ⟨y 0, y 1, eq_ix2 (n0 := 16) (n1 := 512) y⟩
  show X (ix2 r d) = G (((cfg0.win 8).blk t).view.emb (ix2 r d))
  rw [h r d]
  refine congrArg G (funext fun a => Fin.ext ?_)
  match a with
  | ⟨0, _⟩ => show 16 * (t.val / 4) + r.val = win0_8.index t (0 : Fin 2) * 16 + 1 * r.val; omega
  | ⟨1, _⟩ => show d.val = win0_8.index t (1 : Fin 2) * 512 + 1 * d.val; omega

/-- The same for the second result window: 16 × 1024 blocks of a 256 × 1024 array. -/
theorem blk9_eq (t : Fin cfg0.N) (X : Vec Ideal S16x1024 .f32) (G : S256x1024.Idx → EReal)
    (h : ∀ (r : Fin 16) (k : Fin 1024), X (ix2 r k) = G (ix2 (rowOf t r) k)) :
    (cfg0.win 9).cut (grid0.coords t) X = ((cfg0.win 9).blk t).view.read (Elt Ideal) G := by
  obtain ⟨-, -, e0, e1⟩ := out_idx t
  funext y
  obtain ⟨r, k, rfl⟩ : ∃ (r : Fin 16) (k : Fin 1024), y = ix2 r k := ⟨y 0, y 1, eq_ix2 (n0 := 16) (n1 := 1024) y⟩
  show X (ix2 r k) = G (((cfg0.win 9).blk t).view.emb (ix2 r k))
  rw [h r k]
  refine congrArg G (funext fun a => Fin.ext ?_)
  match a with
  | ⟨0, _⟩ => show 16 * (t.val / 4) + r.val = win0_9.index t (0 : Fin 2) * 16 + 1 * r.val; omega
  | ⟨1, _⟩ => show k.val = win0_9.index t (1 : Fin 2) * 1024 + 1 * k.val; omega

/-- What a batch tile's last point writes back to the first result is its block of the specification's context vectors. -/
theorem flushed8_eq (hreal : ArgsReal m c) (t : Fin cfg0.N) (hf : (cfg0.win 8).flush t = true) :
    (dats m 0 c).flushed 8 t = ((cfg0.win 8).blk t).view.read (Elt Ideal) (ctxArr m c) := by
  have h3 : t.val % 4 = 3 := (flush0_8 t).mp hf
  show (cfg0.win 8).cut (grid0.coords t) ((dats m 0 c).after 8 t) = _
  rw [after0_8]
  exact blk8_eq t _ _ fun r d => ctx_last m c hreal t h3 r d

/-- What it writes back to the second result is its block of the specification's attention weights. -/
theorem flushed9_eq (hreal : ArgsReal m c) (t : Fin cfg0.N) (hf : (cfg0.win 9).flush t = true) :
    (dats m 0 c).flushed 9 t = ((cfg0.win 9).blk t).view.read (Elt Ideal) (wArr m c) := by
  have h3 : t.val % 4 = 3 := (flush0_9 t).mp hf
  show (cfg0.win 9).cut (grid0.coords t) ((dats m 0 c).after 9 t) = _
  rw [after0_9]
  exact blk9_eq t _ _ fun r k => attn_last m c hreal t h3 r k

/-- An index of the first result is in point `t`'s block iff each coordinate is in the block's range on its axis. -/
theorem mem_blk8 (t : Fin cfg0.N) (i : S256x512.Idx) :
    i ∈ ((cfg0.win 8).blk t).view.set ↔ ∀ a : Fin 2, win0_8.index t a * S16x512.size a ≤ (i a).val ∧ (i a).val < win0_8.index t a * S16x512.size a + S16x512.size a := by
  show i ∈ ((View.whole main_v7_0).slice (win0_8.rect t)).set ↔ _
  rw [View.set_slice_whole, Rect.mem_set_unit]
  exact Iff.rfl

/-- The same for the second result. -/
theorem mem_blk9 (t : Fin cfg0.N) (i : S256x1024.Idx) :
    i ∈ ((cfg0.win 9).blk t).view.set ↔ ∀ a : Fin 2, win0_9.index t a * S16x1024.size a ≤ (i a).val ∧ (i a).val < win0_9.index t a * S16x1024.size a + S16x1024.size a := by
  show i ∈ ((View.whole main_v7_1).slice (win0_9.rect t)).set ↔ _
  rw [View.set_slice_whole, Rect.mem_set_unit]
  exact Iff.rfl

/-- The last point of batch tile `b / 16` is a grid point. -/
theorem lastPt_lt (b : ℕ) (hb : b < 256) : 4 * (b / 16) + 3 < cfg0.N := by
  have hN : cfg0.N = 64 := N_0
  omega

/-- Row `b` of the first result is written back by the last point of batch tile `b / 16`. -/
theorem cover8 (i : S256x512.Idx) :
    ∃ t : Fin cfg0.N, (cfg0.win 8).flush t = true ∧ i ∈ ((cfg0.win 8).blk t).view.set := by
  have hi0 : (i 0).val < 256 := (i 0).isLt
  have hi1 : (i 1).val < 512 := (i 1).isLt
  refine ⟨⟨4 * ((i 0).val / 16) + 3, lastPt_lt _ hi0⟩, (flush0_8 _).mpr (by show (4 * ((i 0).val / 16) + 3) % 4 = 3; omega), ?_⟩
  obtain ⟨e0, e1, -, -⟩ := out_idx ⟨4 * ((i 0).val / 16) + 3, lastPt_lt _ hi0⟩
  rw [mem_blk8]
  intro a
  match a with
  | ⟨0, _⟩ =>
    show win0_8.index _ (0 : Fin 2) * 16 ≤ (i 0).val ∧ (i 0).val < win0_8.index _ (0 : Fin 2) * 16 + 16
    rw [e0]
    show (4 * ((i 0).val / 16) + 3) / 4 * 16 ≤ (i 0).val ∧ (i 0).val < (4 * ((i 0).val / 16) + 3) / 4 * 16 + 16
    omega
  | ⟨1, _⟩ =>
    show win0_8.index _ (1 : Fin 2) * 512 ≤ (i 1).val ∧ (i 1).val < win0_8.index _ (1 : Fin 2) * 512 + 512
    rw [e1]
    omega

/-- The same for the second result. -/
theorem cover9 (i : S256x1024.Idx) :
    ∃ t : Fin cfg0.N, (cfg0.win 9).flush t = true ∧ i ∈ ((cfg0.win 9).blk t).view.set := by
  have hi0 : (i 0).val < 256 := (i 0).isLt
  have hi1 : (i 1).val < 1024 := (i 1).isLt
  refine ⟨⟨4 * ((i 0).val / 16) + 3, lastPt_lt _ hi0⟩, (flush0_9 _).mpr (by show (4 * ((i 0).val / 16) + 3) % 4 = 3; omega), ?_⟩
  obtain ⟨-, -, e0, e1⟩ := out_idx ⟨4 * ((i 0).val / 16) + 3, lastPt_lt _ hi0⟩
  rw [mem_blk9]
  intro a
  match a with
  | ⟨0, _⟩ =>
    show win0_9.index _ (0 : Fin 2) * 16 ≤ (i 0).val ∧ (i 0).val < win0_9.index _ (0 : Fin 2) * 16 + 16
    rw [e0]
    show (4 * ((i 0).val / 16) + 3) / 4 * 16 ≤ (i 0).val ∧ (i 0).val < (4 * ((i 0).val / 16) + 3) / 4 * 16 + 16
    omega
  | ⟨1, _⟩ =>
    show win0_9.index _ (1 : Fin 2) * 1024 ≤ (i 1).val ∧ (i 1).val < win0_9.index _ (1 : Fin 2) * 1024 + 1024
    rw [e1]
    omega

/-- The first result array ends at the specification's context vectors: the sixteen last points' blocks tile it. -/
theorem final8 (hreal : ArgsReal m c) : (dats m 0 c).arrAt 8 cfg0.N = ctxArr m c :=
  (dats m 0 c).arrAt_eq_of_cover 8 (ctxArr m c) (flushed8_eq m c hreal) cover8

/-- The second result array ends at the specification's attention weights, laid 256 × 1024. -/
theorem final9 (hreal : ArgsReal m c) : (dats m 0 c).arrAt 9 cfg0.N = wArr m c :=
  (dats m 0 c).arrAt_eq_of_cover 9 (wArr m c) (flushed9_eq m c hreal) cover9

/-! ## The host reshape after the region -/

/-- A 256 × 1024 array re-laid 256 × 1024 × 1, read at (b, l, 0), is the array's entry (b, l): the two indices have the
    same row-major position. -/
theorem relaid_apply (x : S256x1024.Idx → EReal) (j : S256x1024x1.Idx) :
    shapeCast S256x1024x1 x shapeCasts_S256x1024_S256x1024x1 j = x (ix2 (j 0) (j 1)) := by
  refine shapeCast_apply x shapeCasts_S256x1024_S256x1024x1 j (ix2 (j 0) (j 1)) ?_
  rw [Shape.rowMajor_val_two, Shape.rowMajor_val_three]
  have h2 : (j 2).val < 1 := (j 2).isLt
  show (j 0).val * 1024 + (j 1).val = ((j 0).val * 1024 + (j 1).val) * 1 + (j 2).val
  omega

/-- The array the host reshape reads is the second result as the region leaves it: the specification's weights. -/
theorem tail_v7_1 (hreal : ArgsReal m c) :
    Pipeline.withArrays (cfgs 0).spec c (V0 m c) (fun w => (dats m 0 c).arrAt w (cfgs 0).N) (Proc.devRef .tc main_v7_1) = wArr m c :=
  (Pipeline.withArrays_arr spec0 launch0.win.arr_inj c _ _ 9).trans (final9 m c hreal)

/-- After the host reshape the third array holds the specification's attention weights, laid 256 × 1024 × 1. -/
theorem v8_eq (hreal : ArgsReal m c) :
    Pipeline.afterTail₀ cfgs (dats m) 0 (V0 m) [hostOps1] c main_v8
      = Cert.Spec.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v8) = _
  after_results
  funext j
  show shapeCast S256x1024x1 (Pipeline.withArrays (cfgs 0).spec c (V0 m c) (fun w => (dats m 0 c).arrAt w (cfgs 0).N) (Proc.devRef .tc main_v7_1)) shapeCasts_S256x1024_S256x1024x1 j = _
  rw [tail_v7_1 m c hreal]
  exact relaid_apply (wArr m c) j

end Arrays

/-! ## The whole program -/

/-- With real arguments the idealized kernel program terminates with its two results at the specification's context
    vectors and attention weights of its arguments, and the arguments unchanged. -/
theorem kernel_run (m : (ℓ : Loc nD τ sig) → Buf (Elt Ideal) ℓ) (ρ : Dev nD → PrngReg) (hreal : ∀ c, ArgsReal m c) :
    θ_run (defs (F := Ideal)) (onTc (τ := τ) (main (F := Ideal))) ⟨m, fun _ => 0, ρ⟩ (fun r => ∀ c : Dev nD,
      r.2.mem ((c.tc : Thread nD τ).loc main_v7_0) = Cert.Spec.ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v8) = Cert.Spec.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).1 8).trans (final8 m c (hreal c)),
      ((h c).2 main_v8 (Pipeline.mem_restRefs_of main_v8 (by decide) (by decide))).trans (v8_eq m c (hreal c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main (F := Ideal) m ρ)

end Cert.KernelIdeal.Hand

end
-- ==== Proof.RefValue.lean ====
/-
  The reference program's two results, read index by index: the attention weights are the softmax over the sequence
  positions of the additive-attention scores, and the context vector is the weights' weighted sum of the feature rows.
-/
import proofs.«407076_j10874857193754_3_alg».proof.Proof.Gen.ReferenceIdeal.Run
import proofs.«407076_j10874857193754_3_alg».proof.Proof.Gen.ReferenceIdeal.Read
import proofs.«407076_j10874857193754_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ### The index maps of the layout operations, at explicit coordinates -/

theorem lidx12 (b : Fin 256) (l : Fin 1024) (z : Fin 1) (u : Fin 512) : lidx_main_v12 (ix3 b l z) u = ix3 b l u :=
  funext fun a => Fin.ext (by match a with | ⟨0, _⟩ => rfl | ⟨1, _⟩ => rfl | ⟨2, _⟩ => rfl)
theorem ridx12 (b : Fin 256) (l : Fin 1024) (z : Fin 1) (u : Fin 512) : ridx_main_v12 (ix3 b l z) u = ix2 u (0 : Fin 1) :=
  funext fun a => Fin.ext (by match a with | ⟨0, _⟩ => rfl | ⟨1, _⟩ => exact Nat.lt_one_iff.mp z.isLt)
theorem idx13_14 (i : S256x1024x1.Idx) : idx_main_v13 (idx_main_v14 i) = ix1 (0 : Fin 1) :=
  funext fun a => Fin.ext (by match a with | ⟨0, _⟩ => rfl)
theorem lidx0 (b : Fin 256) (l : Fin 1024) (u d : Fin 512) : lidx_main_v0 (ix3 b l u) d = ix3 b l d :=
  funext fun a => Fin.ext (by match a with | ⟨0, _⟩ => rfl | ⟨1, _⟩ => rfl | ⟨2, _⟩ => rfl)
theorem ridx0 (b : Fin 256) (l : Fin 1024) (u d : Fin 512) : ridx_main_v0 (ix3 b l u) d = ix2 d u :=
  funext fun a => Fin.ext (by match a with | ⟨0, _⟩ => rfl | ⟨1, _⟩ => rfl)
theorem idx1_2 (b : Fin 256) (l : Fin 1024) (u : Fin 512) : idx_main_v1 (idx_main_v2 (ix3 b l u)) = ix1 u :=
  funext fun a => Fin.ext (by match a with | ⟨0, _⟩ => rfl)
theorem idx8_9 (b : Fin 256) (l : Fin 1024) (u : Fin 512) : idx_main_v8 (idx_main_v9 (ix3 b l u)) = ix2 b u :=
  funext fun a => Fin.ext (by match a with | ⟨0, _⟩ => rfl | ⟨1, _⟩ => rfl)
theorem lidx4 (b : Fin 256) (u h : Fin 512) : lidx_main_v4 (ix2 b u) h = ix2 b h :=
  funext fun a => Fin.ext (by match a with | ⟨0, _⟩ => rfl | ⟨1, _⟩ => rfl)
theorem ridx4 (b : Fin 256) (u h : Fin 512) : ridx_main_v4 (ix2 b u) h = ix2 h u :=
  funext fun a => Fin.ext (by match a with | ⟨0, _⟩ => rfl | ⟨1, _⟩ => rfl)
theorem idx5_6 (b : Fin 256) (u : Fin 512) : idx_main_v5 (idx_main_v6 (ix2 b u)) = ix1 u :=
  funext fun a => Fin.ext (by match a with | ⟨0, _⟩ => rfl)

/-- The tanh stage at (b, l, u): tanh of the feature row's projection plus the hidden state's. -/
theorem tanh_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (b : Fin 256) (l : Fin 1024) (u : Fin 512) :
    val_main_v11 (F := Ideal) x0 x1 x2 x3 x4 x5 (ix3 b l u)
      = Ideal.tanh (Cert.Spec.featProj x0 x2 x3 b l u + Cert.Spec.hidProj x1 x4 x5 b u) := by
  rw [val_main_v11_apply, val_main_v10_apply, val_main_v3_apply, val_main_v0_apply, val_main_v2_apply, val_main_v1_apply,
    val_main_v9_apply, val_main_v8_apply, idx8_9, val_main_v7_apply, val_main_v4_apply, val_main_v6_apply, val_main_v5_apply,
    idx1_2, idx5_6]
  simp only [lidx0, ridx0, lidx4, ridx4, Ideal.addf_def, Ideal.hostUnary_tanh_def]
  rfl

/-- The score stage at (b, l, ·) is the specification's score. -/
theorem score_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (b : Fin 256) (l : Fin 1024) (z : Fin 1) :
    val_main_v15 (F := Ideal) x0 x1 x2 x3 x4 x5 x6 x7 (ix3 b l z) = Cert.Spec.score x0 x1 x2 x3 x4 x5 x6 x7 b l := by
  rw [val_main_v15_apply, val_main_v12_apply, val_main_v14_apply, val_main_v13_apply, idx13_14]
  simp only [lidx12, ridx12, tanh_eq, Ideal.addf_def]
  rfl

/-- The pattern 0xFF800000 is −∞. -/
theorem ofBits_neg_inf : Ideal.ofBits .f32 0xFF800000#32 = (⊥ : EReal) := by simp [Ideal.ofBits, Ideal.ieee]

/-- The reduced index (b, ·) with position k put back on the sequence axis is (b, k, ·). -/
theorem lift_row (h : S256x1024x1.Reduces [1] S256x1) (b : Fin 256) (z : Fin 1) (k : Fin 1024) :
    h.lift (ix2 b z) k = ix3 b k z := by
  funext c; apply Fin.ext
  match c with | ⟨0, _⟩ => rfl | ⟨1, _⟩ => rfl | ⟨2, _⟩ => rfl

/-- The maximum stage at (b, ·) is the row's largest score: the reduce over the sequence axis is the fold of `max`
    from −∞ over the row's positions, which is the supremum; the outer maximum with −∞ changes nothing. -/
theorem rowMax_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (b : Fin 256) (z : Fin 1) :
    val_main_v18 (F := Ideal) x0 x1 x2 x3 x4 x5 x6 x7 (ix2 b z) = Cert.Spec.rowMax x0 x1 x2 x3 x4 x5 x6 x7 b := by
  have hs : ∀ (l : Fin 1024), val_main_v15 (F := Ideal) x0 x1 x2 x3 x4 x5 x6 x7 (ix3 b l z) = Cert.Spec.score x0 x1 x2 x3 x4 x5 x6 x7 b l :=
    fun l => score_eq x0 x1 x2 x3 x4 x5 x6 x7 b l z
  rw [val_main_v18_apply, val_main_v17_apply, val_main_cst_0_apply]
  unfold val_main_v16 Cert.Spec.rowMax
  generalize val_main_v15 (F := Ideal) x0 x1 x2 x3 x4 x5 x6 x7 = y at hs ⊢
  generalize Cert.Spec.score x0 x1 x2 x3 x4 x5 x6 x7 b = s at hs ⊢
  have hred : S256x1024x1.Reduces [1] S256x1 := by decide
  have e := Host.reduce_eq_fold_single (FloatOps.maximumf (F := Ideal) (φ := .f32)) y (val_main_cst (F := Ideal))
    reducesTo_S256x1024x1_S256x1_d1 hred h_S_ (ix2 b z)
  have hf : (y ∘ hred.lift (ix2 b z)) = s := funext fun k => (congrArg y (lift_row hred b z k)).trans (hs k)
  rw [e, val_main_cst_apply, hf]
  show max (Ideal.ofBits .f32 0xFF800000#32) (Finset.fold max (Ideal.ofBits .f32 0xFF800000#32) s Finset.univ) = Finset.univ.sup s
  rw [ofBits_neg_inf, max_bot_left]
  rfl

/-! ### The index maps of the softmax's broadcasts and of the two sums over the sequence axis -/

theorem idx19_20 (b : Fin 256) (l : Fin 1024) (z : Fin 1) : idx_main_v19 (idx_main_v20 (ix3 b l z)) = ix2 b (0 : Fin 1) :=
  funext fun a => Fin.ext (by match a with | ⟨0, _⟩ => rfl | ⟨1, _⟩ => rfl)
theorem idx23 (b : Fin 256) (z : Fin 1) (k : Fin 1024) : idx_main_v23 (ix2 b z) k = ix3 b k z :=
  funext fun a => Fin.ext (by match a with | ⟨0, _⟩ => rfl | ⟨1, _⟩ => rfl | ⟨2, _⟩ => rfl)
theorem idx24_25 (b : Fin 256) (l : Fin 1024) (z : Fin 1) : idx_main_v24 (idx_main_v25 (ix3 b l z)) = ix2 b (0 : Fin 1) :=
  funext fun a => Fin.ext (by match a with | ⟨0, _⟩ => rfl | ⟨1, _⟩ => rfl)
theorem idx27 (b : Fin 256) (l : Fin 1024) (u : Fin 512) : idx_main_v27 (ix3 b l u) = ix3 b l (0 : Fin 1) :=
  funext fun a => Fin.ext (by match a with | ⟨0, _⟩ => rfl | ⟨1, _⟩ => rfl | ⟨2, _⟩ => rfl)
theorem idx29 (b : Fin 256) (u : Fin 512) (k : Fin 1024) : idx_main_v29 (ix2 b u) k = ix3 b k u :=
  funext fun a => Fin.ext (by match a with | ⟨0, _⟩ => rfl | ⟨1, _⟩ => rfl | ⟨2, _⟩ => rfl)

/-- The exponential stage at (b, l, ·): the exponential of the score less the row's maximum. -/
theorem expw_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (b : Fin 256) (l : Fin 1024) (z : Fin 1) :
    val_main_v22 (F := Ideal) x0 x1 x2 x3 x4 x5 x6 x7 (ix3 b l z) = Cert.Spec.expw x0 x1 x2 x3 x4 x5 x6 x7 b l := by
  rw [val_main_v22_apply, val_main_v21_apply, val_main_v20_apply, val_main_v19_apply, score_eq, idx19_20, rowMax_eq]
  simp only [Ideal.subf_def, Ideal.hostUnary_exp_def]
  rfl

/-- The sum stage at (b, ·): zero plus the row's sum of exponentials, the softmax's denominator. -/
theorem denom_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (b : Fin 256) (z : Fin 1) :
    val_main_v23 (F := Ideal) x0 x1 x2 x3 x4 x5 x6 x7 (ix2 b z) = Cert.Spec.denom x0 x1 x2 x3 x4 x5 x6 x7 b := by
  rw [val_main_v23_apply, val_main_cst_1_apply]
  simp only [idx23, expw_eq, Ideal.ofBits_def, Ideal.ofBits_zero_f32, zero_add]
  rfl

/-- The quotient stage at (b, l, ·) is the attention weight. -/
theorem weight_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (b : Fin 256) (l : Fin 1024) (z : Fin 1) :
    val_main_v26 (F := Ideal) x0 x1 x2 x3 x4 x5 x6 x7 (ix3 b l z) = Cert.Spec.weight x0 x1 x2 x3 x4 x5 x6 x7 b l := by
  rw [val_main_v26_apply, val_main_v25_apply, val_main_v24_apply, expw_eq, idx24_25, denom_eq]
  simp only [Ideal.hostDivf_def]
  rfl

/-- The reference's second result is the attention weights of the specification. -/
theorem attn_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) :
    val_main_v26 (F := Ideal) x0 x1 x2 x3 x4 x5 x6 x7 = Cert.Spec.attn x0 x1 x2 x3 x4 x5 x6 x7 := by
  funext i
  obtain ⟨b, l, z, rfl⟩ : ∃ (b : Fin 256) (l : Fin 1024) (z : Fin 1), i = ix3 b l z := ⟨i 0, i 1, i 2, eq_ix3 i⟩
  rw [weight_eq]
  rfl

/-- The reference's first result is the context vectors of the specification. -/
theorem ctx_eq (x0 : (⟨S256x1024x512, .f32⟩ : BufTy).Contents (Elt Ideal)) (x1 : (⟨S256x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) :
    val_main_v29 (F := Ideal) x0 x1 x2 x3 x4 x5 x6 x7 = Cert.Spec.ctx x0 x1 x2 x3 x4 x5 x6 x7 := by
  funext i
  obtain ⟨b, u, rfl⟩ : ∃ (b : Fin 256) (u : Fin 512), i = ix2 b u := ⟨i 0, i 1, eq_ix2 i⟩
  rw [val_main_v29_apply, val_main_cst_2_apply]
  simp only [idx29, val_main_v28_apply, val_main_v27_apply, idx27, weight_eq, Ideal.mulf_def, Ideal.ofBits_def,
    Ideal.ofBits_zero_f32, zero_add]
  rfl

end Cert.ReferenceIdeal.RefValue

end
-- ==== Proof.Finite.lean ====
/-
  The precondition read back: `finite_inputs` all ones says of each of the eight argument arrays that every entry's
  absolute value is below `+∞`, that is, that every entry is a real number.
-/
import proofs.«407076_j10874857193754_3_alg».proof.Defs
import proofs.«407076_j10874857193754_3_alg».proof.Proof.KI.Blocks
import Idealize.ShloMosaic.Lib.ReduceAll

noncomputable section

namespace Cert.Proof

open Idealize.ShloMosaic Idealize.ShloMosaic.TcCoe Idealize.SL.Sem

/-- The scalar shape has one index. -/
instance subsingleton_scalar_idx : Subsingleton Cert.Pre_finite_inputs.S_.Idx :=
  ⟨fun a b => funext fun d => d.elim0⟩

/-- The bit pattern of `+∞` denotes the top of the extended reals. -/
theorem ofBits_inf : Ideal.ofBits .f32 0x7F800000#32 = (⊤ : EReal) := by
  simp [Ideal.ofBits, Ideal.ieee]

/-- An extended real whose absolute value `max x (-x)` is below `⊤` is a real number: at `⊥` and at `⊤` that
    maximum is `⊤`, which is not below itself. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- One conjunct of the predicate, "every entry has `|x| < +∞`", read back: the reduction by `and` over every axis came
    out 1, so the comparison is 1 at every index, and there the entry is a real number. -/
theorem isReal_of_all {S u : Shape} {axes : List (Fin S.rank)} (x : FVec Ideal S .f32)
    (hb : Cert.Pre_finite_inputs.S_.BroadcastsInDim S (![] : Fin 0 → Fin S.rank))
    (hr : S.ReducesTo axes Cert.Pre_finite_inputs.S_) (init : IVec u 1) (hu : 0 < u.numel)
    (e : Host.reduce IntOp.andi
        (cmpf .olt (Host.absf x) (broadcastInDim S ![] hb (constant Cert.Pre_finite_inputs.S_ .f32 0x7F800000#32)))
        init hr hu ValueIdx.ix0 = 1#1) :
    Cert.Spec.IsReal x := by
  intro i
  -- the comparison at index `i` is 1: `max (x i) (-(x i)) < +∞`
  have hi := Host.reduce_andi_all _ init hr hu ValueIdx.ix0 e i
  refine real_of_abs_lt_top (x i) ?_
  rw [← ofBits_inf]
  exact hi

/-- Under the precondition every entry of every argument array of the idealized kernel program is real. -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Hand.ArgsReal m c := by
  -- the predicate's one result, with its chain of operations in view
  have h0 := congrFun (h c) ValueIdx.ix0
  dsimp only [Cert.Pre_finite_inputs.fn, Cert.Pre_finite_inputs.fn_part1, Cert.Pre_finite_inputs.fn_part2] at h0
  -- an `and` of two bits is 1 exactly when both are: the eight conjuncts, split from the last to the first
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  -- each conjunct says its array is real
  exact ⟨isReal_of_all _ _ _ _ _ a0, isReal_of_all _ _ _ _ _ a1, isReal_of_all _ _ _ _ _ a2, isReal_of_all _ _ _ _ _ a3,
    isReal_of_all _ _ _ _ _ a4, isReal_of_all _ _ _ _ _ a5, isReal_of_all _ _ _ _ _ a6, isReal_of_all _ _ _ _ _ a7⟩

end Cert.Proof

end
-- ==== Proof.lean ====
/-
  Additive attention computed in one pass over the sequence, against the plain jnp formula, over the extended reals.
  The kernel streams each batch row's 1024 positions in four strips, keeping the running maximum of the scores and
  the sums of exponentials rescaled to it, and divides once at the end; the reference takes the softmax of the whole
  row. With real inputs the two agree entry by entry: `exp (s - M) · exp (M - M') = exp (s - M')` makes the rescaled
  running sums the sums against the final maximum, and a product with the reciprocal of the positive final sum is the
  quotient by it. The three programs run and leave their arguments unchanged; the kernel's idealization rewrote no
  operation.
-/
import proofs.«407076_j10874857193754_3_alg».proof.Defs
import proofs.«407076_j10874857193754_3_alg».proof.Proof.Gen.Kernel
import proofs.«407076_j10874857193754_3_alg».proof.Proof.Gen.KernelIdeal
import proofs.«407076_j10874857193754_3_alg».proof.Proof.Gen.ReferenceIdeal
import proofs.«407076_j10874857193754_3_alg».proof.Proof.Gen.Pre_finite_inputs
import proofs.«407076_j10874857193754_3_alg».proof.Proof.Gen.ReferenceIdeal.Run
import proofs.«407076_j10874857193754_3_alg».proof.Proof.Gen.ReferenceIdeal.Read
import proofs.«407076_j10874857193754_3_alg».proof.Proof.KB.Launch
import proofs.«407076_j10874857193754_3_alg».proof.Proof.KI.Launch
import proofs.«407076_j10874857193754_3_alg».proof.Proof.KI.Arrays
import proofs.«407076_j10874857193754_3_alg».proof.Proof.RefValue
import proofs.«407076_j10874857193754_3_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Hand.frame m ρ

/-- So does its reading over the extended reals. -/
theorem frame_kernelIdeal : Cert.frame_KernelIdeal := fun m ρ _ => Cert.KernelIdeal.Hand.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments, both programs end at the specification's context vectors and
    attention weights of those arguments. -/
theorem algebraic : Cert.algebraic_KernelIdeal_ReferenceIdeal := by
  intro m ρ m' ρ' hpre hagree
  refine ⟨fun c => _, fun c => _, Cert.KernelIdeal.Hand.kernel_run m ρ (fun c => args_real m hpre c), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v29_eq, Cert.ReferenceIdeal.RefValue.ctx_eq,
      (hagree c).1, (hagree c).2.1, (hagree c).2.2.1, (hagree c).2.2.2.1, (hagree c).2.2.2.2.1, (hagree c).2.2.2.2.2.1, (hagree c).2.2.2.2.2.2.1, (hagree c).2.2.2.2.2.2.2]
  · rw [(h c).2.1, Cert.ReferenceIdeal.Read.val_main_v26_eq, Cert.ReferenceIdeal.RefValue.attn_eq,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
